-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19)) (m ((c.tc : Thread Cert.Kernel.nD Cert.Kernel.τ).loc Cert.Kernel.main_arg20)) (m ((c.tc : Thread Cert.Kernel.nD Cert.Kernel.τ).loc Cert.Kernel.main_arg21)) (m ((c.tc : Thread Cert.Kernel.nD Cert.Kernel.τ).loc Cert.Kernel.main_arg22)) (m ((c.tc : Thread Cert.Kernel.nD Cert.Kernel.τ).loc Cert.Kernel.main_arg23)) (m ((c.tc : Thread Cert.Kernel.nD Cert.Kernel.τ).loc Cert.Kernel.main_arg24))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) (m ((c.tc : Thread Cert.KernelIdeal.nD Cert.KernelIdeal.τ).loc Cert.KernelIdeal.main_arg24))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22)) (m ((c.tc : Thread Cert.ReferenceIdeal.nD Cert.ReferenceIdeal.τ).loc Cert.ReferenceIdeal.main_arg23)) (m ((c.tc : Thread Cert.ReferenceIdeal.nD Cert.ReferenceIdeal.τ).loc Cert.ReferenceIdeal.main_arg24))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20)
      ∧ r.2.mem ((c.tc : Thread Cert.Kernel.nD Cert.Kernel.τ).loc Cert.Kernel.main_arg21) = m ((c.tc : Thread Cert.Kernel.nD Cert.Kernel.τ).loc Cert.Kernel.main_arg21)
      ∧ r.2.mem ((c.tc : Thread Cert.Kernel.nD Cert.Kernel.τ).loc Cert.Kernel.main_arg22) = m ((c.tc : Thread Cert.Kernel.nD Cert.Kernel.τ).loc Cert.Kernel.main_arg22)
      ∧ r.2.mem ((c.tc : Thread Cert.Kernel.nD Cert.Kernel.τ).loc Cert.Kernel.main_arg23) = m ((c.tc : Thread Cert.Kernel.nD Cert.Kernel.τ).loc Cert.Kernel.main_arg23)
      ∧ r.2.mem ((c.tc : Thread Cert.Kernel.nD Cert.Kernel.τ).loc Cert.Kernel.main_arg24) = m ((c.tc : Thread Cert.Kernel.nD Cert.Kernel.τ).loc Cert.Kernel.main_arg24))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
      ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
      ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
      ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21)
      ∧ r.2.mem ((c.tc : Thread Cert.ReferenceIdeal.nD Cert.ReferenceIdeal.τ).loc Cert.ReferenceIdeal.main_arg22) = m ((c.tc : Thread Cert.ReferenceIdeal.nD Cert.ReferenceIdeal.τ).loc Cert.ReferenceIdeal.main_arg22)
      ∧ r.2.mem ((c.tc : Thread Cert.ReferenceIdeal.nD Cert.ReferenceIdeal.τ).loc Cert.ReferenceIdeal.main_arg23) = m ((c.tc : Thread Cert.ReferenceIdeal.nD Cert.ReferenceIdeal.τ).loc Cert.ReferenceIdeal.main_arg23)
      ∧ r.2.mem ((c.tc : Thread Cert.ReferenceIdeal.nD Cert.ReferenceIdeal.τ).loc Cert.ReferenceIdeal.main_arg24) = m ((c.tc : Thread Cert.ReferenceIdeal.nD Cert.ReferenceIdeal.τ).loc Cert.ReferenceIdeal.main_arg24))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)
      ∧ m' ((c.tc : Thread Cert.ReferenceIdeal.nD Cert.ReferenceIdeal.τ).loc Cert.ReferenceIdeal.main_arg22) = m ((c.tc : Thread Cert.KernelIdeal.nD Cert.KernelIdeal.τ).loc Cert.KernelIdeal.main_arg22)
      ∧ m' ((c.tc : Thread Cert.ReferenceIdeal.nD Cert.ReferenceIdeal.τ).loc Cert.ReferenceIdeal.main_arg23) = m ((c.tc : Thread Cert.KernelIdeal.nD Cert.KernelIdeal.τ).loc Cert.KernelIdeal.main_arg23)
      ∧ m' ((c.tc : Thread Cert.ReferenceIdeal.nD Cert.ReferenceIdeal.τ).loc Cert.ReferenceIdeal.main_arg24) = m ((c.tc : Thread Cert.KernelIdeal.nD Cert.KernelIdeal.τ).loc Cert.KernelIdeal.main_arg24)) →
    ∃ (v0 : (c : Dev Cert.KernelIdeal.nD) → Buf (Elt Ideal) ((c.tc : Thread Cert.KernelIdeal.nD Cert.KernelIdeal.τ).loc Cert.KernelIdeal.main_v64)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v64) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
          ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
          ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
          ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
          ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v113) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20)
          ∧ r.2.mem ((c.tc : Thread Cert.ReferenceIdeal.nD Cert.ReferenceIdeal.τ).loc Cert.ReferenceIdeal.main_arg21) = m' ((c.tc : Thread Cert.ReferenceIdeal.nD Cert.ReferenceIdeal.τ).loc Cert.ReferenceIdeal.main_arg21)
          ∧ r.2.mem ((c.tc : Thread Cert.ReferenceIdeal.nD Cert.ReferenceIdeal.τ).loc Cert.ReferenceIdeal.main_arg22) = m' ((c.tc : Thread Cert.ReferenceIdeal.nD Cert.ReferenceIdeal.τ).loc Cert.ReferenceIdeal.main_arg22)
          ∧ r.2.mem ((c.tc : Thread Cert.ReferenceIdeal.nD Cert.ReferenceIdeal.τ).loc Cert.ReferenceIdeal.main_arg23) = m' ((c.tc : Thread Cert.ReferenceIdeal.nD Cert.ReferenceIdeal.τ).loc Cert.ReferenceIdeal.main_arg23)
          ∧ r.2.mem ((c.tc : Thread Cert.ReferenceIdeal.nD Cert.ReferenceIdeal.τ).loc Cert.ReferenceIdeal.main_arg24) = m' ((c.tc : Thread Cert.ReferenceIdeal.nD Cert.ReferenceIdeal.τ).loc Cert.ReferenceIdeal.main_arg24))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x4 : Shape := ⟨2, ![100000, 4]⟩
abbrev S2x1600000 : Shape := ⟨2, ![2, 1600000]⟩
abbrev S100000 : Shape := ⟨1, ![100000]⟩
abbrev S4x128 : Shape := ⟨2, ![4, 128]⟩
abbrev S128 : Shape := ⟨1, ![128]⟩
abbrev S128x128 : Shape := ⟨2, ![128, 128]⟩
abbrev S128x2 : Shape := ⟨2, ![128, 2]⟩
abbrev S2 : Shape := ⟨1, ![2]⟩
abbrev S_ : Shape := ⟨0, ![]⟩

class Facts : Prop where
  bcast_S_S100000x4 : S_.BroadcastsInDim S100000x4 (![] : Fin 0 → Fin S100000x4.rank)
  reducesTo_S100000x4_S_d0_1 : S100000x4.ReducesTo [0, 1] S_
  h_S_ : 0 < S_.numel
  bcast_S_S4x128 : S_.BroadcastsInDim S4x128 (![] : Fin 0 → Fin S4x128.rank)
  reducesTo_S4x128_S_d0_1 : S4x128.ReducesTo [0, 1] S_
  bcast_S_S128 : S_.BroadcastsInDim S128 (![] : Fin 0 → Fin S128.rank)
  reducesTo_S128_S_d0 : S128.ReducesTo [0] S_
  bcast_S_S128x128 : S_.BroadcastsInDim S128x128 (![] : Fin 0 → Fin S128x128.rank)
  reducesTo_S128x128_S_d0_1 : S128x128.ReducesTo [0, 1] S_
  bcast_S_S128x2 : S_.BroadcastsInDim S128x2 (![] : Fin 0 → Fin S128x2.rank)
  reducesTo_S128x2_S_d0_1 : S128x2.ReducesTo [0, 1] S_
  bcast_S_S2 : S_.BroadcastsInDim S2 (![] : Fin 0 → Fin S2.rank)
  reducesTo_S2_S_d0 : S2.ReducesTo [0] S_

variable [Facts]

def fn_part6 {F : FTy → Type} [FloatOps F] (main_arg23 : FVec F S128x2 .f32) (main_arg24 : FVec F S2 .f32) (main_v98 : IVec S_ 1) (main_v101 : IVec S128 1) (main_c_39 : IVec S_ 1) : IVec S_ 1 :=
  let main_v102 : IVec S_ 1 := (fun x v => Host.reduce IntOp.andi x v reducesTo_S128_S_d0 h_S_) main_v101 main_c_39
  let main_v103 : IVec S_ 1 := andi main_v98 main_v102
  let main_v104 : FVec F S128x2 .f32 := Host.absf main_arg23
  let main_cst_40 : FVec F S_ .f32 := constant S_ .f32 0x7F800000#32
  let main_v105 : FVec F S128x2 .f32 := broadcastInDim S128x2 ![] bcast_S_S128x2 main_cst_40
  let main_v106 : IVec S128x2 1 := cmpf .olt main_v104 main_v105
  let main_c_41 : IVec S_ 1 := constantI S_ 1 1#1
  let main_v107 : IVec S_ 1 := (fun x v => Host.reduce IntOp.andi x v reducesTo_S128x2_S_d0_1 h_S_) main_v106 main_c_41
  let main_v108 : IVec S_ 1 := andi main_v103 main_v107
  let main_v109 : FVec F S2 .f32 := Host.absf main_arg24
  let main_cst_42 : FVec F S_ .f32 := constant S_ .f32 0x7F800000#32
  let main_v110 : FVec F S2 .f32 := broadcastInDim S2 ![] bcast_S_S2 main_cst_42
  let main_v111 : IVec S2 1 := cmpf .olt main_v109 main_v110
  let main_c_43 : IVec S_ 1 := constantI S_ 1 1#1
  let main_v112 : IVec S_ 1 := (fun x v => Host.reduce IntOp.andi x v reducesTo_S2_S_d0 h_S_) main_v111 main_c_43
  let main_v113 : IVec S_ 1 := andi main_v108 main_v112
  main_v113

def fn_part5 {F : FTy → Type} [FloatOps F] (main_arg20 : FVec F S128 .f32) (main_arg21 : FVec F S128x128 .f32) (main_arg22 : FVec F S128 .f32) (main_arg23 : FVec F S128x2 .f32) (main_arg24 : FVec F S2 .f32) (main_v83 : IVec S_ 1) (main_v84 : FVec F S128x128 .f32) (main_cst_32 : FVec F S_ .f32) : IVec S_ 1 :=
  let main_v85 : FVec F S128x128 .f32 := broadcastInDim S128x128 ![] bcast_S_S128x128 main_cst_32
  let main_v86 : IVec S128x128 1 := cmpf .olt main_v84 main_v85
  let main_c_33 : IVec S_ 1 := constantI S_ 1 1#1
  let main_v87 : IVec S_ 1 := (fun x v => Host.reduce IntOp.andi x v reducesTo_S128x128_S_d0_1 h_S_) main_v86 main_c_33
  let main_v88 : IVec S_ 1 := andi main_v83 main_v87
  let main_v89 : FVec F S128 .f32 := Host.absf main_arg20
  let main_cst_34 : FVec F S_ .f32 := constant S_ .f32 0x7F800000#32
  let main_v90 : FVec F S128 .f32 := broadcastInDim S128 ![] bcast_S_S128 main_cst_34
  let main_v91 : IVec S128 1 := cmpf .olt main_v89 main_v90
  let main_c_35 : IVec S_ 1 := constantI S_ 1 1#1
  let main_v92 : IVec S_ 1 := (fun x v => Host.reduce IntOp.andi x v reducesTo_S128_S_d0 h_S_) main_v91 main_c_35
  let main_v93 : IVec S_ 1 := andi main_v88 main_v92
  let main_v94 : FVec F S128x128 .f32 := Host.absf main_arg21
  let main_cst_36 : FVec F S_ .f32 := constant S_ .f32 0x7F800000#32
  let main_v95 : FVec F S128x128 .f32 := broadcastInDim S128x128 ![] bcast_S_S128x128 main_cst_36
  let main_v96 : IVec S128x128 1 := cmpf .olt main_v94 main_v95
  let main_c_37 : IVec S_ 1 := constantI S_ 1 1#1
  let main_v97 : IVec S_ 1 := (fun x v => Host.reduce IntOp.andi x v reducesTo_S128x128_S_d0_1 h_S_) main_v96 main_c_37
  let main_v98 : IVec S_ 1 := andi main_v93 main_v97
  let main_v99 : FVec F S128 .f32 := Host.absf main_arg22
  let main_cst_38 : FVec F S_ .f32 := constant S_ .f32 0x7F800000#32
  let main_v100 : FVec F S128 .f32 := broadcastInDim S128 ![] bcast_S_S128 main_cst_38
  let main_v101 : IVec S128 1 := cmpf .olt main_v99 main_v100
  let main_c_39 : IVec S_ 1 := constantI S_ 1 1#1
  fn_part6 (F := F) main_arg23 main_arg24 main_v98 main_v101 main_c_39

def fn_part4 {F : FTy → Type} [FloatOps F] (main_arg16 : FVec F S128 .f32) (main_arg17 : FVec F S128x128 .f32) (main_arg18 : FVec F S128 .f32) (main_arg19 : FVec F S128x128 .f32) (main_arg20 : FVec F S128 .f32) (main_arg21 : FVec F S128x128 .f32) (main_arg22 : FVec F S128 .f32) (main_arg23 : FVec F S128x2 .f32) (main_arg24 : FVec F S2 .f32) (main_v63 : IVec S_ 1) (main_v67 : IVec S_ 1) : IVec S_ 1 :=
  let main_v68 : IVec S_ 1 := andi main_v63 main_v67
  let main_v69 : FVec F S128 .f32 := Host.absf main_arg16
  let main_cst_26 : FVec F S_ .f32 := constant S_ .f32 0x7F800000#32
  let main_v70 : FVec F S128 .f32 := broadcastInDim S128 ![] bcast_S_S128 main_cst_26
  let main_v71 : IVec S128 1 := cmpf .olt main_v69 main_v70
  let main_c_27 : IVec S_ 1 := constantI S_ 1 1#1
  let main_v72 : IVec S_ 1 := (fun x v => Host.reduce IntOp.andi x v reducesTo_S128_S_d0 h_S_) main_v71 main_c_27
  let main_v73 : IVec S_ 1 := andi main_v68 main_v72
  let main_v74 : FVec F S128x128 .f32 := Host.absf main_arg17
  let main_cst_28 : FVec F S_ .f32 := constant S_ .f32 0x7F800000#32
  let main_v75 : FVec F S128x128 .f32 := broadcastInDim S128x128 ![] bcast_S_S128x128 main_cst_28
  let main_v76 : IVec S128x128 1 := cmpf .olt main_v74 main_v75
  let main_c_29 : IVec S_ 1 := constantI S_ 1 1#1
  let main_v77 : IVec S_ 1 := (fun x v => Host.reduce IntOp.andi x v reducesTo_S128x128_S_d0_1 h_S_) main_v76 main_c_29
  let main_v78 : IVec S_ 1 := andi main_v73 main_v77
  let main_v79 : FVec F S128 .f32 := Host.absf main_arg18
  let main_cst_30 : FVec F S_ .f32 := constant S_ .f32 0x7F800000#32
  let main_v80 : FVec F S128 .f32 := broadcastInDim S128 ![] bcast_S_S128 main_cst_30
  let main_v81 : IVec S128 1 := cmpf .olt main_v79 main_v80
  let main_c_31 : IVec S_ 1 := constantI S_ 1 1#1
  let main_v82 : IVec S_ 1 := (fun x v => Host.reduce IntOp.andi x v reducesTo_S128_S_d0 h_S_) main_v81 main_c_31
  let main_v83 : IVec S_ 1 := andi main_v78 main_v82
  let main_v84 : FVec F S128x128 .f32 := Host.absf main_arg19
  let main_cst_32 : FVec F S_ .f32 := constant S_ .f32 0x7F800000#32
  fn_part5 (F := F) main_arg20 main_arg21 main_arg22 main_arg23 main_arg24 main_v83 main_v84 main_cst_32

def fn_part3 {F : FTy → Type} [FloatOps F] (main_arg13 : FVec F S128 .f32) (main_arg14 : FVec F S128x128 .f32) (main_arg15 : FVec F S128x128 .f32) (main_arg16 : FVec F S128 .f32) (main_arg17 : FVec F S128x128 .f32) (main_arg18 : FVec F S128 .f32) (main_arg19 : FVec F S128x128 .f32) (main_arg20 : FVec F S128 .f32) (main_arg21 : FVec F S128x128 .f32) (main_arg22 : FVec F S128 .f32) (main_arg23 : FVec F S128x2 .f32) (main_arg24 : FVec F S2 .f32) (main_v48 : IVec S_ 1) (main_v49 : FVec F S128x128 .f32) (main_v50 : FVec F S128x128 .f32) : IVec S_ 1 :=
  let main_v51 : IVec S128x128 1 := cmpf .olt main_v49 main_v50
  let main_c_19 : IVec S_ 1 := constantI S_ 1 1#1
  let main_v52 : IVec S_ 1 := (fun x v => Host.reduce IntOp.andi x v reducesTo_S128x128_S_d0_1 h_S_) main_v51 main_c_19
  let main_v53 : IVec S_ 1 := andi main_v48 main_v52
  let main_v54 : FVec F S128 .f32 := Host.absf main_arg13
  let main_cst_20 : FVec F S_ .f32 := constant S_ .f32 0x7F800000#32
  let main_v55 : FVec F S128 .f32 := broadcastInDim S128 ![] bcast_S_S128 main_cst_20
  let main_v56 : IVec S128 1 := cmpf .olt main_v54 main_v55
  let main_c_21 : IVec S_ 1 := constantI S_ 1 1#1
  let main_v57 : IVec S_ 1 := (fun x v => Host.reduce IntOp.andi x v reducesTo_S128_S_d0 h_S_) main_v56 main_c_21
  let main_v58 : IVec S_ 1 := andi main_v53 main_v57
  let main_v59 : FVec F S128x128 .f32 := Host.absf main_arg14
  let main_cst_22 : FVec F S_ .f32 := constant S_ .f32 0x7F800000#32
  let main_v60 : FVec F S128x128 .f32 := broadcastInDim S128x128 ![] bcast_S_S128x128 main_cst_22
  let main_v61 : IVec S128x128 1 := cmpf .olt main_v59 main_v60
  let main_c_23 : IVec S_ 1 := constantI S_ 1 1#1
  let main_v62 : IVec S_ 1 := (fun x v => Host.reduce IntOp.andi x v reducesTo_S128x128_S_d0_1 h_S_) main_v61 main_c_23
  let main_v63 : IVec S_ 1 := andi main_v58 main_v62
  let main_v64 : FVec F S128x128 .f32 := Host.absf main_arg15
  let main_cst_24 : FVec F S_ .f32 := constant S_ .f32 0x7F800000#32
  let main_v65 : FVec F S128x128 .f32 := broadcastInDim S128x128 ![] bcast_S_S128x128 main_cst_24
  let main_v66 : IVec S128x128 1 := cmpf .olt main_v64 main_v65
  let main_c_25 : IVec S_ 1 := constantI S_ 1 1#1
  let main_v67 : IVec S_ 1 := (fun x v => Host.reduce IntOp.andi x v reducesTo_S128x128_S_d0_1 h_S_) main_v66 main_c_25
  fn_part4 (F := F) main_arg16 main_arg17 main_arg18 main_arg19 main_arg20 main_arg21 main_arg22 main_arg23 main_arg24 main_v63 main_v67

def fn_part2 {F : FTy → Type} [FloatOps F] (main_arg9 : FVec F S128x128 .f32) (main_arg10 : FVec F S128 .f32) (main_arg11 : FVec F S128x128 .f32) (main_arg12 : FVec F S128x128 .f32) (main_arg13 : FVec F S128 .f32) (main_arg14 : FVec F S128x128 .f32) (main_arg15 : FVec F S128x128 .f32) (main_arg16 : FVec F S128 .f32) (main_arg17 : FVec F S128x128 .f32) (main_arg18 : FVec F S128 .f32) (main_arg19 : FVec F S128x128 .f32) (main_arg20 : FVec F S128 .f32) (main_arg21 : FVec F S128x128 .f32) (main_arg22 : FVec F S128 .f32) (main_arg23 : FVec F S128x2 .f32) (main_arg24 : FVec F S2 .f32) (main_v33 : IVec S_ 1) : IVec S_ 1 :=
  let main_v34 : FVec F S128x128 .f32 := Host.absf main_arg9
  let main_cst_12 : FVec F S_ .f32 := constant S_ .f32 0x7F800000#32
  let main_v35 : FVec F S128x128 .f32 := broadcastInDim S128x128 ![] bcast_S_S128x128 main_cst_12
  let main_v36 : IVec S128x128 1 := cmpf .olt main_v34 main_v35
  let main_c_13 : IVec S_ 1 := constantI S_ 1 1#1
  let main_v37 : IVec S_ 1 := (fun x v => Host.reduce IntOp.andi x v reducesTo_S128x128_S_d0_1 h_S_) main_v36 main_c_13
  let main_v38 : IVec S_ 1 := andi main_v33 main_v37
  let main_v39 : FVec F S128 .f32 := Host.absf main_arg10
  let main_cst_14 : FVec F S_ .f32 := constant S_ .f32 0x7F800000#32
  let main_v40 : FVec F S128 .f32 := broadcastInDim S128 ![] bcast_S_S128 main_cst_14
  let main_v41 : IVec S128 1 := cmpf .olt main_v39 main_v40
  let main_c_15 : IVec S_ 1 := constantI S_ 1 1#1
  let main_v42 : IVec S_ 1 := (fun x v => Host.reduce IntOp.andi x v reducesTo_S128_S_d0 h_S_) main_v41 main_c_15
  let main_v43 : IVec S_ 1 := andi main_v38 main_v42
  let main_v44 : FVec F S128x128 .f32 := Host.absf main_arg11
  let main_cst_16 : FVec F S_ .f32 := constant S_ .f32 0x7F800000#32
  let main_v45 : FVec F S128x128 .f32 := broadcastInDim S128x128 ![] bcast_S_S128x128 main_cst_16
  let main_v46 : IVec S128x128 1 := cmpf .olt main_v44 main_v45
  let main_c_17 : IVec S_ 1 := constantI S_ 1 1#1
  let main_v47 : IVec S_ 1 := (fun x v => Host.reduce IntOp.andi x v reducesTo_S128x128_S_d0_1 h_S_) main_v46 main_c_17
  let main_v48 : IVec S_ 1 := andi main_v43 main_v47
  let main_v49 : FVec F S128x128 .f32 := Host.absf main_arg12
  let main_cst_18 : FVec F S_ .f32 := constant S_ .f32 0x7F800000#32
  let main_v50 : FVec F S128x128 .f32 := broadcastInDim S128x128 ![] bcast_S_S128x128 main_cst_18
  fn_part3 (F := F) main_arg13 main_arg14 main_arg15 main_arg16 main_arg17 main_arg18 main_arg19 main_arg20 main_arg21 main_arg22 main_arg23 main_arg24 main_v48 main_v49 main_v50

def fn_part1 {F : FTy → Type} [FloatOps F] (main_arg6 : FVec F S128x128 .f32) (main_arg7 : FVec F S128 .f32) (main_arg8 : FVec F S128x128 .f32) (main_arg9 : FVec F S128x128 .f32) (main_arg10 : FVec F S128 .f32) (main_arg11 : FVec F S128x128 .f32) (main_arg12 : FVec F S128x128 .f32) (main_arg13 : FVec F S128 .f32) (main_arg14 : FVec F S128x128 .f32) (main_arg15 : FVec F S128x128 .f32) (main_arg16 : FVec F S128 .f32) (main_arg17 : FVec F S128x128 .f32) (main_arg18 : FVec F S128 .f32) (main_arg19 : FVec F S128x128 .f32) (main_arg20 : FVec F S128 .f32) (main_arg21 : FVec F S128x128 .f32) (main_arg22 : FVec F S128 .f32) (main_arg23 : FVec F S128x2 .f32) (main_arg24 : FVec F S2 .f32) (main_v13 : IVec S_ 1) (main_v16 : IVec S4x128 1) : IVec S_ 1 :=
  let main_c_5 : IVec S_ 1 := constantI S_ 1 1#1
  let main_v17 : IVec S_ 1 := (fun x v => Host.reduce IntOp.andi x v reducesTo_S4x128_S_d0_1 h_S_) main_v16 main_c_5
  let main_v18 : IVec S_ 1 := andi main_v13 main_v17
  let main_v19 : FVec F S128x128 .f32 := Host.absf main_arg6
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128 .f32 := Host.absf main_arg7
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128x128 .f32 := Host.absf main_arg8
  let main_cst_10 : FVec F S_ .f32 := constant S_ .f32 0x7F800000#32
  let main_v30 : FVec F S128x128 .f32 := broadcastInDim S128x128 ![] bcast_S_S128x128 main_cst_10
  let main_v31 : IVec S128x128 1 := cmpf .olt main_v29 main_v30
  let main_c_11 : IVec S_ 1 := constantI S_ 1 1#1
  let main_v32 : IVec S_ 1 := (fun x v => Host.reduce IntOp.andi x v reducesTo_S128x128_S_d0_1 h_S_) main_v31 main_c_11
  let main_v33 : IVec S_ 1 := andi main_v28 main_v32
  fn_part2 (F := F) main_arg9 main_arg10 main_arg11 main_arg12 main_arg13 main_arg14 main_arg15 main_arg16 main_arg17 main_arg18 main_arg19 main_arg20 main_arg21 main_arg22 main_arg23 main_arg24 main_v33

def fn {F : FTy → Type} [FloatOps F] (main_arg0 : FVec F S100000x4 .f32) (main_arg1 : IVec S2x1600000 32) (main_arg2 : IVec S100000 32) (main_arg3 : FVec F S4x128 .f32) (main_arg4 : FVec F S128 .f32) (main_arg5 : FVec F S4x128 .f32) (main_arg6 : FVec F S128x128 .f32) (main_arg7 : FVec F S128 .f32) (main_arg8 : FVec F S128x128 .f32) (main_arg9 : FVec F S128x128 .f32) (main_arg10 : FVec F S128 .f32) (main_arg11 : FVec F S128x128 .f32) (main_arg12 : FVec F S128x128 .f32) (main_arg13 : FVec F S128 .f32) (main_arg14 : FVec F S128x128 .f32) (main_arg15 : FVec F S128x128 .f32) (main_arg16 : FVec F S128 .f32) (main_arg17 : FVec F S128x128 .f32) (main_arg18 : FVec F S128 .f32) (main_arg19 : FVec F S128x128 .f32) (main_arg20 : FVec F S128 .f32) (main_arg21 : FVec F S128x128 .f32) (main_arg22 : FVec F S128 .f32) (main_arg23 : FVec F S128x2 .f32) (main_arg24 : FVec F S2 .f32) : IVec S_ 1 :=
  let main_v0 : FVec F S100000x4 .f32 := Host.absf main_arg0
  let main_cst : FVec F S_ .f32 := constant S_ .f32 0x7F800000#32
  let main_v1 : FVec F S100000x4 .f32 := broadcastInDim S100000x4 ![] bcast_S_S100000x4 main_cst
  let main_v2 : IVec S100000x4 1 := cmpf .olt main_v0 main_v1
  let main_c : IVec S_ 1 := constantI S_ 1 1#1
  let main_v3 : IVec S_ 1 := (fun x v => Host.reduce IntOp.andi x v reducesTo_S100000x4_S_d0_1 h_S_) main_v2 main_c
  let main_v4 : FVec F S4x128 .f32 := Host.absf main_arg3
  let main_cst_0 : FVec F S_ .f32 := constant S_ .f32 0x7F800000#32
  let main_v5 : FVec F S4x128 .f32 := broadcastInDim S4x128 ![] bcast_S_S4x128 main_cst_0
  let main_v6 : IVec S4x128 1 := cmpf .olt main_v4 main_v5
  let main_c_1 : IVec S_ 1 := constantI S_ 1 1#1
  let main_v7 : IVec S_ 1 := (fun x v => Host.reduce IntOp.andi x v reducesTo_S4x128_S_d0_1 h_S_) main_v6 main_c_1
  let main_v8 : IVec S_ 1 := andi main_v3 main_v7
  let main_v9 : FVec F S128 .f32 := Host.absf main_arg4
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S4x128 .f32 := Host.absf main_arg5
  let main_cst_4 : FVec F S_ .f32 := constant S_ .f32 0x7F800000#32
  let main_v15 : FVec F S4x128 .f32 := broadcastInDim S4x128 ![] bcast_S_S4x128 main_cst_4
  let main_v16 : IVec S4x128 1 := cmpf .olt main_v14 main_v15
  fn_part1 (F := F) main_arg6 main_arg7 main_arg8 main_arg9 main_arg10 main_arg11 main_arg12 main_arg13 main_arg14 main_arg15 main_arg16 main_arg17 main_arg18 main_arg19 main_arg20 main_arg21 main_arg22 main_arg23 main_arg24 main_v13 main_v16
-- ==== Kernel.lean ====
abbrev S100000x4 : Shape := ⟨2, ![100000, 4]⟩
abbrev S2x1600000 : Shape := ⟨2, ![2, 1600000]⟩
abbrev S100000 : Shape := ⟨1, ![100000]⟩
abbrev S4x128 : Shape := ⟨2, ![4, 128]⟩
abbrev S128 : Shape := ⟨1, ![128]⟩
abbrev S128x128 : Shape := ⟨2, ![128, 128]⟩
abbrev S128x2 : Shape := ⟨2, ![128, 2]⟩
abbrev S2 : Shape := ⟨1, ![2]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S1600000x4 : Shape := ⟨2, ![1600000, 4]⟩
abbrev S1x128 : Shape := ⟨2, ![1, 128]⟩
abbrev S100000x128 : Shape := ⟨2, ![100000, 128]⟩
abbrev S5000x4 : Shape := ⟨2, ![5000, 4]⟩
abbrev S5000x128 : Shape := ⟨2, ![5000, 128]⟩
abbrev S1600000x128 : Shape := ⟨2, ![1600000, 128]⟩
abbrev S100000x1 : Shape := ⟨2, ![100000, 1]⟩
abbrev S5000x1 : Shape := ⟨2, ![5000, 1]⟩
abbrev S128x1 : Shape := ⟨2, ![128, 1]⟩
abbrev S1x2 : Shape := ⟨2, ![1, 2]⟩

abbrev nBuf : Space → Nat
  | .hbm => 104
  | .vmem => 54
  | .smem => 0
  | _ => 0

abbrev bufTy : (tb : Table) → Fin (tcTables nBuf tb) → BufTy
  | .hbm, ⟨0, _⟩ => ⟨S100000x4, .f32⟩
  | .hbm, ⟨1, _⟩ => ⟨S2x1600000, .i32⟩
  | .hbm, ⟨2, _⟩ => ⟨S100000, .i32⟩
  | .hbm, ⟨3, _⟩ => ⟨S4x128, .f32⟩
  | .hbm, ⟨4, _⟩ => ⟨S128, .f32⟩
  | .hbm, ⟨5, _⟩ => ⟨S4x128, .f32⟩
  | .hbm, ⟨6, _⟩ => ⟨S128x128, .f32⟩
  | .hbm, ⟨7, _⟩ => ⟨S128, .f32⟩
  | .hbm, ⟨8, _⟩ => ⟨S128x128, .f32⟩
  | .hbm, ⟨9, _⟩ => ⟨S128x128, .f32⟩
  | .hbm, ⟨10, _⟩ => ⟨S128, .f32⟩
  | .hbm, ⟨11, _⟩ => ⟨S128x128, .f32⟩
  | .hbm, ⟨12, _⟩ => ⟨S128x128, .f32⟩
  | .hbm, ⟨13, _⟩ => ⟨S128, .f32⟩
  | .hbm, ⟨14, _⟩ => ⟨S128x128, .f32⟩
  | .hbm, ⟨15, _⟩ => ⟨S128x128, .f32⟩
  | .hbm, ⟨16, _⟩ => ⟨S128, .f32⟩
  | .hbm, ⟨17, _⟩ => ⟨S128x128, .f32⟩
  | .hbm, ⟨18, _⟩ => ⟨S128, .f32⟩
  | .hbm, ⟨19, _⟩ => ⟨S128x128, .f32⟩
  | .hbm, ⟨20, _⟩ => ⟨S128, .f32⟩
  | .hbm, ⟨21, _⟩ => ⟨S128x128, .f32⟩
  | .hbm, ⟨22, _⟩ => ⟨S128, .f32⟩
  | .hbm, ⟨23, _⟩ => ⟨S128x2, .f32⟩
  | .hbm, ⟨24, _⟩ => ⟨S2, .f32⟩
  | .hbm, ⟨25, _⟩ => ⟨S1x1600000, .i32⟩
  | .hbm, ⟨26, _⟩ => ⟨S1600000, .i32⟩
  | .hbm, ⟨27, _⟩ => ⟨S1x1600000, .i32⟩
  | .hbm, ⟨28, _⟩ => ⟨S1600000, .i32⟩
  | .hbm, ⟨29, _⟩ => ⟨S_, .i32⟩
  | .hbm, ⟨30, _⟩ => ⟨S1600000, .i32⟩
  | .hbm, ⟨31, _⟩ => ⟨S1600000, .i1⟩
  | .hbm, ⟨32, _⟩ => ⟨S_, .i32⟩
  | .hbm, ⟨33, _⟩ => ⟨S1600000, .i32⟩
  | .hbm, ⟨34, _⟩ => ⟨S1600000, .i32⟩
  | .hbm, ⟨35, _⟩ => ⟨S1600000, .i32⟩
  | .hbm, ⟨36, _⟩ => ⟨S1600000x1, .i32⟩
  | .hbm, ⟨37, _⟩ => ⟨S1600000x4, .f32⟩
  | .hbm, ⟨38, _⟩ => ⟨S_, .f32⟩
  | .hbm, ⟨39, _⟩ => ⟨S100000x4, .f32⟩
  | .hbm, ⟨40, _⟩ => ⟨S1600000x1, .i32⟩
  | .hbm, ⟨41, _⟩ => ⟨S100000x4, .f32⟩
  | .hbm, ⟨42, _⟩ => ⟨S1x128, .f32⟩
  | .hbm, ⟨43, _⟩ => ⟨S100000x128, .f32⟩
  | .hbm, ⟨44, _⟩ => ⟨S_, .i32⟩
  | .hbm, ⟨45, _⟩ => ⟨S1600000, .i32⟩
  | .hbm, ⟨46, _⟩ => ⟨S1600000, .i1⟩
  | .hbm, ⟨47, _⟩ => ⟨S_, .i32⟩
  | .hbm, ⟨48, _⟩ => ⟨S1600000, .i32⟩
  | .hbm, ⟨49, _⟩ => ⟨S1600000, .i32⟩
  | .hbm, ⟨50, _⟩ => ⟨S1600000, .i32⟩
  | .hbm, ⟨51, _⟩ => ⟨S1600000x1, .i32⟩
  | .hbm, ⟨52, _⟩ => ⟨S1600000x128, .f32⟩
  | .hbm, ⟨53, _⟩ => ⟨S_, .f32⟩
  | .hbm, ⟨54, _⟩ => ⟨S100000x128, .f32⟩
  | .hbm, ⟨55, _⟩ => ⟨S1600000x1, .i32⟩
  | .hbm, ⟨56, _⟩ => ⟨S100000x128, .f32⟩
  | .hbm, ⟨57, _⟩ => ⟨S1x128, .f32⟩
  | .hbm, ⟨58, _⟩ => ⟨S100000x128, .f32⟩
  | .hbm, ⟨59, _⟩ => ⟨S_, .i32⟩
  | .hbm, ⟨60, _⟩ => ⟨S1600000, .i32⟩
  | .hbm, ⟨61, _⟩ => ⟨S1600000, .i1⟩
  | .hbm, ⟨62, _⟩ => ⟨S_, .i32⟩
  | .hbm, ⟨63, _⟩ => ⟨S1600000, .i32⟩
  | .hbm, ⟨64, _⟩ => ⟨S1600000, .i32⟩
  | .hbm, ⟨65, _⟩ => ⟨S1600000, .i32⟩
  | .hbm, ⟨66, _⟩ => ⟨S1600000x1, .i32⟩
  | .hbm, ⟨67, _⟩ => ⟨S1600000x128, .f32⟩
  | .hbm, ⟨68, _⟩ => ⟨S_, .f32⟩
  | .hbm, ⟨69, _⟩ => ⟨S100000x128, .f32⟩
  | .hbm, ⟨70, _⟩ => ⟨S1600000x1, .i32⟩
  | .hbm, ⟨71, _⟩ => ⟨S100000x128, .f32⟩
  | .hbm, ⟨72, _⟩ => ⟨S1x128, .f32⟩
  | .hbm, ⟨73, _⟩ => ⟨S100000x128, .f32⟩
  | .hbm, ⟨74, _⟩ => ⟨S_, .i32⟩
  | .hbm, ⟨75, _⟩ => ⟨S1600000, .i32⟩
  | .hbm, ⟨76, _⟩ => ⟨S1600000, .i1⟩
  | .hbm, ⟨77, _⟩ => ⟨S_, .i32⟩
  | .hbm, ⟨78, _⟩ => ⟨S1600000, .i32⟩
  | .hbm, ⟨79, _⟩ => ⟨S1600000, .i32⟩
  | .hbm, ⟨80, _⟩ => ⟨S1600000, .i32⟩
  | .hbm, ⟨81, _⟩ => ⟨S1600000x1, .i32⟩
  | .hbm, ⟨82, _⟩ => ⟨S1600000x128, .f32⟩
  | .hbm, ⟨83, _⟩ => ⟨S_, .f32⟩
  | .hbm, ⟨84, _⟩ => ⟨S100000x128, .f32⟩
  | .hbm, ⟨85, _⟩ => ⟨S1600000x1, .i32⟩
  | .hbm, ⟨86, _⟩ => ⟨S100000x128, .f32⟩
  | .hbm, ⟨87, _⟩ => ⟨S1x128, .f32⟩
  | .hbm, ⟨88, _⟩ => ⟨S100000x128, .f32⟩
  | .hbm, ⟨89, _⟩ => ⟨S100000x1, .i32⟩
  | .hbm, ⟨90, _⟩ => ⟨S128x128, .f32⟩
  | .hbm, ⟨91, _⟩ => ⟨S_, .f32⟩
  | .hbm, ⟨92, _⟩ => ⟨S100000, .f32⟩
  | .hbm, ⟨93, _⟩ => ⟨S_, .f32⟩
  | .hbm, ⟨94, _⟩ => ⟨S128, .f32⟩
  | .hbm, ⟨95, _⟩ => ⟨S100000x1, .i32⟩
  | .hbm, ⟨96, _⟩ => ⟨S128, .f32⟩
  | .hbm, ⟨97, _⟩ => ⟨S128x1, .f32⟩
  | .hbm, ⟨98, _⟩ => ⟨S1x128, .f32⟩
  | .hbm, ⟨99, _⟩ => ⟨S1x128, .f32⟩
  | .hbm, ⟨100, _⟩ => ⟨S1x128, .f32⟩
  | .hbm, ⟨101, _⟩ => ⟨S1x128, .f32⟩
  | .hbm, ⟨102, _⟩ => ⟨S1x2, .f32⟩
  | .hbm, ⟨103, _⟩ => ⟨S128x2, .f32⟩
  | .local _ .vmem, ⟨0, _⟩ => ⟨S5000x4, .f32⟩
  | .local _ .vmem, ⟨1, _⟩ => ⟨S5000x4, .f32⟩
  | .local _ .vmem, ⟨2, _⟩ => ⟨S5000x4, .f32⟩
  | .local _ .vmem, ⟨3, _⟩ => ⟨S5000x4, .f32⟩
  | .local _ .vmem, ⟨4, _⟩ => ⟨S4x128, .f32⟩
  | .local _ .vmem, ⟨5, _⟩ => ⟨S1x128, .f32⟩
  | .local _ .vmem, ⟨6, _⟩ => ⟨S4x128, .f32⟩
  | .local _ .vmem, ⟨7, _⟩ => ⟨S5000x128, .f32⟩
  | .local _ .vmem, ⟨8, _⟩ => ⟨S5000x128, .f32⟩
  | .local _ .vmem, ⟨9, _⟩ => ⟨S5000x128, .f32⟩
  | .local _ .vmem, ⟨10, _⟩ => ⟨S5000x128, .f32⟩
  | .local _ .vmem, ⟨11, _⟩ => ⟨S5000x128, .f32⟩
  | .local _ .vmem, ⟨12, _⟩ => ⟨S5000x128, .f32⟩
  | .local _ .vmem, ⟨13, _⟩ => ⟨S128x128, .f32⟩
  | .local _ .vmem, ⟨14, _⟩ => ⟨S1x128, .f32⟩
  | .local _ .vmem, ⟨15, _⟩ => ⟨S128x128, .f32⟩
  | .local _ .vmem, ⟨16, _⟩ => ⟨S5000x128, .f32⟩
  | .local _ .vmem, ⟨17, _⟩ => ⟨S5000x128, .f32⟩
  | .local _ .vmem, ⟨18, _⟩ => ⟨S5000x128, .f32⟩
  | .local _ .vmem, ⟨19, _⟩ => ⟨S5000x128, .f32⟩
  | .local _ .vmem, ⟨20, _⟩ => ⟨S5000x128, .f32⟩
  | .local _ .vmem, ⟨21, _⟩ => ⟨S5000x128, .f32⟩
  | .local _ .vmem, ⟨22, _⟩ => ⟨S128x128, .f32⟩
  | .local _ .vmem, ⟨23, _⟩ => ⟨S1x128, .f32⟩
  | .local _ .vmem, ⟨24, _⟩ => ⟨S128x128, .f32⟩
  | .local _ .vmem, ⟨25, _⟩ => ⟨S5000x128, .f32⟩
  | .local _ .vmem, ⟨26, _⟩ => ⟨S5000x128, .f32⟩
  | .local _ .vmem, ⟨27, _⟩ => ⟨S5000x128, .f32⟩
  | .local _ .vmem, ⟨28, _⟩ => ⟨S5000x128, .f32⟩
  | .local _ .vmem, ⟨29, _⟩ => ⟨S5000x128, .f32⟩
  | .local _ .vmem, ⟨30, _⟩ => ⟨S5000x128, .f32⟩
  | .local _ .vmem, ⟨31, _⟩ => ⟨S128x128, .f32⟩
  | .local _ .vmem, ⟨32, _⟩ => ⟨S1x128, .f32⟩
  | .local _ .vmem, ⟨33, _⟩ => ⟨S128x128, .f32⟩
  | .local _ .vmem, ⟨34, _⟩ => ⟨S5000x128, .f32⟩
  | .local _ .vmem, ⟨35, _⟩ => ⟨S5000x128, .f32⟩
  | .local _ .vmem, ⟨36, _⟩ => ⟨S5000x128, .f32⟩
  | .local _ .vmem, ⟨37, _⟩ => ⟨S5000x128, .f32⟩
  | .local _ .vmem, ⟨38, _⟩ => ⟨S5000x1, .i32⟩
  | .local _ .vmem, ⟨39, _⟩ => ⟨S5000x1, .i32⟩
  | .local _ .vmem, ⟨40, _⟩ => ⟨S128x128, .f32⟩
  | .local _ .vmem, ⟨41, _⟩ => ⟨S128x128, .f32⟩
  | .local _ .vmem, ⟨42, _⟩ => ⟨S128x1, .f32⟩
  | .local _ .vmem, ⟨43, _⟩ => ⟨S128x128, .f32⟩
  | .local _ .vmem, ⟨44, _⟩ => ⟨S1x128, .f32⟩
  | .local _ .vmem, ⟨45, _⟩ => ⟨S128x128, .f32⟩
  | .local _ .vmem, ⟨46, _⟩ => ⟨S1x128, .f32⟩
  | .local _ .vmem, ⟨47, _⟩ => ⟨S128x128, .f32⟩
  | .local _ .vmem, ⟨48, _⟩ => ⟨S1x128, .f32⟩
  | .local _ .vmem, ⟨49, _⟩ => ⟨S128x128, .f32⟩
  | .local _ .vmem, ⟨50, _⟩ => ⟨S1x128, .f32⟩
  | .local _ .vmem, ⟨51, _⟩ => ⟨S128x2, .f32⟩
  | .local _ .vmem, ⟨52, _⟩ => ⟨S1x2, .f32⟩
  | .local _ .vmem, ⟨53, _⟩ => ⟨S128x2, .f32⟩
  | _, _ => ⟨S100000x4, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | _, _ => false

abbrev semScoped : Fin 0 → Bool
  | ⟨_, h⟩ => absurd h (Nat.not_lt_zero _)

abbrev dmaSemScoped : Fin 54 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | _ => false

abbrev sig : RefSig :=
  ofTc nBuf bufTy 0 54 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_v0 : Ref sig .tc := ⟨.hbm, 25, rfl⟩
abbrev main_v1 : Ref sig .tc := ⟨.hbm, 26, rfl⟩
abbrev main_v2 : Ref sig .tc := ⟨.hbm, 27, rfl⟩
abbrev main_v3 : Ref sig .tc := ⟨.hbm, 28, rfl⟩
abbrev main_c : Ref sig .tc := ⟨.hbm, 29, rfl⟩
abbrev main_v4 : Ref sig .tc := ⟨.hbm, 30, rfl⟩
abbrev main_v5 : Ref sig .tc := ⟨.hbm, 31, rfl⟩
abbrev main_c_0 : Ref sig .tc := ⟨.hbm, 32, rfl⟩
abbrev main_v6 : Ref sig .tc := ⟨.hbm, 33, rfl⟩
abbrev main_v7 : Ref sig .tc := ⟨.hbm, 34, rfl⟩
abbrev main_v8 : Ref sig .tc := ⟨.hbm, 35, rfl⟩
abbrev main_v9 : Ref sig .tc := ⟨.hbm, 36, rfl⟩
abbrev main_v10 : Ref sig .tc := ⟨.hbm, 37, rfl⟩
abbrev main_cst : Ref sig .tc := ⟨.hbm, 38, rfl⟩
abbrev main_v11 : Ref sig .tc := ⟨.hbm, 39, rfl⟩
abbrev main_v12 : Ref sig .tc := ⟨.hbm, 40, rfl⟩
abbrev main_v13 : Ref sig .tc := ⟨.hbm, 41, rfl⟩
abbrev main_v14 : Ref sig .tc := ⟨.hbm, 42, rfl⟩
abbrev main_v15 : Ref sig .tc := ⟨.hbm, 43, rfl⟩
abbrev main_c_1 : Ref sig .tc := ⟨.hbm, 44, rfl⟩
abbrev main_v16 : Ref sig .tc := ⟨.hbm, 45, rfl⟩
abbrev main_v17 : Ref sig .tc := ⟨.hbm, 46, rfl⟩
abbrev main_c_2 : Ref sig .tc := ⟨.hbm, 47, rfl⟩
abbrev main_v18 : Ref sig .tc := ⟨.hbm, 48, rfl⟩
abbrev main_v19 : Ref sig .tc := ⟨.hbm, 49, rfl⟩
abbrev main_v20 : Ref sig .tc := ⟨.hbm, 50, rfl⟩
abbrev main_v21 : Ref sig .tc := ⟨.hbm, 51, rfl⟩
abbrev main_v22 : Ref sig .tc := ⟨.hbm, 52, rfl⟩
abbrev main_cst_3 : Ref sig .tc := ⟨.hbm, 53, rfl⟩
abbrev main_v23 : Ref sig .tc := ⟨.hbm, 54, rfl⟩
abbrev main_v24 : Ref sig .tc := ⟨.hbm, 55, rfl⟩
abbrev main_v25 : Ref sig .tc := ⟨.hbm, 56, rfl⟩
abbrev main_v26 : Ref sig .tc := ⟨.hbm, 57, rfl⟩
abbrev main_v27 : Ref sig .tc := ⟨.hbm, 58, rfl⟩
abbrev main_c_4 : Ref sig .tc := ⟨.hbm, 59, rfl⟩
abbrev main_v28 : Ref sig .tc := ⟨.hbm, 60, rfl⟩
abbrev main_v29 : Ref sig .tc := ⟨.hbm, 61, rfl⟩
abbrev main_c_5 : Ref sig .tc := ⟨.hbm, 62, rfl⟩
abbrev main_v30 : Ref sig .tc := ⟨.hbm, 63, rfl⟩
abbrev main_v31 : Ref sig .tc := ⟨.hbm, 64, rfl⟩
abbrev main_v32 : Ref sig .tc := ⟨.hbm, 65, rfl⟩
abbrev main_v33 : Ref sig .tc := ⟨.hbm, 66, rfl⟩
abbrev main_v34 : Ref sig .tc := ⟨.hbm, 67, rfl⟩
abbrev main_cst_6 : Ref sig .tc := ⟨.hbm, 68, rfl⟩
abbrev main_v35 : Ref sig .tc := ⟨.hbm, 69, rfl⟩
abbrev main_v36 : Ref sig .tc := ⟨.hbm, 70, rfl⟩
abbrev main_v37 : Ref sig .tc := ⟨.hbm, 71, rfl⟩
abbrev main_v38 : Ref sig .tc := ⟨.hbm, 72, rfl⟩
abbrev main_v39 : Ref sig .tc := ⟨.hbm, 73, rfl⟩
abbrev main_c_7 : Ref sig .tc := ⟨.hbm, 74, rfl⟩
abbrev main_v40 : Ref sig .tc := ⟨.hbm, 75, rfl⟩
abbrev main_v41 : Ref sig .tc := ⟨.hbm, 76, rfl⟩
abbrev main_c_8 : Ref sig .tc := ⟨.hbm, 77, rfl⟩
abbrev main_v42 : Ref sig .tc := ⟨.hbm, 78, rfl⟩
abbrev main_v43 : Ref sig .tc := ⟨.hbm, 79, rfl⟩
abbrev main_v44 : Ref sig .tc := ⟨.hbm, 80, rfl⟩
abbrev main_v45 : Ref sig .tc := ⟨.hbm, 81, rfl⟩
abbrev main_v46 : Ref sig .tc := ⟨.hbm, 82, rfl⟩
abbrev main_cst_9 : Ref sig .tc := ⟨.hbm, 83, rfl⟩
abbrev main_v47 : Ref sig .tc := ⟨.hbm, 84, rfl⟩
abbrev main_v48 : Ref sig .tc := ⟨.hbm, 85, rfl⟩
abbrev main_v49 : Ref sig .tc := ⟨.hbm, 86, rfl⟩
abbrev main_v50 : Ref sig .tc := ⟨.hbm, 87, rfl⟩
abbrev main_v51 : Ref sig .tc := ⟨.hbm, 88, rfl⟩
abbrev main_v52 : Ref sig .tc := ⟨.hbm, 89, rfl⟩
abbrev main_v53 : Ref sig .tc := ⟨.hbm, 90, rfl⟩
abbrev main_cst_10 : Ref sig .tc := ⟨.hbm, 91, rfl⟩
abbrev main_v54 : Ref sig .tc := ⟨.hbm, 92, rfl⟩
abbrev main_cst_11 : Ref sig .tc := ⟨.hbm, 93, rfl⟩
abbrev main_v55 : Ref sig .tc := ⟨.hbm, 94, rfl⟩
abbrev main_v56 : Ref sig .tc := ⟨.hbm, 95, rfl⟩
abbrev main_v57 : Ref sig .tc := ⟨.hbm, 96, rfl⟩
abbrev main_v58 : Ref sig .tc := ⟨.hbm, 97, rfl⟩
abbrev main_v59 : Ref sig .tc := ⟨.hbm, 98, rfl⟩
abbrev main_v60 : Ref sig .tc := ⟨.hbm, 99, rfl⟩
abbrev main_v61 : Ref sig .tc := ⟨.hbm, 100, rfl⟩
abbrev main_v62 : Ref sig .tc := ⟨.hbm, 101, rfl⟩
abbrev main_v63 : Ref sig .tc := ⟨.hbm, 102, rfl⟩
abbrev main_v64 : Ref sig .tc := ⟨.hbm, 103, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg5_1 : Ref sig .tc := ⟨.vmem, 17, rfl⟩
abbrev cc2_stg0_0 : Ref sig .tc := ⟨.vmem, 18, rfl⟩
abbrev cc2_stg0_1 : Ref sig .tc := ⟨.vmem, 19, rfl⟩
abbrev cc2_stg1_0 : Ref sig .tc := ⟨.vmem, 20, rfl⟩
abbrev cc2_stg1_1 : Ref sig .tc := ⟨.vmem, 21, rfl⟩
abbrev cc2_stg2_0 : Ref sig .tc := ⟨.vmem, 22, rfl⟩
abbrev cc2_stg3_0 : Ref sig .tc := ⟨.vmem, 23, rfl⟩
abbrev cc2_stg4_0 : Ref sig .tc := ⟨.vmem, 24, rfl⟩
abbrev cc2_stg5_0 : Ref sig .tc := ⟨.vmem, 25, rfl⟩
abbrev cc2_stg5_1 : Ref sig .tc := ⟨.vmem, 26, rfl⟩
abbrev cc3_stg0_0 : Ref sig .tc := ⟨.vmem, 27, rfl⟩
abbrev cc3_stg0_1 : Ref sig .tc := ⟨.vmem, 28, rfl⟩
abbrev cc3_stg1_0 : Ref sig .tc := ⟨.vmem, 29, rfl⟩
abbrev cc3_stg1_1 : Ref sig .tc := ⟨.vmem, 30, rfl⟩
abbrev cc3_stg2_0 : Ref sig .tc := ⟨.vmem, 31, rfl⟩
abbrev cc3_stg3_0 : Ref sig .tc := ⟨.vmem, 32, rfl⟩
abbrev cc3_stg4_0 : Ref sig .tc := ⟨.vmem, 33, rfl⟩
abbrev cc3_stg5_0 : Ref sig .tc := ⟨.vmem, 34, rfl⟩
abbrev cc3_stg5_1 : Ref sig .tc := ⟨.vmem, 35, rfl⟩
abbrev cc4_stg0_0 : Ref sig .tc := ⟨.vmem, 36, rfl⟩
abbrev cc4_stg0_1 : Ref sig .tc := ⟨.vmem, 37, rfl⟩
abbrev cc4_stg1_0 : Ref sig .tc := ⟨.vmem, 38, rfl⟩
abbrev cc4_stg1_1 : Ref sig .tc := ⟨.vmem, 39, rfl⟩
abbrev cc4_stg2_0 : Ref sig .tc := ⟨.vmem, 40, rfl⟩
abbrev cc5_stg0_0 : Ref sig .tc := ⟨.vmem, 41, rfl⟩
abbrev cc5_stg1_0 : Ref sig .tc := ⟨.vmem, 42, rfl⟩
abbrev cc5_stg2_0 : Ref sig .tc := ⟨.vmem, 43, rfl⟩
abbrev cc5_stg3_0 : Ref sig .tc := ⟨.vmem, 44, rfl⟩
abbrev cc5_stg4_0 : Ref sig .tc := ⟨.vmem, 45, rfl⟩
abbrev cc5_stg5_0 : Ref sig .tc := ⟨.vmem, 46, rfl⟩
abbrev cc5_stg6_0 : Ref sig .tc := ⟨.vmem, 47, rfl⟩
abbrev cc5_stg7_0 : Ref sig .tc := ⟨.vmem, 48, rfl⟩
abbrev cc5_stg8_0 : Ref sig .tc := ⟨.vmem, 49, rfl⟩
abbrev cc5_stg9_0 : Ref sig .tc := ⟨.vmem, 50, rfl⟩
abbrev cc5_stg10_0 : Ref sig .tc := ⟨.vmem, 51, rfl⟩
abbrev cc5_stg11_0 : Ref sig .tc := ⟨.vmem, 52, rfl⟩
abbrev cc5_stg12_0 : Ref sig .tc := ⟨.vmem, 53, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem3_0 : DmaSem sig := 14
abbrev cc1_sem4_0 : DmaSem sig := 15
abbrev cc1_sem5_0 : DmaSem sig := 16
abbrev cc1_sem5_1 : DmaSem sig := 17
abbrev cc2_sem0_0 : DmaSem sig := 18
abbrev cc2_sem0_1 : DmaSem sig := 19
abbrev cc2_sem1_0 : DmaSem sig := 20
abbrev cc2_sem1_1 : DmaSem sig := 21
abbrev cc2_sem2_0 : DmaSem sig := 22
abbrev cc2_sem3_0 : DmaSem sig := 23
abbrev cc2_sem4_0 : DmaSem sig := 24
abbrev cc2_sem5_0 : DmaSem sig := 25
abbrev cc2_sem5_1 : DmaSem sig := 26
abbrev cc3_sem0_0 : DmaSem sig := 27
abbrev cc3_sem0_1 : DmaSem sig := 28
abbrev cc3_sem1_0 : DmaSem sig := 29
abbrev cc3_sem1_1 : DmaSem sig := 30
abbrev cc3_sem2_0 : DmaSem sig := 31
abbrev cc3_sem3_0 : DmaSem sig := 32
abbrev cc3_sem4_0 : DmaSem sig := 33
abbrev cc3_sem5_0 : DmaSem sig := 34
abbrev cc3_sem5_1 : DmaSem sig := 35
abbrev cc4_sem0_0 : DmaSem sig := 36
abbrev cc4_sem0_1 : DmaSem sig := 37
abbrev cc4_sem1_0 : DmaSem sig := 38
abbrev cc4_sem1_1 : DmaSem sig := 39
abbrev cc4_sem2_0 : DmaSem sig := 40
abbrev cc5_sem0_0 : DmaSem sig := 41
abbrev cc5_sem1_0 : DmaSem sig := 42
abbrev cc5_sem2_0 : DmaSem sig := 43
abbrev cc5_sem3_0 : DmaSem sig := 44
abbrev cc5_sem4_0 : DmaSem sig := 45
abbrev cc5_sem5_0 : DmaSem sig := 46
abbrev cc5_sem6_0 : DmaSem sig := 47
abbrev cc5_sem7_0 : DmaSem sig := 48
abbrev cc5_sem8_0 : DmaSem sig := 49
abbrev cc5_sem9_0 : DmaSem sig := 50
abbrev cc5_sem10_0 : DmaSem sig := 51
abbrev cc5_sem11_0 : DmaSem sig := 52
abbrev cc5_sem12_0 : DmaSem sig := 53

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x4 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x4 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S4x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S4x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S5000x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S128x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S5000x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S128x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S128x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S5000x128 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev grid3 : Pipeline.Grid := ⟨1, ![20], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S5000x128 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S128x128 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S1x128 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S128x128 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 2 → Memref sig .tc .vmem S5000x128 .f32 := fun | 0 => Memref.whole cc3_stg5_0 | 1 => Memref.whole cc3_stg5_1 | ⟨_ + 2, h⟩ => absurd h (Nat.not_lt.2 (Nat.le_add_left _ _))
abbrev sem3_5 : Fin 2 → DmaSem sig := fun | 0 => cc3_sem5_0 | 1 => cc3_sem5_1 | ⟨_ + 2, h⟩ => absurd h (Nat.not_lt.2 (Nat.le_add_left _ _))
abbrev reads3_5 : Fin grid3.rank → Bool := ![true]

abbrev grid4 : Pipeline.Grid := ⟨1, ![20], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage4_0 : Fin 2 → Memref sig .tc .vmem S5000x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S5000x1 .i32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 1 → Memref sig .tc .vmem S128x128 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev grid5 : Pipeline.Grid := ⟨1, ![1], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_4 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_5 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_6 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_7 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_8 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_9 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_10 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_11 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_12 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage5_0 : Fin 1 → Memref sig .tc .vmem S128x128 .f32 := fun | 0 => Memref.whole cc5_stg0_0 | ⟨_ + 1, h⟩ => absurd h (Nat.not_lt.2 (Nat.le_add_left _ _))
abbrev sem5_0 : Fin 1 → DmaSem sig := fun | 0 => cc5_sem0_0 | ⟨_ + 1, h⟩ => absurd h (Nat.not_lt.2 (Nat.le_add_left _ _))
abbrev reads5_0 : Fin grid5.rank → Bool := ![false]

abbrev stage5_1 : Fin 1 → Memref sig .tc .vmem S128x1 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 1 → Memref sig .tc .vmem S128x128 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 1 → Memref sig .tc .vmem S1x128 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false]

abbrev stage5_4 : Fin 1 → Memref sig .tc .vmem S128x128 .f32 := fun | 0 => Memref.whole cc5_stg4_0 | ⟨_ + 1, h⟩ => absurd h (Nat.not_lt.2 (Nat.le_add_left _ _))
abbrev sem5_4 : Fin 1 → DmaSem sig := fun | 0 => cc5_sem4_0 | ⟨_ + 1, h⟩ => absurd h (Nat.not_lt.2 (Nat.le_add_left _ _))
abbrev reads5_4 : Fin grid5.rank → Bool := ![false]

abbrev stage5_5 : Fin 1 → Memref sig .tc .vmem S1x128 .f32 := fun | 0 => Memref.whole cc5_stg5_0 | ⟨_ + 1, h⟩ => absurd h (Nat.not_lt.2 (Nat.le_add_left _ _))
abbrev sem5_5 : Fin 1 → DmaSem sig := fun | 0 => cc5_sem5_0 | ⟨_ + 1, h⟩ => absurd h (Nat.not_lt.2 (Nat.le_add_left _ _))
abbrev reads5_5 : Fin grid5.rank → Bool := ![false]

abbrev stage5_6 : Fin 1 → Memref sig .tc .vmem S128x128 .f32 := fun | 0 => Memref.whole cc5_stg6_0 | ⟨_ + 1, h⟩ => absurd h (Nat.not_lt.2 (Nat.le_add_left _ _))
abbrev sem5_6 : Fin 1 → DmaSem sig := fun | 0 => cc5_sem6_0 | ⟨_ + 1, h⟩ => absurd h (Nat.not_lt.2 (Nat.le_add_left _ _))
abbrev reads5_6 : Fin grid5.rank → Bool := ![false]

abbrev stage5_7 : Fin 1 → Memref sig .tc .vmem S1x128 .f32 := fun | 0 => Memref.whole cc5_stg7_0 | ⟨_ + 1, h⟩ => absurd h (Nat.not_lt.2 (Nat.le_add_left _ _))
abbrev sem5_7 : Fin 1 → DmaSem sig := fun | 0 => cc5_sem7_0 | ⟨_ + 1, h⟩ => absurd h (Nat.not_lt.2 (Nat.le_add_left _ _))
abbrev reads5_7 : Fin grid5.rank → Bool := ![false]

abbrev stage5_8 : Fin 1 → Memref sig .tc .vmem S128x128 .f32 := fun | 0 => Memref.whole cc5_stg8_0 | ⟨_ + 1, h⟩ => absurd h (Nat.not_lt.2 (Nat.le_add_left _ _))
abbrev sem5_8 : Fin 1 → DmaSem sig := fun | 0 => cc5_sem8_0 | ⟨_ + 1, h⟩ => absurd h (Nat.not_lt.2 (Nat.le_add_left _ _))
abbrev reads5_8 : Fin grid5.rank → Bool := ![false]

abbrev stage5_9 : Fin 1 → Memref sig .tc .vmem S1x128 .f32 := fun | 0 => Memref.whole cc5_stg9_0 | ⟨_ + 1, h⟩ => absurd h (Nat.not_lt.2 (Nat.le_add_left _ _))
abbrev sem5_9 : Fin 1 → DmaSem sig := fun | 0 => cc5_sem9_0 | ⟨_ + 1, h⟩ => absurd h (Nat.not_lt.2 (Nat.le_add_left _ _))
abbrev reads5_9 : Fin grid5.rank → Bool := ![false]

abbrev stage5_10 : Fin 1 → Memref sig .tc .vmem S128x2 .f32 := fun | 0 => Memref.whole cc5_stg10_0 | ⟨_ + 1, h⟩ => absurd h (Nat.not_lt.2 (Nat.le_add_left _ _))
abbrev sem5_10 : Fin 1 → DmaSem sig := fun | 0 => cc5_sem10_0 | ⟨_ + 1, h⟩ => absurd h (Nat.not_lt.2 (Nat.le_add_left _ _))
abbrev reads5_10 : Fin grid5.rank → Bool := ![false]

abbrev stage5_11 : Fin 1 → Memref sig .tc .vmem S1x2 .f32 := fun | 0 => Memref.whole cc5_stg11_0 | ⟨_ + 1, h⟩ => absurd h (Nat.not_lt.2 (Nat.le_add_left _ _))
abbrev sem5_11 : Fin 1 → DmaSem sig := fun | 0 => cc5_sem11_0 | ⟨_ + 1, h⟩ => absurd h (Nat.not_lt.2 (Nat.le_add_left _ _))
abbrev reads5_11 : Fin grid5.rank → Bool := ![false]

abbrev stage5_12 : Fin 1 → Memref sig .tc .vmem S128x2 .f32 := fun | 0 => Memref.whole cc5_stg12_0 | ⟨_ + 1, h⟩ => absurd h (Nat.not_lt.2 (Nat.le_add_left _ _))
abbrev sem5_12 : Fin 1 → DmaSem sig := fun | 0 => cc5_sem12_0 | ⟨_ + 1, h⟩ => absurd h (Nat.not_lt.2 (Nat.le_add_left _ _))
abbrev reads5_12 : Fin grid5.rank → Bool := ![false]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x4 : S_.BroadcastsInDim S100000x4 (![] : Fin 0 → Fin S100000x4.rank)
  shapeCasts_S128_S1x128 : S128.ShapeCasts S1x128
  inb_S5000x4_S5000x4_0_0 : ∀ a, (![0, 0] : Fin 2 → Nat) a + S5000x4.size a ≤ S5000x4.size a
  h_S5000x4 : 0 < S5000x4.numel
  shapeCasts_S5000x4_S5000x4 : S5000x4.ShapeCasts S5000x4
  bitsLt_bf16_f32 : FTy.bits .bf16 < FTy.bits .f32
  inb_S4x128_S4x128_0_0 : ∀ a, (![0, 0] : Fin 2 → Nat) a + S4x128.size a ≤ S4x128.size a
  h_S4x128 : 0 < S4x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  inb_S5000x128_S5000x128_0_0 : ∀ a, (![0, 0] : Fin 2 → Nat) a + S5000x128.size a ≤ S5000x128.size a
  h_S5000x128 : 0 < S5000x128.numel
  bcast_S_S100000x128 : S_.BroadcastsInDim S100000x128 (![] : Fin 0 → Fin S100000x128.rank)
  shapeCasts_S5000x128_S5000x128 : S5000x128.ShapeCasts S5000x128
  inb_S128x128_S128x128_0_0 : ∀ a, (![0, 0] : Fin 2 → Nat) a + S128x128.size a ≤ S128x128.size a
  h_S128x128 : 0 < S128x128.numel
  shapeCasts_S100000_S100000x1 : S100000.ShapeCasts S100000x1
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  iota_S5000x128_d1_w32 : S5000x128.Iotas .tc 32 [1]
  broadcasts_S5000x1_S5000x128 : S5000x1.Broadcasts S5000x128
  natLt_1_32 : 1 < 32
  shapeCasts_S128x128_S128x128 : S128x128.ShapeCasts S128x128
  bcast_S_S100000 : S_.BroadcastsInDim S100000 (![] : Fin 0 → Fin S100000.rank)
  bcast_S_S128 : S_.BroadcastsInDim S128 (![] : Fin 0 → Fin S128.rank)
  bcast_S100000_S100000x1_0 : S100000.BroadcastsInDim S100000x1 (![0] : Fin 1 → Fin S100000x1.rank)
  shapeCasts_S128_S128x1 : S128.ShapeCasts S128x1
  shapeCasts_S2_S1x2 : S2.ShapeCasts S1x2
  inb_S128x1_S128x1_0_0 : ∀ a, (![0, 0] : Fin 2 → Nat) a + S128x1.size a ≤ S128x1.size a
  h_S128x1 : 0 < S128x1.numel
  shapeCasts_S128x1_S128x1 : S128x1.ShapeCasts S128x1
  broadcasts_S128x1_S128x128 : S128x1.Broadcasts S128x128
  broadcasts_S1x128_S128x128 : S1x128.Broadcasts S128x128
  inb_S128x2_S128x2_0_0 : ∀ a, (![0, 0] : Fin 2 → Nat) a + S128x2.size a ≤ S128x2.size a
  h_S128x2 : 0 < S128x2.numel
  inb_S1x2_S1x2_0_0 : ∀ a, (![0, 0] : Fin 2 → Nat) a + S1x2.size a ≤ S1x2.size a
  h_S1x2 : 0 < S1x2.numel
  shapeCasts_S1x2_S1x2 : S1x2.ShapeCasts S1x2
  broadcasts_S1x2_S128x2 : S1x2.Broadcasts S128x2
  gather_S100000x4_S1600000x1_S1600000x4_1_0_n_n_0_1_14_wf : GatherDims.WF S100000x4 S1600000x1 S1600000x4 [1] [0] [] [0] [] 1 ![1, 4]
  scatter_S100000x4_S1600000x1_S1600000x4_1_0_0_1_wf : ScatterDims.WF S100000x4 S1600000x1 S1600000x4 [1] [0] [0] 1
  dot_S5000x4_S4x128_S5000x128_1_0_0_1_n_n_wf : DotDims.WF S5000x4 S4x128 S5000x128 [1] [0] [0] [1] [] []
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S5000x128_S128x128_S5000x128_1_0_0_1_n_n_wf : DotDims.WF S5000x128 S128x128 S5000x128 [1] [0] [0] [1] [] []
  dot_S5000x128_S5000x128_S128x128_0_0_1_1_n_n_wf : DotDims.WF S5000x128 S5000x128 S128x128 [0] [0] [1] [1] [] []
  scatter_S128_S100000x1_S100000_n_0_0_1_wf : ScatterDims.WF S128 S100000x1 S100000 [] [0] [0] 1
  dot_S128x128_S128x128_S128x128_1_0_0_1_n_n_wf : DotDims.WF S128x128 S128x128 S128x128 [1] [0] [0] [1] [] []
  dot_S128x128_S128x2_S128x2_1_0_0_1_n_n_wf : DotDims.WF S128x128 S128x2 S128x2 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x4.size a ≤ S100000x4.size a
  hwx0_0 : ∀ i : grid0.Coords, EltTy.bits .f32 = 32 ∨ (Rect.block (s := S100000x4) S5000x4.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x4.size a ≤ S100000x4.size a
  hwx0_1 : ∀ i : grid0.Coords, EltTy.bits .f32 = 32 ∨ (Rect.block (s := S100000x4) S5000x4.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S4x128.size a ≤ S4x128.size a
  hwx0_2 : ∀ i : grid0.Coords, EltTy.bits .f32 = 32 ∨ (Rect.block (s := S4x128) S4x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x128.size a ≤ S1x128.size a
  hwx0_3 : ∀ i : grid0.Coords, EltTy.bits .f32 = 32 ∨ (Rect.block (s := S1x128) S1x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S4x128.size a ≤ S4x128.size a
  hwx0_4 : ∀ i : grid0.Coords, EltTy.bits .f32 = 32 ∨ (Rect.block (s := S4x128) S4x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S5000x128.size a ≤ S100000x128.size a
  hwx0_5 : ∀ i : grid0.Coords, EltTy.bits .f32 = 32 ∨ (Rect.block (s := S100000x128) S5000x128.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S100000x128.size a
  hwx1_0 : ∀ i : grid1.Coords, EltTy.bits .f32 = 32 ∨ (Rect.block (s := S100000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x128.size a ≤ S100000x128.size a
  hwx1_1 : ∀ i : grid1.Coords, EltTy.bits .f32 = 32 ∨ (Rect.block (s := S100000x128) S5000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x128.size a ≤ S128x128.size a
  hwx1_2 : ∀ i : grid1.Coords, EltTy.bits .f32 = 32 ∨ (Rect.block (s := S128x128) S128x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128x128.size a ≤ S128x128.size a
  hwx1_4 : ∀ i : grid1.Coords, EltTy.bits .f32 = 32 ∨ (Rect.block (s := S128x128) S128x128.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S5000x128.size a ≤ S100000x128.size a
  hwx1_5 : ∀ i : grid1.Coords, EltTy.bits .f32 = 32 ∨ (Rect.block (s := S100000x128) S5000x128.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S100000x128.size a
  hwx2_0 : ∀ i : grid2.Coords, EltTy.bits .f32 = 32 ∨ (Rect.block (s := S100000x128) S5000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x128.size a ≤ S100000x128.size a
  hwx2_1 : ∀ i : grid2.Coords, EltTy.bits .f32 = 32 ∨ (Rect.block (s := S100000x128) S5000x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S128x128.size a ≤ S128x128.size a
  hwx2_2 : ∀ i : grid2.Coords, EltTy.bits .f32 = 32 ∨ (Rect.block (s := S128x128) S128x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x128.size a ≤ S1x128.size a
  hwx2_3 : ∀ i : grid2.Coords, EltTy.bits .f32 = 32 ∨ (Rect.block (s := S1x128) S1x128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S128x128.size a ≤ S128x128.size a
  hwx2_4 : ∀ i : grid2.Coords, EltTy.bits .f32 = 32 ∨ (Rect.block (s := S128x128) S128x128.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S5000x128.size a ≤ S100000x128.size a
  hwx2_5 : ∀ i : grid2.Coords, EltTy.bits .f32 = 32 ∨ (Rect.block (s := S100000x128) S5000x128.size (cc2_transform_5 i) (hinb2_5 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x128.size a ≤ S100000x128.size a
  hwx3_0 : ∀ i : grid3.Coords, EltTy.bits .f32 = 32 ∨ (Rect.block (s := S100000x128) S5000x128.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S5000x128.size a ≤ S100000x128.size a
  hwx3_1 : ∀ i : grid3.Coords, EltTy.bits .f32 = 32 ∨ (Rect.block (s := S100000x128) S5000x128.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S128x128.size a ≤ S128x128.size a
  hwx3_2 : ∀ i : grid3.Coords, EltTy.bits .f32 = 32 ∨ (Rect.block (s := S128x128) S128x128.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x128.size a ≤ S1x128.size a
  hwx3_3 : ∀ i : grid3.Coords, EltTy.bits .f32 = 32 ∨ (Rect.block (s := S1x128) S1x128.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S128x128.size a ≤ S128x128.size a
  hwx3_4 : ∀ i : grid3.Coords, EltTy.bits .f32 = 32 ∨ (Rect.block (s := S128x128) S128x128.size (cc3_transform_4 i) (hinb3_4 i)).WholeWords (EltTy.packing .f32)
  hstage3_5 : ∀ j, (stage3_5 j).IsWhole
  nbuf3_5 : grid3.bufCount reads3_5 false = 2
  hreads3_5 : ∀ i i' : grid3.Coords, (∀ a, reads3_5 a = true → i a = i' a) → cc3_transform_5 i = cc3_transform_5 i'
  hinb3_5 : ∀ (i : grid3.Coords) a, (cc3_transform_5 i a + 1) * S5000x128.size a ≤ S100000x128.size a
  hwx3_5 : ∀ i : grid3.Coords, EltTy.bits .f32 = 32 ∨ (Rect.block (s := S100000x128) S5000x128.size (cc3_transform_5 i) (hinb3_5 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S5000x128.size a ≤ S100000x128.size a
  hwx4_0 : ∀ i : grid4.Coords, EltTy.bits .f32 = 32 ∨ (Rect.block (s := S100000x128) S5000x128.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S5000x1.size a ≤ S100000x1.size a
  hwx4_1 : ∀ i : grid4.Coords, EltTy.bits .i32 = 32 ∨ (Rect.block (s := S100000x1) S5000x1.size (cc4_transform_1 i) (hinb4_1 i)).WholeWords (EltTy.packing .i32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S128x128.size a ≤ S128x128.size a
  hwx4_2 : ∀ i : grid4.Coords, EltTy.bits .f32 = 32 ∨ (Rect.block (s := S128x128) S128x128.size (cc4_transform_2 i) (hinb4_2 i)).WholeWords (EltTy.packing .f32)
  hrank5 : 0 < grid5.rank
  hstage5_0 : ∀ j, (stage5_0 j).IsWhole
  nbuf5_0 : grid5.bufCount reads5_0 true = 1
  hreads5_0 : ∀ i i' : grid5.Coords, (∀ a, reads5_0 a = true → i a = i' a) → cc5_transform_0 i = cc5_transform_0 i'
  hinb5_0 : ∀ (i : grid5.Coords) a, (cc5_transform_0 i a + 1) * S128x128.size a ≤ S128x128.size a
  hwx5_0 : ∀ i : grid5.Coords, EltTy.bits .f32 = 32 ∨ (Rect.block (s := S128x128) S128x128.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S128x1.size a ≤ S128x1.size a
  hwx5_1 : ∀ i : grid5.Coords, EltTy.bits .f32 = 32 ∨ (Rect.block (s := S128x1) S128x1.size (cc5_transform_1 i) (hinb5_1 i)).WholeWords (EltTy.packing .f32)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S128x128.size a ≤ S128x128.size a
  hwx5_2 : ∀ i : grid5.Coords, EltTy.bits .f32 = 32 ∨ (Rect.block (s := S128x128) S128x128.size (cc5_transform_2 i) (hinb5_2 i)).WholeWords (EltTy.packing .f32)
  hstage5_3 : ∀ j, (stage5_3 j).IsWhole
  nbuf5_3 : grid5.bufCount reads5_3 true = 1
  hreads5_3 : ∀ i i' : grid5.Coords, (∀ a, reads5_3 a = true → i a = i' a) → cc5_transform_3 i = cc5_transform_3 i'
  hinb5_3 : ∀ (i : grid5.Coords) a, (cc5_transform_3 i a + 1) * S1x128.size a ≤ S1x128.size a
  hwx5_3 : ∀ i : grid5.Coords, EltTy.bits .f32 = 32 ∨ (Rect.block (s := S1x128) S1x128.size (cc5_transform_3 i) (hinb5_3 i)).WholeWords (EltTy.packing .f32)
  hstage5_4 : ∀ j, (stage5_4 j).IsWhole
  nbuf5_4 : grid5.bufCount reads5_4 true = 1
  hreads5_4 : ∀ i i' : grid5.Coords, (∀ a, reads5_4 a = true → i a = i' a) → cc5_transform_4 i = cc5_transform_4 i'
  hinb5_4 : ∀ (i : grid5.Coords) a, (cc5_transform_4 i a + 1) * S128x128.size a ≤ S128x128.size a
  hwx5_4 : ∀ i : grid5.Coords, EltTy.bits .f32 = 32 ∨ (Rect.block (s := S128x128) S128x128.size (cc5_transform_4 i) (hinb5_4 i)).WholeWords (EltTy.packing .f32)
  hstage5_5 : ∀ j, (stage5_5 j).IsWhole
  nbuf5_5 : grid5.bufCount reads5_5 true = 1
  hreads5_5 : ∀ i i' : grid5.Coords, (∀ a, reads5_5 a = true → i a = i' a) → cc5_transform_5 i = cc5_transform_5 i'
  hinb5_5 : ∀ (i : grid5.Coords) a, (cc5_transform_5 i a + 1) * S1x128.size a ≤ S1x128.size a
  hwx5_5 : ∀ i : grid5.Coords, EltTy.bits .f32 = 32 ∨ (Rect.block (s := S1x128) S1x128.size (cc5_transform_5 i) (hinb5_5 i)).WholeWords (EltTy.packing .f32)
  hstage5_6 : ∀ j, (stage5_6 j).IsWhole
  nbuf5_6 : grid5.bufCount reads5_6 true = 1
  hreads5_6 : ∀ i i' : grid5.Coords, (∀ a, reads5_6 a = true → i a = i' a) → cc5_transform_6 i = cc5_transform_6 i'
  hinb5_6 : ∀ (i : grid5.Coords) a, (cc5_transform_6 i a + 1) * S128x128.size a ≤ S128x128.size a
  hwx5_6 : ∀ i : grid5.Coords, EltTy.bits .f32 = 32 ∨ (Rect.block (s := S128x128) S128x128.size (cc5_transform_6 i) (hinb5_6 i)).WholeWords (EltTy.packing .f32)
  hstage5_7 : ∀ j, (stage5_7 j).IsWhole
  nbuf5_7 : grid5.bufCount reads5_7 true = 1
  hreads5_7 : ∀ i i' : grid5.Coords, (∀ a, reads5_7 a = true → i a = i' a) → cc5_transform_7 i = cc5_transform_7 i'
  hinb5_7 : ∀ (i : grid5.Coords) a, (cc5_transform_7 i a + 1) * S1x128.size a ≤ S1x128.size a
  hwx5_7 : ∀ i : grid5.Coords, EltTy.bits .f32 = 32 ∨ (Rect.block (s := S1x128) S1x128.size (cc5_transform_7 i) (hinb5_7 i)).WholeWords (EltTy.packing .f32)
  hstage5_8 : ∀ j, (stage5_8 j).IsWhole
  nbuf5_8 : grid5.bufCount reads5_8 true = 1
  hreads5_8 : ∀ i i' : grid5.Coords, (∀ a, reads5_8 a = true → i a = i' a) → cc5_transform_8 i = cc5_transform_8 i'
  hinb5_8 : ∀ (i : grid5.Coords) a, (cc5_transform_8 i a + 1) * S128x128.size a ≤ S128x128.size a
  hwx5_8 : ∀ i : grid5.Coords, EltTy.bits .f32 = 32 ∨ (Rect.block (s := S128x128) S128x128.size (cc5_transform_8 i) (hinb5_8 i)).WholeWords (EltTy.packing .f32)
  hstage5_9 : ∀ j, (stage5_9 j).IsWhole
  nbuf5_9 : grid5.bufCount reads5_9 true = 1
  hreads5_9 : ∀ i i' : grid5.Coords, (∀ a, reads5_9 a = true → i a = i' a) → cc5_transform_9 i = cc5_transform_9 i'
  hinb5_9 : ∀ (i : grid5.Coords) a, (cc5_transform_9 i a + 1) * S1x128.size a ≤ S1x128.size a
  hwx5_9 : ∀ i : grid5.Coords, EltTy.bits .f32 = 32 ∨ (Rect.block (s := S1x128) S1x128.size (cc5_transform_9 i) (hinb5_9 i)).WholeWords (EltTy.packing .f32)
  hstage5_10 : ∀ j, (stage5_10 j).IsWhole
  nbuf5_10 : grid5.bufCount reads5_10 true = 1
  hreads5_10 : ∀ i i' : grid5.Coords, (∀ a, reads5_10 a = true → i a = i' a) → cc5_transform_10 i = cc5_transform_10 i'
  hinb5_10 : ∀ (i : grid5.Coords) a, (cc5_transform_10 i a + 1) * S128x2.size a ≤ S128x2.size a
  hwx5_10 : ∀ i : grid5.Coords, EltTy.bits .f32 = 32 ∨ (Rect.block (s := S128x2) S128x2.size (cc5_transform_10 i) (hinb5_10 i)).WholeWords (EltTy.packing .f32)
  hstage5_11 : ∀ j, (stage5_11 j).IsWhole
  nbuf5_11 : grid5.bufCount reads5_11 true = 1
  hreads5_11 : ∀ i i' : grid5.Coords, (∀ a, reads5_11 a = true → i a = i' a) → cc5_transform_11 i = cc5_transform_11 i'
  hinb5_11 : ∀ (i : grid5.Coords) a, (cc5_transform_11 i a + 1) * S1x2.size a ≤ S1x2.size a
  hwx5_11 : ∀ i : grid5.Coords, EltTy.bits .f32 = 32 ∨ (Rect.block (s := S1x2) S1x2.size (cc5_transform_11 i) (hinb5_11 i)).WholeWords (EltTy.packing .f32)
  hstage5_12 : ∀ j, (stage5_12 j).IsWhole
  nbuf5_12 : grid5.bufCount reads5_12 true = 1
  hreads5_12 : ∀ i i' : grid5.Coords, (∀ a, reads5_12 a = true → i a = i' a) → cc5_transform_12 i = cc5_transform_12 i'
  hinb5_12 : ∀ (i : grid5.Coords) a, (cc5_transform_12 i a + 1) * S128x2.size a ≤ S128x2.size a
  hwx5_12 : ∀ i : grid5.Coords, EltTy.bits .f32 = 32 ∨ (Rect.block (s := S128x2) S128x2.size (cc5_transform_12 i) (hinb5_12 i)).WholeWords (EltTy.packing .f32)

variable [Facts₀]

def gather_S100000x4_S1600000x1_S1600000x4_1_0_n_n_0_1_14 : GatherDims S100000x4 S1600000x1 S1600000x4 where
  offsetDims := [1]
  collapsedSliceDims := [0]
  operandBatchingDims := []
  startIndicesBatchingDims := []
  startIndexMap := [0]
  indexVectorDim := 1
  sliceSizes := ![1, 4]
  wf := gather_S100000x4_S1600000x1_S1600000x4_1_0_n_n_0_1_14_wf
def scatter_S100000x4_S1600000x1_S1600000x4_1_0_0_1 : ScatterDims S100000x4 S1600000x1 S1600000x4 where
  updateWindowDims := [1]
  insertedWindowDims := [0]
  scatterDimsToOperandDims := [0]
  indexVectorDim := 1
  wf := scatter_S100000x4_S1600000x1_S1600000x4_1_0_0_1_wf
def dot_S5000x4_S4x128_S5000x128_1_0_0_1_n_n : DotDims S5000x4 S4x128 S5000x128 where
  lhsContracting := [1]
  rhsContracting := [0]
  lhsNonContracting := [0]
  rhsNonContracting := [1]
  lhsBatch := []
  rhsBatch := []
  wf := dot_S5000x4_S4x128_S5000x128_1_0_0_1_n_n_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def dot_S5000x128_S5000x128_S128x128_0_0_1_1_n_n : DotDims S5000x128 S5000x128 S128x128 where
  lhsContracting := [0]
  rhsContracting := [0]
  lhsNonContracting := [1]
  rhsNonContracting := [1]
  lhsBatch := []
  rhsBatch := []
  wf := dot_S5000x128_S5000x128_S128x128_0_0_1_1_n_n_wf
def scatter_S128_S100000x1_S100000_n_0_0_1 : ScatterDims S128 S100000x1 S100000 where
  updateWindowDims := []
  insertedWindowDims := [0]
  scatterDimsToOperandDims := [0]
  indexVectorDim := 1
  wf := scatter_S128_S100000x1_S100000_n_0_0_1_wf
def dot_S128x128_S128x128_S128x128_1_0_0_1_n_n : DotDims S128x128 S128x128 S128x128 where
  lhsContracting := [1]
  rhsContracting := [0]
  lhsNonContracting := [0]
  rhsNonContracting := [1]
  lhsBatch := []
  rhsBatch := []
  wf := dot_S128x128_S128x128_S128x128_1_0_0_1_n_n_wf
def dot_S128x128_S128x2_S128x2_1_0_0_1_n_n : DotDims S128x128 S128x2 S128x2 where
  lhsContracting := [1]
  rhsContracting := [0]
  lhsNonContracting := [0]
  rhsNonContracting := [1]
  lhsBatch := []
  rhsBatch := []
  wf := dot_S128x128_S128x2_S128x2_1_0_0_1_n_n_wf

abbrev win0_0 : Pipeline.Window sig grid0 :=
  Pipeline.Window.ofSpec (Memref.whole main_v13) S5000x4.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S5000x4.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S4x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v14) S1x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg5) S4x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v15) S5000x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v25) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v15) S5000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg6) S128x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v26) S1x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg8) S128x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v27) S5000x128.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v37) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v27) S5000x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_arg9) S128x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v38) S1x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_arg11) S128x128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v39) S5000x128.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

abbrev win3_0 : Pipeline.Window sig grid3 :=
  Pipeline.Window.ofSpec (Memref.whole main_v49) S5000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v39) S5000x128.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_arg12) S128x128.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v50) S1x128.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_arg14) S128x128.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v51) S5000x128.size cc3_transform_5 reads3_5 true false 2 stage3_5 sem3_5
    hrank3 hreads3_5 hinb3_5 nbuf3_5 (Memref.isWhole_whole _) hwx3_5 hstage3_5

abbrev win3 : Fin 6 → Pipeline.Window sig grid3 := fun | 0 => win3_0 | 1 => win3_1 | 2 => win3_2 | 3 => win3_3 | 4 => win3_4 | 5 => win3_5 | ⟨_ + 6, h⟩ => absurd h (Nat.not_lt.2 (Nat.le_add_left _ _))
abbrev spec3 : Fin 6 → Pipeline.WinSpec sig grid3.rank := fun w => (win3 w).toWinSpec

abbrev win4_0 : Pipeline.Window sig grid4 :=
  Pipeline.Window.ofSpec (Memref.whole main_v51) S5000x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v52) S5000x1.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_v53) S128x128.size cc4_transform_2 reads4_2 true true 1 stage4_2 sem4_2
    hrank4 hreads4_2 hinb4_2 nbuf4_2 (Memref.isWhole_whole _) hwx4_2 hstage4_2

abbrev win4 : Fin 3 → Pipeline.Window sig grid4 := fun | 0 => win4_0 | 1 => win4_1 | 2 => win4_2 | ⟨_ + 3, h⟩ => absurd h (Nat.not_lt.2 (Nat.le_add_left _ _))
abbrev spec4 : Fin 3 → Pipeline.WinSpec sig grid4.rank := fun w => (win4 w).toWinSpec

abbrev win5_0 : Pipeline.Window sig grid5 :=
  Pipeline.Window.ofSpec (Memref.whole main_v53) S128x128.size cc5_transform_0 reads5_0 false true 1 stage5_0 sem5_0
    hrank5 hreads5_0 hinb5_0 nbuf5_0 (Memref.isWhole_whole _) hwx5_0 hstage5_0

abbrev win5_1 : Pipeline.Window sig grid5 :=
  Pipeline.Window.ofSpec (Memref.whole main_v58) S128x1.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_arg15) S128x128.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_v59) S1x128.size cc5_transform_3 reads5_3 false true 1 stage5_3 sem5_3
    hrank5 hreads5_3 hinb5_3 nbuf5_3 (Memref.isWhole_whole _) hwx5_3 hstage5_3

abbrev win5_4 : Pipeline.Window sig grid5 :=
  Pipeline.Window.ofSpec (Memref.whole main_arg17) S128x128.size cc5_transform_4 reads5_4 false true 1 stage5_4 sem5_4
    hrank5 hreads5_4 hinb5_4 nbuf5_4 (Memref.isWhole_whole _) hwx5_4 hstage5_4

abbrev win5_5 : Pipeline.Window sig grid5 :=
  Pipeline.Window.ofSpec (Memref.whole main_v60) S1x128.size cc5_transform_5 reads5_5 false true 1 stage5_5 sem5_5
    hrank5 hreads5_5 hinb5_5 nbuf5_5 (Memref.isWhole_whole _) hwx5_5 hstage5_5

abbrev win5_6 : Pipeline.Window sig grid5 :=
  Pipeline.Window.ofSpec (Memref.whole main_arg19) S128x128.size cc5_transform_6 reads5_6 false true 1 stage5_6 sem5_6
    hrank5 hreads5_6 hinb5_6 nbuf5_6 (Memref.isWhole_whole _) hwx5_6 hstage5_6

abbrev win5_7 : Pipeline.Window sig grid5 :=
  Pipeline.Window.ofSpec (Memref.whole main_v61) S1x128.size cc5_transform_7 reads5_7 false true 1 stage5_7 sem5_7
    hrank5 hreads5_7 hinb5_7 nbuf5_7 (Memref.isWhole_whole _) hwx5_7 hstage5_7

abbrev win5_8 : Pipeline.Window sig grid5 :=
  Pipeline.Window.ofSpec (Memref.whole main_arg21) S128x128.size cc5_transform_8 reads5_8 false true 1 stage5_8 sem5_8
    hrank5 hreads5_8 hinb5_8 nbuf5_8 (Memref.isWhole_whole _) hwx5_8 hstage5_8

abbrev win5_9 : Pipeline.Window sig grid5 :=
  Pipeline.Window.ofSpec (Memref.whole main_v62) S1x128.size cc5_transform_9 reads5_9 false true 1 stage5_9 sem5_9
    hrank5 hreads5_9 hinb5_9 nbuf5_9 (Memref.isWhole_whole _) hwx5_9 hstage5_9

abbrev win5_10 : Pipeline.Window sig grid5 :=
  Pipeline.Window.ofSpec (Memref.whole main_arg23) S128x2.size cc5_transform_10 reads5_10 false true 1 stage5_10 sem5_10
    hrank5 hreads5_10 hinb5_10 nbuf5_10 (Memref.isWhole_whole _) hwx5_10 hstage5_10

abbrev win5_11 : Pipeline.Window sig grid5 :=
  Pipeline.Window.ofSpec (Memref.whole main_v63) S1x2.size cc5_transform_11 reads5_11 false true 1 stage5_11 sem5_11
    hrank5 hreads5_11 hinb5_11 nbuf5_11 (Memref.isWhole_whole _) hwx5_11 hstage5_11

abbrev win5_12 : Pipeline.Window sig grid5 :=
  Pipeline.Window.ofSpec (Memref.whole main_v64) S128x2.size cc5_transform_12 reads5_12 true true 1 stage5_12 sem5_12
    hrank5 hreads5_12 hinb5_12 nbuf5_12 (Memref.isWhole_whole _) hwx5_12 hstage5_12

abbrev win5 : Fin 13 → Pipeline.Window sig grid5 := fun | 0 => win5_0 | 1 => win5_1 | 2 => win5_2 | 3 => win5_3 | 4 => win5_4 | 5 => win5_5 | 6 => win5_6 | 7 => win5_7 | 8 => win5_8 | 9 => win5_9 | 10 => win5_10 | 11 => win5_11 | 12 => win5_12 | ⟨_ + 13, h⟩ => absurd h (Nat.not_lt.2 (Nat.le_add_left _ _))
abbrev spec5 : Fin 13 → Pipeline.WinSpec sig grid5.rank := fun w => (win5 w).toWinSpec

class Facts : Prop extends Facts₀ where

variable [Facts]
-- ==== ReferenceIdeal.lean ====
abbrev S100000x4 : Shape := ⟨2, ![100000, 4]⟩
abbrev S2x1600000 : Shape := ⟨2, ![2, 1600000]⟩
abbrev S100000 : Shape := ⟨1, ![100000]⟩
abbrev S4x128 : Shape := ⟨2, ![4, 128]⟩
abbrev S128 : Shape := ⟨1, ![128]⟩
abbrev S128x128 : Shape := ⟨2, ![128, 128]⟩
abbrev S128x2 : Shape := ⟨2, ![128, 2]⟩
abbrev S2 : Shape := ⟨1, ![2]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S1600000x4 : Shape := ⟨2, ![1600000, 4]⟩
abbrev S100000x128 : Shape := ⟨2, ![100000, 128]⟩
abbrev S1x128 : Shape := ⟨2, ![1, 128]⟩
abbrev S1600000x128 : Shape := ⟨2, ![1600000, 128]⟩
abbrev S100000x1 : Shape := ⟨2, ![100000, 1]⟩
abbrev S128x1 : Shape := ⟨2, ![128, 1]⟩
abbrev S1x2 : Shape := ⟨2, ![1, 2]⟩

abbrev nBuf : Space → Nat
  | .hbm => 173
  | .vmem => 0
  | .smem => 0
  | _ => 0

abbrev hbmTy0_0 (i : Nat) : BufTy := match i % 128 with
  | 0 => ⟨S100000x4, .f32⟩
  | 1 => ⟨S2x1600000, .i32⟩
  | 2 => ⟨S100000, .i32⟩
  | 3 => ⟨S4x128, .f32⟩
  | 4 => ⟨S128, .f32⟩
  | 5 => ⟨S4x128, .f32⟩
  | 6 => ⟨S128x128, .f32⟩
  | 7 => ⟨S128, .f32⟩
  | 8 => ⟨S128x128, .f32⟩
  | 9 => ⟨S128x128, .f32⟩
  | 10 => ⟨S128, .f32⟩
  | 11 => ⟨S128x128, .f32⟩
  | 12 => ⟨S128x128, .f32⟩
  | 13 => ⟨S128, .f32⟩
  | 14 => ⟨S128x128, .f32⟩
  | 15 => ⟨S128x128, .f32⟩
  | 16 => ⟨S128, .f32⟩
  | 17 => ⟨S128x128, .f32⟩
  | 18 => ⟨S128, .f32⟩
  | 19 => ⟨S128x128, .f32⟩
  | 20 => ⟨S128, .f32⟩
  | 21 => ⟨S128x128, .f32⟩
  | 22 => ⟨S128, .f32⟩
  | 23 => ⟨S128x2, .f32⟩
  | 24 => ⟨S2, .f32⟩
  | 25 => ⟨S1x1600000, .i32⟩
  | 26 => ⟨S1600000, .i32⟩
  | 27 => ⟨S1x1600000, .i32⟩
  | 28 => ⟨S1600000, .i32⟩
  | 29 => ⟨S_, .i32⟩
  | 30 => ⟨S1600000, .i32⟩
  | 31 => ⟨S1600000, .i1⟩
  | 32 => ⟨S_, .i32⟩
  | 33 => ⟨S1600000, .i32⟩
  | 34 => ⟨S1600000, .i32⟩
  | 35 => ⟨S1600000, .i32⟩
  | 36 => ⟨S1600000x1, .i32⟩
  | 37 => ⟨S1600000x4, .f32⟩
  | 38 => ⟨S_, .f32⟩
  | 39 => ⟨S100000x4, .f32⟩
  | 40 => ⟨S1600000x1, .i32⟩
  | 41 => ⟨S100000x4, .f32⟩
  | 42 => ⟨S100000x128, .f32⟩
  | 43 => ⟨S1x128, .f32⟩
  | 44 => ⟨S100000x128, .f32⟩
  | 45 => ⟨S100000x128, .f32⟩
  | 46 => ⟨S100000x128, .f32⟩
  | 47 => ⟨S100000x128, .f32⟩
  | 48 => ⟨S_, .f32⟩
  | 49 => ⟨S100000x128, .f32⟩
  | 50 => ⟨S100000x128, .f32⟩
  | 51 => ⟨S_, .i32⟩
  | 52 => ⟨S1600000, .i32⟩
  | 53 => ⟨S1600000, .i1⟩
  | 54 => ⟨S_, .i32⟩
  | 55 => ⟨S1600000, .i32⟩
  | 56 => ⟨S1600000, .i32⟩
  | 57 => ⟨S1600000, .i32⟩
  | 58 => ⟨S1600000x1, .i32⟩
  | 59 => ⟨S1600000x128, .f32⟩
  | 60 => ⟨S_, .f32⟩
  | 61 => ⟨S100000x128, .f32⟩
  | 62 => ⟨S1600000x1, .i32⟩
  | 63 => ⟨S100000x128, .f32⟩
  | 64 => ⟨S100000x128, .f32⟩
  | 65 => ⟨S1x128, .f32⟩
  | 66 => ⟨S100000x128, .f32⟩
  | 67 => ⟨S100000x128, .f32⟩
  | 68 => ⟨S100000x128, .f32⟩
  | 69 => ⟨S100000x128, .f32⟩
  | 70 => ⟨S_, .f32⟩
  | 71 => ⟨S100000x128, .f32⟩
  | 72 => ⟨S100000x128, .f32⟩
  | 73 => ⟨S_, .i32⟩
  | 74 => ⟨S1600000, .i32⟩
  | 75 => ⟨S1600000, .i1⟩
  | 76 => ⟨S_, .i32⟩
  | 77 => ⟨S1600000, .i32⟩
  | 78 => ⟨S1600000, .i32⟩
  | 79 => ⟨S1600000, .i32⟩
  | 80 => ⟨S1600000x1, .i32⟩
  | 81 => ⟨S1600000x128, .f32⟩
  | 82 => ⟨S_, .f32⟩
  | 83 => ⟨S100000x128, .f32⟩
  | 84 => ⟨S1600000x1, .i32⟩
  | 85 => ⟨S100000x128, .f32⟩
  | 86 => ⟨S100000x128, .f32⟩
  | 87 => ⟨S1x128, .f32⟩
  | 88 => ⟨S100000x128, .f32⟩
  | 89 => ⟨S100000x128, .f32⟩
  | 90 => ⟨S100000x128, .f32⟩
  | 91 => ⟨S100000x128, .f32⟩
  | 92 => ⟨S_, .f32⟩
  | 93 => ⟨S100000x128, .f32⟩
  | 94 => ⟨S100000x128, .f32⟩
  | 95 => ⟨S_, .i32⟩
  | 96 => ⟨S1600000, .i32⟩
  | 97 => ⟨S1600000, .i1⟩
  | 98 => ⟨S_, .i32⟩
  | 99 => ⟨S1600000, .i32⟩
  | 100 => ⟨S1600000, .i32⟩
  | 101 => ⟨S1600000, .i32⟩
  | 102 => ⟨S1600000x1, .i32⟩
  | 103 => ⟨S1600000x128, .f32⟩
  | 104 => ⟨S_, .f32⟩
  | 105 => ⟨S100000x128, .f32⟩
  | 106 => ⟨S1600000x1, .i32⟩
  | 107 => ⟨S100000x128, .f32⟩
  | 108 => ⟨S100000x128, .f32⟩
  | 109 => ⟨S1x128, .f32⟩
  | 110 => ⟨S100000x128, .f32⟩
  | 111 => ⟨S100000x128, .f32⟩
  | 112 => ⟨S100000x128, .f32⟩
  | 113 => ⟨S100000x128, .f32⟩
  | 114 => ⟨S_, .f32⟩
  | 115 => ⟨S100000x128, .f32⟩
  | 116 => ⟨S100000x128, .f32⟩
  | 117 => ⟨S_, .f32⟩
  | 118 => ⟨S128x128, .f32⟩
  | 119 => ⟨S100000x1, .i32⟩
  | 120 => ⟨S128x128, .f32⟩
  | 121 => ⟨S_, .f32⟩
  | 122 => ⟨S100000, .f32⟩
  | 123 => ⟨S_, .f32⟩
  | 124 => ⟨S128, .f32⟩
  | 125 => ⟨S100000x1, .i32⟩
  | 126 => ⟨S128, .f32⟩
  | 127 => ⟨S_, .f32⟩
  | _ => ⟨S100000x4, .f32⟩

abbrev hbmTy0_1 (i : Nat) : BufTy := match i % 128 with
  | 0 => ⟨S128, .f32⟩
  | 1 => ⟨S128, .f32⟩
  | 2 => ⟨S128x1, .f32⟩
  | 3 => ⟨S128x128, .f32⟩
  | 4 => ⟨S128x128, .f32⟩
  | 5 => ⟨S128x128, .f32⟩
  | 6 => ⟨S1x128, .f32⟩
  | 7 => ⟨S128x128, .f32⟩
  | 8 => ⟨S128x128, .f32⟩
  | 9 => ⟨S_, .f32⟩
  | 10 => ⟨S128x128, .f32⟩
  | 11 => ⟨S128x128, .f32⟩
  | 12 => ⟨S128x128, .f32⟩
  | 13 => ⟨S1x128, .f32⟩
  | 14 => ⟨S128x128, .f32⟩
  | 15 => ⟨S128x128, .f32⟩
  | 16 => ⟨S_, .f32⟩
  | 17 => ⟨S128x128, .f32⟩
  | 18 => ⟨S128x128, .f32⟩
  | 19 => ⟨S128x128, .f32⟩
  | 20 => ⟨S1x128, .f32⟩
  | 21 => ⟨S128x128, .f32⟩
  | 22 => ⟨S128x128, .f32⟩
  | 23 => ⟨S_, .f32⟩
  | 24 => ⟨S128x128, .f32⟩
  | 25 => ⟨S128x128, .f32⟩
  | 26 => ⟨S128x128, .f32⟩
  | 27 => ⟨S1x128, .f32⟩
  | 28 => ⟨S128x128, .f32⟩
  | 29 => ⟨S128x128, .f32⟩
  | 30 => ⟨S_, .f32⟩
  | 31 => ⟨S128x128, .f32⟩
  | 32 => ⟨S128x128, .f32⟩
  | 33 => ⟨S128x2, .f32⟩
  | 34 => ⟨S1x2, .f32⟩
  | 35 => ⟨S128x2, .f32⟩
  | 36 => ⟨S128x2, .f32⟩
  | 37 => ⟨S128x2, .f32⟩
  | 38 => ⟨S128x2, .f32⟩
  | 39 => ⟨S_, .f32⟩
  | 40 => ⟨S128x2, .f32⟩
  | 41 => ⟨S128x2, .f32⟩
  | 42 => ⟨S_, .f32⟩
  | 43 => ⟨S128x2, .f32⟩
  | 44 => ⟨S128x2, .f32⟩
  | _ => ⟨S100000x4, .f32⟩

abbrev hbmTy (i : Nat) : BufTy := match i / 128 with
  | 0 => hbmTy0_0 i
  | 1 => hbmTy0_1 i
  | _ => ⟨S100000x4, .f32⟩

abbrev bufTy : (tb : Table) → Fin (tcTables nBuf tb) → BufTy
  | .hbm, ⟨i, _⟩ => hbmTy i
  | _, _ => ⟨S100000x4, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_v0 : Ref sig .tc := ⟨.hbm, 25, rfl⟩
abbrev main_v1 : Ref sig .tc := ⟨.hbm, 26, rfl⟩
abbrev main_v2 : Ref sig .tc := ⟨.hbm, 27, rfl⟩
abbrev main_v3 : Ref sig .tc := ⟨.hbm, 28, rfl⟩
abbrev main_c : Ref sig .tc := ⟨.hbm, 29, rfl⟩
abbrev main_v4 : Ref sig .tc := ⟨.hbm, 30, rfl⟩
abbrev main_v5 : Ref sig .tc := ⟨.hbm, 31, rfl⟩
abbrev main_c_0 : Ref sig .tc := ⟨.hbm, 32, rfl⟩
abbrev main_v6 : Ref sig .tc := ⟨.hbm, 33, rfl⟩
abbrev main_v7 : Ref sig .tc := ⟨.hbm, 34, rfl⟩
abbrev main_v8 : Ref sig .tc := ⟨.hbm, 35, rfl⟩
abbrev main_v9 : Ref sig .tc := ⟨.hbm, 36, rfl⟩
abbrev main_v10 : Ref sig .tc := ⟨.hbm, 37, rfl⟩
abbrev main_cst : Ref sig .tc := ⟨.hbm, 38, rfl⟩
abbrev main_v11 : Ref sig .tc := ⟨.hbm, 39, rfl⟩
abbrev main_v12 : Ref sig .tc := ⟨.hbm, 40, rfl⟩
abbrev main_v13 : Ref sig .tc := ⟨.hbm, 41, rfl⟩
abbrev main_v14 : Ref sig .tc := ⟨.hbm, 42, rfl⟩
abbrev main_v15 : Ref sig .tc := ⟨.hbm, 43, rfl⟩
abbrev main_v16 : Ref sig .tc := ⟨.hbm, 44, rfl⟩
abbrev main_v17 : Ref sig .tc := ⟨.hbm, 45, rfl⟩
abbrev main_v18 : Ref sig .tc := ⟨.hbm, 46, rfl⟩
abbrev main_v19 : Ref sig .tc := ⟨.hbm, 47, rfl⟩
abbrev main_call0_cst : Ref sig .tc := ⟨.hbm, 48, rfl⟩
abbrev main_call0_v0 : Ref sig .tc := ⟨.hbm, 49, rfl⟩
abbrev main_v20 : Ref sig .tc := ⟨.hbm, 50, rfl⟩
abbrev main_c_1 : Ref sig .tc := ⟨.hbm, 51, rfl⟩
abbrev main_v21 : Ref sig .tc := ⟨.hbm, 52, rfl⟩
abbrev main_v22 : Ref sig .tc := ⟨.hbm, 53, rfl⟩
abbrev main_c_2 : Ref sig .tc := ⟨.hbm, 54, rfl⟩
abbrev main_v23 : Ref sig .tc := ⟨.hbm, 55, rfl⟩
abbrev main_v24 : Ref sig .tc := ⟨.hbm, 56, rfl⟩
abbrev main_v25 : Ref sig .tc := ⟨.hbm, 57, rfl⟩
abbrev main_v26 : Ref sig .tc := ⟨.hbm, 58, rfl⟩
abbrev main_v27 : Ref sig .tc := ⟨.hbm, 59, rfl⟩
abbrev main_cst_3 : Ref sig .tc := ⟨.hbm, 60, rfl⟩
abbrev main_v28 : Ref sig .tc := ⟨.hbm, 61, rfl⟩
abbrev main_v29 : Ref sig .tc := ⟨.hbm, 62, rfl⟩
abbrev main_v30 : Ref sig .tc := ⟨.hbm, 63, rfl⟩
abbrev main_v31 : Ref sig .tc := ⟨.hbm, 64, rfl⟩
abbrev main_v32 : Ref sig .tc := ⟨.hbm, 65, rfl⟩
abbrev main_v33 : Ref sig .tc := ⟨.hbm, 66, rfl⟩
abbrev main_v34 : Ref sig .tc := ⟨.hbm, 67, rfl⟩
abbrev main_v35 : Ref sig .tc := ⟨.hbm, 68, rfl⟩
abbrev main_v36 : Ref sig .tc := ⟨.hbm, 69, rfl⟩
abbrev main_call1_cst : Ref sig .tc := ⟨.hbm, 70, rfl⟩
abbrev main_call1_v0 : Ref sig .tc := ⟨.hbm, 71, rfl⟩
abbrev main_v37 : Ref sig .tc := ⟨.hbm, 72, rfl⟩
abbrev main_c_4 : Ref sig .tc := ⟨.hbm, 73, rfl⟩
abbrev main_v38 : Ref sig .tc := ⟨.hbm, 74, rfl⟩
abbrev main_v39 : Ref sig .tc := ⟨.hbm, 75, rfl⟩
abbrev main_c_5 : Ref sig .tc := ⟨.hbm, 76, rfl⟩
abbrev main_v40 : Ref sig .tc := ⟨.hbm, 77, rfl⟩
abbrev main_v41 : Ref sig .tc := ⟨.hbm, 78, rfl⟩
abbrev main_v42 : Ref sig .tc := ⟨.hbm, 79, rfl⟩
abbrev main_v43 : Ref sig .tc := ⟨.hbm, 80, rfl⟩
abbrev main_v44 : Ref sig .tc := ⟨.hbm, 81, rfl⟩
abbrev main_cst_6 : Ref sig .tc := ⟨.hbm, 82, rfl⟩
abbrev main_v45 : Ref sig .tc := ⟨.hbm, 83, rfl⟩
abbrev main_v46 : Ref sig .tc := ⟨.hbm, 84, rfl⟩
abbrev main_v47 : Ref sig .tc := ⟨.hbm, 85, rfl⟩
abbrev main_v48 : Ref sig .tc := ⟨.hbm, 86, rfl⟩
abbrev main_v49 : Ref sig .tc := ⟨.hbm, 87, rfl⟩
abbrev main_v50 : Ref sig .tc := ⟨.hbm, 88, rfl⟩
abbrev main_v51 : Ref sig .tc := ⟨.hbm, 89, rfl⟩
abbrev main_v52 : Ref sig .tc := ⟨.hbm, 90, rfl⟩
abbrev main_v53 : Ref sig .tc := ⟨.hbm, 91, rfl⟩
abbrev main_call2_cst : Ref sig .tc := ⟨.hbm, 92, rfl⟩
abbrev main_call2_v0 : Ref sig .tc := ⟨.hbm, 93, rfl⟩
abbrev main_v54 : Ref sig .tc := ⟨.hbm, 94, rfl⟩
abbrev main_c_7 : Ref sig .tc := ⟨.hbm, 95, rfl⟩
abbrev main_v55 : Ref sig .tc := ⟨.hbm, 96, rfl⟩
abbrev main_v56 : Ref sig .tc := ⟨.hbm, 97, rfl⟩
abbrev main_c_8 : Ref sig .tc := ⟨.hbm, 98, rfl⟩
abbrev main_v57 : Ref sig .tc := ⟨.hbm, 99, rfl⟩
abbrev main_v58 : Ref sig .tc := ⟨.hbm, 100, rfl⟩
abbrev main_v59 : Ref sig .tc := ⟨.hbm, 101, rfl⟩
abbrev main_v60 : Ref sig .tc := ⟨.hbm, 102, rfl⟩
abbrev main_v61 : Ref sig .tc := ⟨.hbm, 103, rfl⟩
abbrev main_cst_9 : Ref sig .tc := ⟨.hbm, 104, rfl⟩
abbrev main_v62 : Ref sig .tc := ⟨.hbm, 105, rfl⟩
abbrev main_v63 : Ref sig .tc := ⟨.hbm, 106, rfl⟩
abbrev main_v64 : Ref sig .tc := ⟨.hbm, 107, rfl⟩
abbrev main_v65 : Ref sig .tc := ⟨.hbm, 108, rfl⟩
abbrev main_v66 : Ref sig .tc := ⟨.hbm, 109, rfl⟩
abbrev main_v67 : Ref sig .tc := ⟨.hbm, 110, rfl⟩
abbrev main_v68 : Ref sig .tc := ⟨.hbm, 111, rfl⟩
abbrev main_v69 : Ref sig .tc := ⟨.hbm, 112, rfl⟩
abbrev main_v70 : Ref sig .tc := ⟨.hbm, 113, rfl⟩
abbrev main_call3_cst : Ref sig .tc := ⟨.hbm, 114, rfl⟩
abbrev main_call3_v0 : Ref sig .tc := ⟨.hbm, 115, rfl⟩
abbrev main_v71 : Ref sig .tc := ⟨.hbm, 116, rfl⟩
abbrev main_cst_10 : Ref sig .tc := ⟨.hbm, 117, rfl⟩
abbrev main_v72 : Ref sig .tc := ⟨.hbm, 118, rfl⟩
abbrev main_v73 : Ref sig .tc := ⟨.hbm, 119, rfl⟩
abbrev main_v74 : Ref sig .tc := ⟨.hbm, 120, rfl⟩
abbrev main_cst_11 : Ref sig .tc := ⟨.hbm, 121, rfl⟩
abbrev main_v75 : Ref sig .tc := ⟨.hbm, 122, rfl⟩
abbrev main_cst_12 : Ref sig .tc := ⟨.hbm, 123, rfl⟩
abbrev main_v76 : Ref sig .tc := ⟨.hbm, 124, rfl⟩
abbrev main_v77 : Ref sig .tc := ⟨.hbm, 125, rfl⟩
abbrev main_v78 : Ref sig .tc := ⟨.hbm, 126, rfl⟩
abbrev main_cst_13 : Ref sig .tc := ⟨.hbm, 127, rfl⟩
abbrev main_v79 : Ref sig .tc := ⟨.hbm, 128, rfl⟩
abbrev main_v80 : Ref sig .tc := ⟨.hbm, 129, rfl⟩
abbrev main_v81 : Ref sig .tc := ⟨.hbm, 130, rfl⟩
abbrev main_v82 : Ref sig .tc := ⟨.hbm, 131, rfl⟩
abbrev main_v83 : Ref sig .tc := ⟨.hbm, 132, rfl⟩
abbrev main_v84 : Ref sig .tc := ⟨.hbm, 133, rfl⟩
abbrev main_v85 : Ref sig .tc := ⟨.hbm, 134, rfl⟩
abbrev main_v86 : Ref sig .tc := ⟨.hbm, 135, rfl⟩
abbrev main_v87 : Ref sig .tc := ⟨.hbm, 136, rfl⟩
abbrev main_call4_cst : Ref sig .tc := ⟨.hbm, 137, rfl⟩
abbrev main_call4_v0 : Ref sig .tc := ⟨.hbm, 138, rfl⟩
abbrev main_v88 : Ref sig .tc := ⟨.hbm, 139, rfl⟩
abbrev main_v89 : Ref sig .tc := ⟨.hbm, 140, rfl⟩
abbrev main_v90 : Ref sig .tc := ⟨.hbm, 141, rfl⟩
abbrev main_v91 : Ref sig .tc := ⟨.hbm, 142, rfl⟩
abbrev main_v92 : Ref sig .tc := ⟨.hbm, 143, rfl⟩
abbrev main_call5_cst : Ref sig .tc := ⟨.hbm, 144, rfl⟩
abbrev main_call5_v0 : Ref sig .tc := ⟨.hbm, 145, rfl⟩
abbrev main_v93 : Ref sig .tc := ⟨.hbm, 146, rfl⟩
abbrev main_v94 : Ref sig .tc := ⟨.hbm, 147, rfl⟩
abbrev main_v95 : Ref sig .tc := ⟨.hbm, 148, rfl⟩
abbrev main_v96 : Ref sig .tc := ⟨.hbm, 149, rfl⟩
abbrev main_v97 : Ref sig .tc := ⟨.hbm, 150, rfl⟩
abbrev main_call6_cst : Ref sig .tc := ⟨.hbm, 151, rfl⟩
abbrev main_call6_v0 : Ref sig .tc := ⟨.hbm, 152, rfl⟩
abbrev main_v98 : Ref sig .tc := ⟨.hbm, 153, rfl⟩
abbrev main_v99 : Ref sig .tc := ⟨.hbm, 154, rfl⟩
abbrev main_v100 : Ref sig .tc := ⟨.hbm, 155, rfl⟩
abbrev main_v101 : Ref sig .tc := ⟨.hbm, 156, rfl⟩
abbrev main_v102 : Ref sig .tc := ⟨.hbm, 157, rfl⟩
abbrev main_call7_cst : Ref sig .tc := ⟨.hbm, 158, rfl⟩
abbrev main_call7_v0 : Ref sig .tc := ⟨.hbm, 159, rfl⟩
abbrev main_v103 : Ref sig .tc := ⟨.hbm, 160, rfl⟩
abbrev main_v104 : Ref sig .tc := ⟨.hbm, 161, rfl⟩
abbrev main_v105 : Ref sig .tc := ⟨.hbm, 162, rfl⟩
abbrev main_v106 : Ref sig .tc := ⟨.hbm, 163, rfl⟩
abbrev main_v107 : Ref sig .tc := ⟨.hbm, 164, rfl⟩
abbrev main_v108 : Ref sig .tc := ⟨.hbm, 165, rfl⟩
abbrev main_v109 : Ref sig .tc := ⟨.hbm, 166, rfl⟩
abbrev main_cst_14 : Ref sig .tc := ⟨.hbm, 167, rfl⟩
abbrev main_v110 : Ref sig .tc := ⟨.hbm, 168, rfl⟩
abbrev main_v111 : Ref sig .tc := ⟨.hbm, 169, rfl⟩
abbrev main_cst_15 : Ref sig .tc := ⟨.hbm, 170, rfl⟩
abbrev main_v112 : Ref sig .tc := ⟨.hbm, 171, rfl⟩
abbrev main_v113 : Ref sig .tc := ⟨.hbm, 172, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x4 : S_.BroadcastsInDim S100000x4 (![] : Fin 0 → Fin S100000x4.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S_S100000x128 : S_.BroadcastsInDim S100000x128 (![] : Fin 0 → Fin S100000x128.rank)
  bcast_S_S128x128 : S_.BroadcastsInDim S128x128 (![] : Fin 0 → Fin S128x128.rank)
  bcast_S100000_S100000x1_0 : S100000.BroadcastsInDim S100000x1 (![0] : Fin 1 → Fin S100000x1.rank)
  bcast_S_S100000 : S_.BroadcastsInDim S100000 (![] : Fin 0 → Fin S100000.rank)
  bcast_S_S128 : S_.BroadcastsInDim S128 (![] : Fin 0 → Fin S128.rank)
  bcast_S128_S128x1_0 : S128.BroadcastsInDim S128x1 (![0] : Fin 1 → Fin S128x1.rank)
  bcast_S128x1_S128x128_0_1 : S128x1.BroadcastsInDim S128x128 (![0, 1] : Fin 2 → Fin S128x128.rank)
  bcast_S1x128_S128x128_0_1 : S1x128.BroadcastsInDim S128x128 (![0, 1] : Fin 2 → Fin S128x128.rank)
  bcast_S2_S1x2_1 : S2.BroadcastsInDim S1x2 (![1] : Fin 1 → Fin S1x2.rank)
  bcast_S1x2_S128x2_0_1 : S1x2.BroadcastsInDim S128x2 (![0, 1] : Fin 2 → Fin S128x2.rank)
  bcast_S_S128x2 : S_.BroadcastsInDim S128x2 (![] : Fin 0 → Fin S128x2.rank)
  gather_S100000x4_S1600000x1_S1600000x4_1_0_n_n_0_1_14_wf : GatherDims.WF S100000x4 S1600000x1 S1600000x4 [1] [0] [] [0] [] 1 ![1, 4]
  scatter_S100000x4_S1600000x1_S1600000x4_1_0_0_1_wf : ScatterDims.WF S100000x4 S1600000x1 S1600000x4 [1] [0] [0] 1
  dot_S100000x4_S4x128_S100000x128_1_0_0_1_n_n_wf : DotDims.WF S100000x4 S4x128 S100000x128 [1] [0] [0] [1] [] []
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S100000x128_S128x128_S100000x128_1_0_0_1_n_n_wf : DotDims.WF S100000x128 S128x128 S100000x128 [1] [0] [0] [1] [] []
  scatter_S128x128_S100000x1_S100000x128_1_0_0_1_wf : ScatterDims.WF S128x128 S100000x1 S100000x128 [1] [0] [0] 1
  scatter_S128_S100000x1_S100000_n_0_0_1_wf : ScatterDims.WF S128 S100000x1 S100000 [] [0] [0] 1
  dot_S128x128_S128x128_S128x128_1_0_0_1_n_n_wf : DotDims.WF S128x128 S128x128 S128x128 [1] [0] [0] [1] [] []
  dot_S128x128_S128x2_S128x2_1_0_0_1_n_n_wf : DotDims.WF S128x128 S128x2 S128x2 [1] [0] [0] [1] [] []

variable [Facts₀]

def gather_S100000x4_S1600000x1_S1600000x4_1_0_n_n_0_1_14 : GatherDims S100000x4 S1600000x1 S1600000x4 where
  offsetDims := [1]
  collapsedSliceDims := [0]
  operandBatchingDims := []
  startIndicesBatchingDims := []
  startIndexMap := [0]
  indexVectorDim := 1
  sliceSizes := ![1, 4]
  wf := gather_S100000x4_S1600000x1_S1600000x4_1_0_n_n_0_1_14_wf
def scatter_S100000x4_S1600000x1_S1600000x4_1_0_0_1 : ScatterDims S100000x4 S1600000x1 S1600000x4 where
  updateWindowDims := [1]
  insertedWindowDims := [0]
  scatterDimsToOperandDims := [0]
  indexVectorDim := 1
  wf := scatter_S100000x4_S1600000x1_S1600000x4_1_0_0_1_wf
def dot_S100000x4_S4x128_S100000x128_1_0_0_1_n_n : DotDims S100000x4 S4x128 S100000x128 where
  lhsContracting := [1]
  rhsContracting := [0]
  lhsNonContracting := [0]
  rhsNonContracting := [1]
  lhsBatch := []
  rhsBatch := []
  wf := dot_S100000x4_S4x128_S100000x128_1_0_0_1_n_n_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def scatter_S128x128_S100000x1_S100000x128_1_0_0_1 : ScatterDims S128x128 S100000x1 S100000x128 where
  updateWindowDims := [1]
  insertedWindowDims := [0]
  scatterDimsToOperandDims := [0]
  indexVectorDim := 1
  wf := scatter_S128x128_S100000x1_S100000x128_1_0_0_1_wf
def scatter_S128_S100000x1_S100000_n_0_0_1 : ScatterDims S128 S100000x1 S100000 where
  updateWindowDims := []
  insertedWindowDims := [0]
  scatterDimsToOperandDims := [0]
  indexVectorDim := 1
  wf := scatter_S128_S100000x1_S100000_n_0_0_1_wf
def dot_S128x128_S128x128_S128x128_1_0_0_1_n_n : DotDims S128x128 S128x128 S128x128 where
  lhsContracting := [1]
  rhsContracting := [0]
  lhsNonContracting := [0]
  rhsNonContracting := [1]
  lhsBatch := []
  rhsBatch := []
  wf := dot_S128x128_S128x128_S128x128_1_0_0_1_n_n_wf
def dot_S128x128_S128x2_S128x2_1_0_0_1_n_n : DotDims S128x128 S128x2 S128x2 where
  lhsContracting := [1]
  rhsContracting := [0]
  lhsNonContracting := [0]
  rhsNonContracting := [1]
  lhsBatch := []
  rhsBatch := []
  wf := dot_S128x128_S128x2_S128x2_1_0_0_1_n_n_wf

class Facts : Prop extends Facts₀ where

variable [Facts]
-- ==== Proof.Spec.lean ====
/-
  The mathematics both programs compute, as functions of the argument arrays over the extended reals.

  A graph-convolution layer sends node features x (one row per node) to
      relu( A(x) · Wr + x · Wo + br ),
  where A(x) is the edge aggregation: row i of A(x) is the sum of the rows x[src e] over the edges e with
  dst e = i.  The aggregation is the same host computation in both programs and is carried as one function
  (`agg4`, `agg128`); everything else is stated entry by entry.  After four layers the rows are summed per graph
  (`pool`: entry (g, h) is the sum of x[n, h] over the nodes n with batch n = g), divided by the clamped node count
  of the graph, and sent through four dense relu layers and a final dense layer with the logistic function.
-/
import proofs.«412093_j29446295781863_1_alg».proof.Proof.Gen.KernelIdeal
import Idealize.ShloMosaic.Lib.ValueIdx
import Idealize.ShloMosaic.PureOps.Ideal

noncomputable section

namespace Cert.Spec

open Idealize.ShloMosaic Idealize.ShloMosaic.ValueIdx Cert.KernelIdeal Cert.KernelIdeal.Facts₀

/-- An f32 array of shape `S` read at the ideal instance: a function from indices to extended reals. -/
abbrev A (S : Shape) := FVec Ideal S .f32

/-! ## Re-laid arguments -/

/-- A bias vector as a one-row matrix. -/
def row128 (b : A S128) : A S1x128 := shapeCast S1x128 b shapeCasts_S128_S1x128
/-- The last bias vector as a one-row matrix. -/
def row2 (b : A S2) : A S1x2 := shapeCast S1x2 b shapeCasts_S2_S1x2
/-- The per-graph counts as a one-column matrix. -/
def col128 (b : A S128) : A S128x1 := shapeCast S128x1 b shapeCasts_S128_S128x1
/-- The graph id of every node as a one-column matrix. -/
def colBatch (b : IVec S100000 32) : IVec S100000x1 32 := shapeCast S100000x1 b shapeCasts_S100000_S100000x1

/-! ## The edge aggregation (one host computation, shared by both programs) -/

/-- The edges' source nodes: row 0 of the edge list. -/
def src (ei : IVec S2x1600000 32) : IVec S1600000 32 :=
  shapeCast S1600000 (extractStridedSlice S1x1600000 ![0, 0] ei slices_S2x1600000_S1x1600000_0_0) shapeCasts_S1x1600000_S1600000
/-- The edges' destination nodes: row 1 of the edge list. -/
def dst (ei : IVec S2x1600000 32) : IVec S1600000 32 :=
  shapeCast S1600000 (extractStridedSlice S1x1600000 ![1, 0] ei slices_S2x1600000_S1x1600000_1_0) shapeCasts_S1x1600000_S1600000

/-- Source indices as the gather reads them: a negative index counts from the end. -/
def gatherIdx (s : IVec S1600000 32) : IVec S1600000x1 32 :=
  broadcastInDim S1600000x1 ![0] bcast_S1600000_S1600000x1_0
    (select (cmpi .slt s (broadcastInDim S1600000 ![] bcast_S_S1600000 (constantI S_ 32 0#32)))
      (addi s (broadcastInDim S1600000 ![] bcast_S_S1600000 (constantI S_ 32 100000#32))) s)
/-- Destination indices as the scatter reads them. -/
def scatterIdx (d : IVec S1600000 32) : IVec S1600000x1 32 :=
  broadcastInDim S1600000x1 ![0] bcast_S1600000_S1600000x1_0 d

/-- Row i of the result is the sum of the rows x[src e] over the edges e with dst e = i (four features). -/
def agg4 (x : A S100000x4) (s d : IVec S1600000 32) : A S100000x4 :=
  Host.scatterAdd scatter_S100000x4_S1600000x1_S1600000x4_1_0_0_1
    (broadcastInDim S100000x4 ![] bcast_S_S100000x4 (constant S_ .f32 0x00000000#32))
    (scatterIdx d)
    (Host.gather gather_S100000x4_S1600000x1_S1600000x4_1_0_n_n_0_1_14 x (gatherIdx s))
/-- The same aggregation over 128 features. -/
def agg128 (x : A S100000x128) (s d : IVec S1600000 32) : A S100000x128 :=
  Host.scatterAdd scatter_S100000x128_S1600000x1_S1600000x128_1_0_0_1
    (broadcastInDim S100000x128 ![] bcast_S_S100000x128 (constant S_ .f32 0x00000000#32))
    (scatterIdx d)
    (Host.gather gather_S100000x128_S1600000x1_S1600000x128_1_0_n_n_0_1_1128 x (gatherIdx s))

/-! ## A graph-convolution layer, entry by entry -/

/-- The rectifier's zero. -/
abbrev zero32 : EReal := Ideal.ofBits .f32 0x00000000#32
/-- The count clamp's one. -/
abbrev one32 : EReal := Ideal.ofBits .f32 0x3F800000#32

/-- One entry of a layer from the rows and columns it depends on: relu(⟨a, wr⟩ + ⟨x, wo⟩ + b). -/
def convAt {K : Nat} (a x wr wo : Fin K → EReal) (b : EReal) : EReal :=
  max ((∑ k : Fin K, a k * wr k) + (∑ k : Fin K, x k * wo k) + b) zero32

/-- Entry (p, q) of relu(a · Wr + x · Wo + br), four input features. -/
def layer4At (a x : A S100000x4) (Wr : A S4x128) (br : A S1x128) (Wo : A S4x128) (p : Fin 100000) (q : Fin 128) : EReal :=
  convAt (fun k : Fin 4 => a (ix2 p k)) (fun k => x (ix2 p k)) (fun k => Wr (ix2 k q)) (fun k => Wo (ix2 k q)) (br (ix2 (0 : Fin 1) q))
def layer4 (a x : A S100000x4) (Wr : A S4x128) (br : A S1x128) (Wo : A S4x128) : A S100000x128 :=
  fun i => layer4At a x Wr br Wo (i 0) (i 1)

/-- Entry (p, q) of relu(a · Wr + x · Wo + br), 128 input features. -/
def layer128At (a x : A S100000x128) (Wr : A S128x128) (br : A S1x128) (Wo : A S128x128) (p : Fin 100000) (q : Fin 128) : EReal :=
  convAt (fun k : Fin 128 => a (ix2 p k)) (fun k => x (ix2 p k)) (fun k => Wr (ix2 k q)) (fun k => Wo (ix2 k q)) (br (ix2 (0 : Fin 1) q))
def layer128 (a x : A S100000x128) (Wr : A S128x128) (br : A S1x128) (Wo : A S128x128) : A S100000x128 :=
  fun i => layer128At a x Wr br Wo (i 0) (i 1)

/-! ## The per-graph sums and counts -/

/-- A node's contribution to graph g: its value if the node's graph id (a 32-bit word) is g, else nothing. -/
def hot (w : BitVec 32) (g : Fin 128) (v : EReal) : EReal := if w = BitVec.ofNat 32 g.val then v else 0

/-- Entry (g, h) of the per-graph sums: x[n, h] summed over the nodes n whose graph id is g. -/
def poolAt (x : A S100000x128) (b : IVec S100000x1 32) (g h : Fin 128) : EReal :=
  ∑ n : Fin 100000, hot (b (ix2 n (0 : Fin 1))) g (x (ix2 n h))
def pool (x : A S100000x128) (b : IVec S100000x1 32) : A S128x128 :=
  fun i => poolAt x b (i 0) (i 1)

/-- The number of nodes of every graph (one host computation, shared by both programs). -/
def counts (batch : IVec S100000 32) : A S128 :=
  Host.scatterAdd scatter_S128_S100000x1_S100000_n_0_0_1
    (broadcastInDim S128 ![] bcast_S_S128 (constant S_ .f32 0x00000000#32))
    (broadcastInDim S100000x1 ![0] bcast_S100000_S100000x1_0 batch)
    (broadcastInDim S100000 ![] bcast_S_S100000 (constant S_ .f32 0x3F800000#32))

/-! ## The head: mean, four dense relu layers, a dense layer and the logistic function -/

/-- Entry (p, q) of sums / max(count, 1). -/
def meanAt (sums : A S128x128) (cnt : A S128x1) (p q : Fin 128) : EReal :=
  Ideal.div (sums (ix2 p q)) (max (cnt (ix2 p (0 : Fin 1))) one32)
/-- Entry (p, q) of relu(g · W + b) for a 128 × 128 matrix g given entry by entry. -/
def denseAt (g : Fin 128 → Fin 128 → EReal) (W : A S128x128) (b : A S1x128) (p q : Fin 128) : EReal :=
  max ((∑ k : Fin 128, g p k * W (ix2 k q)) + b (ix2 (0 : Fin 1) q)) zero32
/-- Entry (p, q) of logistic(g · Wl + bl). -/
def headAt (g : Fin 128 → Fin 128 → EReal) (Wl : A S128x2) (bl : A S1x2) (p : Fin 128) (q : Fin 2) : EReal :=
  Ideal.logistic ((∑ k : Fin 128, g p k * Wl (ix2 k q)) + bl (ix2 (0 : Fin 1) q))

def mlpAt (sums : A S128x128) (cnt : A S128x1) (W5 : A S128x128) (b5 : A S1x128) (W6 : A S128x128) (b6 : A S1x128)
    (W7 : A S128x128) (b7 : A S1x128) (W8 : A S128x128) (b8 : A S1x128) (Wl : A S128x2) (bl : A S1x2) (p : Fin 128) (q : Fin 2) : EReal :=
  headAt (denseAt (denseAt (denseAt (denseAt (meanAt sums cnt) W5 b5) W6 b6) W7 b7) W8 b8) Wl bl p q
def mlp (sums : A S128x128) (cnt : A S128x1) (W5 : A S128x128) (b5 : A S1x128) (W6 : A S128x128) (b6 : A S1x128)
    (W7 : A S128x128) (b7 : A S1x128) (W8 : A S128x128) (b8 : A S1x128) (Wl : A S128x2) (bl : A S1x2) : A S128x2 :=
  fun i => mlpAt sums cnt W5 b5 W6 b6 W7 b7 W8 b8 Wl bl (i 0) (i 1)

/-! ## The whole network -/

/-- The node features after the four graph-convolution layers. -/
def nodes (x0 : A S100000x4) (ei : IVec S2x1600000 32)
    (Wr0 : A S4x128) (br0 : A S128) (Wo0 : A S4x128) (Wr1 : A S128x128) (br1 : A S128) (Wo1 : A S128x128)
    (Wr2 : A S128x128) (br2 : A S128) (Wo2 : A S128x128) (Wr3 : A S128x128) (br3 : A S128) (Wo3 : A S128x128) : A S100000x128 :=
  let x1 := layer4 (agg4 x0 (src ei) (dst ei)) x0 Wr0 (row128 br0) Wo0
  let x2 := layer128 (agg128 x1 (src ei) (dst ei)) x1 Wr1 (row128 br1) Wo1
  let x3 := layer128 (agg128 x2 (src ei) (dst ei)) x2 Wr2 (row128 br2) Wo2
  layer128 (agg128 x3 (src ei) (dst ei)) x3 Wr3 (row128 br3) Wo3

/-- The network's result as one function of the twenty-five arguments. -/
def net (x0 : A S100000x4) (ei : IVec S2x1600000 32) (batch : IVec S100000 32)
    (Wr0 : A S4x128) (br0 : A S128) (Wo0 : A S4x128) (Wr1 : A S128x128) (br1 : A S128) (Wo1 : A S128x128)
    (Wr2 : A S128x128) (br2 : A S128) (Wo2 : A S128x128) (Wr3 : A S128x128) (br3 : A S128) (Wo3 : A S128x128)
    (W5 : A S128x128) (b5 : A S128) (W6 : A S128x128) (b6 : A S128) (W7 : A S128x128) (b7 : A S128)
    (W8 : A S128x128) (b8 : A S128) (Wl : A S128x2) (bl : A S2) : A S128x2 :=
  mlp (pool (nodes x0 ei Wr0 br0 Wo0 Wr1 br1 Wo1 Wr2 br2 Wo2 Wr3 br3 Wo3) (colBatch batch)) (col128 (counts batch))
    W5 (row128 b5) W6 (row128 b6) W7 (row128 b7) W8 (row128 b8) Wl (row2 bl)

end Cert.Spec

end
-- ==== Proof.KLayer0.lean ====
/- Region 0 (a graph-convolution layer's dense update): the array the region leaves is the layer's function of the arrays it finds. -/
import proofs.«412093_j29446295781863_1_alg».proof.Proof.Gen.KernelIdeal.Frame
import proofs.«412093_j29446295781863_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KVal.Layer0

open Idealize.ShloMosaic Idealize.ShloMosaic.TcCoe Idealize.ShloMosaic.ValueIdx Idealize.SL.Sem
open Cert.KernelIdeal Cert.KernelIdeal.Gen Cert.Spec

/-! ## One entry of a block product

The body multiplies a 5000 × 4 block of rows by a 4 × 128 matrix.  Entry (r, q) of the product reads row r of the
left factor and column q of the right one; the contraction runs over the four features. -/

/-- The left factor is read in the product's row. -/
theorem rows_lhs_0 (i : S5000x128.Idx) (q : dot_S5000x4_S4x128_S5000x128_1_0_0_1_n_n.contr.Idx) :
    (dot_S5000x4_S4x128_S5000x128_1_0_0_1_n_n.lhsIdx i q 0).val = (i 0).val := by
  unfold DotDims.lhsIdx
  rw [dif_neg (show ¬(0 : Fin S5000x4.rank) ∈ dot_S5000x4_S4x128_S5000x128_1_0_0_1_n_n.lhsBatch by decide), dif_pos (show (0 : Fin S5000x4.rank) ∈ dot_S5000x4_S4x128_S5000x128_1_0_0_1_n_n.lhsNonContracting by decide)]
  rfl
/-- The left factor is read at the contracted feature. -/
theorem rows_lhs_1 (i : S5000x128.Idx) (q : dot_S5000x4_S4x128_S5000x128_1_0_0_1_n_n.contr.Idx) :
    (dot_S5000x4_S4x128_S5000x128_1_0_0_1_n_n.lhsIdx i q 1).val = (q ⟨0, by decide⟩).val :=
  dot_S5000x4_S4x128_S5000x128_1_0_0_1_n_n.lhsIdx_val_of_single rfl i q
/-- The right factor is read at the contracted feature. -/
theorem rows_rhs_0 (i : S5000x128.Idx) (q : dot_S5000x4_S4x128_S5000x128_1_0_0_1_n_n.contr.Idx) :
    (dot_S5000x4_S4x128_S5000x128_1_0_0_1_n_n.rhsIdx i q 0).val = (q ⟨0, by decide⟩).val :=
  dot_S5000x4_S4x128_S5000x128_1_0_0_1_n_n.rhsIdx_val_of_single rfl i q
/-- The right factor is read in the product's column. -/
theorem rows_rhs_1 (i : S5000x128.Idx) (q : dot_S5000x4_S4x128_S5000x128_1_0_0_1_n_n.contr.Idx) :
    (dot_S5000x4_S4x128_S5000x128_1_0_0_1_n_n.rhsIdx i q 1).val = (i 1).val := by
  unfold DotDims.rhsIdx
  rw [dif_neg (show ¬(1 : Fin S4x128.rank) ∈ dot_S5000x4_S4x128_S5000x128_1_0_0_1_n_n.rhsBatch by decide), dif_pos (show (1 : Fin S4x128.rank) ∈ dot_S5000x4_S4x128_S5000x128_1_0_0_1_n_n.rhsNonContracting by decide)]
  rfl

/-- Entry (r, q) of the block product started from zero: the inner product of row r and column q. -/
theorem blockProduct_apply {φ₁ φ₂ : FTy} (l : FVec Ideal S5000x4 φ₁) (w : FVec Ideal S4x128 φ₂) (r : Fin 5000) (q : Fin 128) :
    matmul dot_S5000x4_S4x128_S5000x128_1_0_0_1_n_n none l w (constant S5000x128 .f32 0x00000000#32) (ix2 r q)
      = ∑ k : Fin 4, l (ix2 r k) * w (ix2 k q) := by
  simp only [matmul]
  rw [Ideal.matmul_constant_zero_apply, ← Equiv.sum_comp (contrEquiv1 dot_S5000x4_S4x128_S5000x128_1_0_0_1_n_n 4 rfl rfl).symm]
  refine Finset.sum_congr rfl fun k _ => ?_
  have hk := contrEquiv1_symm_val dot_S5000x4_S4x128_S5000x128_1_0_0_1_n_n 4 rfl rfl k
  have el : dot_S5000x4_S4x128_S5000x128_1_0_0_1_n_n.lhsIdx (ix2 r q) ((contrEquiv1 dot_S5000x4_S4x128_S5000x128_1_0_0_1_n_n 4 rfl rfl).symm k) = ix2 r k := funext fun a => Fin.ext (by
    match a with
    | ⟨0, _⟩ => exact rows_lhs_0 _ _
    | ⟨1, _⟩ => exact (rows_lhs_1 _ _).trans hk)
  have er : dot_S5000x4_S4x128_S5000x128_1_0_0_1_n_n.rhsIdx (ix2 r q) ((contrEquiv1 dot_S5000x4_S4x128_S5000x128_1_0_0_1_n_n 4 rfl rfl).symm k) = ix2 k q := funext fun a => Fin.ext (by
    match a with
    | ⟨0, _⟩ => exact (rows_rhs_0 _ _).trans hk
    | ⟨1, _⟩ => exact rows_rhs_1 _ _)
  rw [el, er]

/-! ## The body's result at an entry -/

/-- Entry (r, q) of what the body stores: the rectifier of the two inner products of row r (of the aggregated and of
    the plain features) with column q of the two weight matrices, plus the bias at q.  Rounding the factors to a
    narrower format changes nothing over the extended reals. -/
theorem payload_apply (a x : Vec Ideal S5000x4 .f32) (wr wo : Vec Ideal S4x128 .f32) (b : Vec Ideal S1x128 .f32)
    (r : Fin 5000) (q : Fin 128) :
    k0_pay1 (F := Ideal) a x wr wo b (ix2 r q)
      = convAt (fun k : Fin 4 => a (ix2 r k)) (fun k => x (ix2 r k)) (fun k => wr (ix2 k q)) (fun k => wo (ix2 k q))
          (b (ix2 (0 : Fin 1) q)) := by
  have h1 := blockProduct_apply (truncf .bf16 a Gen.bitsLt_bf16_f32) (truncf .bf16 wr Gen.bitsLt_bf16_f32) r q
  have h2 := blockProduct_apply (truncf .bf16 x Gen.bitsLt_bf16_f32) (truncf .bf16 wo Gen.bitsLt_bf16_f32) r q
  have h3 := broadcastTo_1b_ab_apply b Gen.broadcasts_S1x128_S5000x128 r q
  have ea : shapeCast S5000x4 a Gen.shapeCasts_S5000x4_S5000x4 = a := shapeCast_self a _
  have eb : shapeCast S1x128 b Gen.shapeCasts_S1x128_S1x128 = b := shapeCast_self b _
  unfold k0_pay1 convAt
  rw [ea, eb]
  refine (maximumf_apply _ _ (ix2 r q)).trans (congrArg₂ max ?_ rfl)
  refine (addf_apply _ _ (ix2 r q)).trans (congrArg₂ (· + ·) ?_ h3)
  exact (addf_apply _ _ (ix2 r q)).trans (congrArg₂ (· + ·) h1 h2)

/-! ## The blocks of a grid point

The grid has 20 points.  At point t the row windows (the aggregated features, the plain features, the output) hold
rows 5000·t … 5000·t + 4999 of their arrays; the two weight matrices and the bias row are held whole. -/

/-- The zero offsets of a whole-block access, as a constant function. -/
theorem zeros2 : (![0, 0] : Fin 2 → Nat) = fun _ => 0 := funext fun a => by fin_cases a <;> rfl

/-- The block indices of the six windows at every grid point. -/
theorem block_index : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

/-- The block of aggregated features at point t is rows 5000·t … of the array. -/
theorem aggBlock_apply (V : (c : Dev nD) → (b : Ref sig .tc) → Buf (Elt Ideal) ((c : Thread nD τ).loc b)) (c : Dev nD) (t : Fin cfg0.N)
    (y : S5000x4.Idx) (i : S100000x4.Idx) (h0 : (i 0).val = t.val * 5000 + (y 0).val) (h1 : (i 1).val = (y 1).val) :
    (iblk0 (F := Ideal) V c 0 t : Vec Ideal S5000x4 .f32) y = (V c main_v13 : A S100000x4) i := by
  obtain ⟨e0, e1, -⟩ := block_index t
  unfold iblk0
  rw [View.read_apply]
  show V c main_v13 _ = V c main_v13 _
  refine congrArg _ (funext fun a => Fin.ext ?_)
  match a with
  | ⟨0, _⟩ => show win0_0.index t (0 : Fin 2) * 5000 + 1 * (y 0).val = (i 0).val; rw [e0, h0]; omega
  | ⟨1, _⟩ => show win0_0.index t (1 : Fin 2) * 4 + 1 * (y 1).val = (i 1).val; rw [e1, h1]; omega

/-- The block of plain features at point t is rows 5000·t … of the array. -/
theorem featBlock_apply (V : (c : Dev nD) → (b : Ref sig .tc) → Buf (Elt Ideal) ((c : Thread nD τ).loc b)) (c : Dev nD) (t : Fin cfg0.N)
    (y : S5000x4.Idx) (i : S100000x4.Idx) (h0 : (i 0).val = t.val * 5000 + (y 0).val) (h1 : (i 1).val = (y 1).val) :
    (iblk0 (F := Ideal) V c 1 t : Vec Ideal S5000x4 .f32) y = (V c main_arg0 : A S100000x4) i := by
  obtain ⟨-, -, e0, e1, -⟩ := block_index t
  unfold iblk0
  rw [View.read_apply]
  show V c main_arg0 _ = V c main_arg0 _
  refine congrArg _ (funext fun a => Fin.ext ?_)
  match a with
  | ⟨0, _⟩ => show win0_1.index t (0 : Fin 2) * 5000 + 1 * (y 0).val = (i 0).val; rw [e0, h0]; omega
  | ⟨1, _⟩ => show win0_1.index t (1 : Fin 2) * 4 + 1 * (y 1).val = (i 1).val; rw [e1, h1]; omega

/-- The first weight matrix is held whole at every point. -/
theorem wrBlock_apply (V : (c : Dev nD) → (b : Ref sig .tc) → Buf (Elt Ideal) ((c : Thread nD τ).loc b)) (c : Dev nD) (t : Fin cfg0.N) (y : S4x128.Idx) :
    (iblk0 (F := Ideal) V c 2 t : Vec Ideal S4x128 .f32) y = (V c main_arg3 : A S4x128) y := by
  obtain ⟨-, -, -, -, e0, e1, -⟩ := block_index t
  unfold iblk0
  rw [View.read_apply]
  show V c main_arg3 _ = V c main_arg3 _
  refine congrArg _ (funext fun a => Fin.ext ?_)
  match a with
  | ⟨0, _⟩ => show win0_2.index t (0 : Fin 2) * 4 + 1 * (y 0).val = (y 0).val; rw [e0]; omega
  | ⟨1, _⟩ => show win0_2.index t (1 : Fin 2) * 128 + 1 * (y 1).val = (y 1).val; rw [e1]; omega

/-- The bias row is held whole at every point. -/
theorem biasBlock_apply (V : (c : Dev nD) → (b : Ref sig .tc) → Buf (Elt Ideal) ((c : Thread nD τ).loc b)) (c : Dev nD) (t : Fin cfg0.N) (y : S1x128.Idx) :
    (iblk0 (F := Ideal) V c 3 t : Vec Ideal S1x128 .f32) y = (V c main_v14 : A S1x128) y := by
  obtain ⟨-, -, -, -, -, -, e0, e1, -⟩ := block_index t
  unfold iblk0
  rw [View.read_apply]
  show V c main_v14 _ = V c main_v14 _
  refine congrArg _ (funext fun a => Fin.ext ?_)
  match a with
  | ⟨0, _⟩ => show win0_3.index t (0 : Fin 2) * 1 + 1 * (y 0).val = (y 0).val; rw [e0]; omega
  | ⟨1, _⟩ => show win0_3.index t (1 : Fin 2) * 128 + 1 * (y 1).val = (y 1).val; rw [e1]; omega

/-- The second weight matrix is held whole at every point. -/
theorem woBlock_apply (V : (c : Dev nD) → (b : Ref sig .tc) → Buf (Elt Ideal) ((c : Thread nD τ).loc b)) (c : Dev nD) (t : Fin cfg0.N) (y : S4x128.Idx) :
    (iblk0 (F := Ideal) V c 4 t : Vec Ideal S4x128 .f32) y = (V c main_arg5 : A S4x128) y := by
  obtain ⟨-, -, -, -, -, -, -, -, e0, e1, -⟩ := block_index t
  unfold iblk0
  rw [View.read_apply]
  show V c main_arg5 _ = V c main_arg5 _
  refine congrArg _ (funext fun a => Fin.ext ?_)
  match a with
  | ⟨0, _⟩ => show win0_4.index t (0 : Fin 2) * 4 + 1 * (y 0).val = (y 0).val; rw [e0]; omega
  | ⟨1, _⟩ => show win0_4.index t (1 : Fin 2) * 128 + 1 * (y 1).val = (y 1).val; rw [e1]; omega

/-! ## What a point writes back, and the whole array -/

/-- If the five blocks a point holds are the rows and columns of the arrays that entry i of the layer depends on, the
    body's result at (r, q) is the layer's entry i. -/
theorem payload_eq_layer (a x : A S100000x4) (Wr : A S4x128) (br : A S1x128) (Wo : A S4x128)
    (ab xb : Vec Ideal S5000x4 .f32) (wrb wob : Vec Ideal S4x128 .f32) (bb : Vec Ideal S1x128 .f32)
    (r : Fin 5000) (q : Fin 128) (i : S100000x128.Idx)
    (ha : ∀ k : Fin 4, ab (ix2 r k) = a (ix2 (i 0) k)) (hx : ∀ k : Fin 4, xb (ix2 r k) = x (ix2 (i 0) k))
    (hwr : ∀ k : Fin 4, wrb (ix2 k q) = Wr (ix2 k (i 1))) (hwo : ∀ k : Fin 4, wob (ix2 k q) = Wo (ix2 k (i 1)))
    (hb : bb (ix2 (0 : Fin 1) q) = br (ix2 (0 : Fin 1) (i 1))) :
    k0_pay1 (F := Ideal) ab xb wrb wob bb (ix2 r q) = layer4 a x Wr br Wo i := by
  rw [payload_apply]
  unfold layer4 layer4At
  rw [funext ha, funext hx, funext hwr, funext hwo, hb]

/-- What point t writes back is block t of the layer's function of the arrays the region found. -/
theorem flushed_eq (V : (c : Dev nD) → (b : Ref sig .tc) → Buf (Elt Ideal) ((c : Thread nD τ).loc b)) (c : Dev nD) (t : Fin cfg0.N) :
    (dat0 (F := Ideal) V c).flushed 5 t
      = ((cfg0.win 5).blk t).view.read (Elt Ideal) (layer4 (V c main_v13) (V c main_arg0) (V c main_arg3) (V c main_v14) (V c main_arg5)) := by
  show (cfg0.win 5).cut (grid0.coords t) ((dat0 V c).after 5 t) = _
  rw [after0_5]
  unfold out0_5
  rw [View.canon_unit_zero zeros2]
  simp only [View.ld_unit_zero (S := S5000x4) zeros2, View.ld_unit_zero (S := S4x128) zeros2, View.ld_unit_zero (S := S1x128) zeros2]
  obtain ⟨-, -, -, -, -, -, -, -, -, -, e0, e1⟩ := block_index t
  funext j
  rw [View.read_apply]
  have hp : ((((cfg0.win 5).blk t).view.emb j) 0).val = t.val * 5000 + (j 0).val := by
    show win0_5.index t (0 : Fin 2) * 5000 + 1 * (j 0).val = _
    rw [e0]; omega
  have hq : (j 1).val = ((((cfg0.win 5).blk t).view.emb j) 1).val := by
    show _ = win0_5.index t (1 : Fin 2) * 128 + 1 * (j 1).val
    rw [e1]; omega
  refine Eq.trans (congrArg (k0_pay1 (F := Ideal) (iblk0 V c 0 t) (iblk0 V c 1 t) (iblk0 V c 2 t) (iblk0 V c 4 t) (iblk0 V c 3 t))
    (eq_ix2 (n0 := 5000) (n1 := 128) j)) ?_
  exact payload_eq_layer (V c main_v13) (V c main_arg0) (V c main_arg3) (V c main_v14) (V c main_arg5)
    (iblk0 V c 0 t) (iblk0 V c 1 t) (iblk0 V c 2 t) (iblk0 V c 4 t) (iblk0 V c 3 t) (j 0) (j 1) (((cfg0.win 5).blk t).view.emb j)
    (fun k => aggBlock_apply V c t (ix2 (j 0) k) (ix2 ((((cfg0.win 5).blk t).view.emb j) 0) k) hp rfl)
    (fun k => featBlock_apply V c t (ix2 (j 0) k) (ix2 ((((cfg0.win 5).blk t).view.emb j) 0) k) hp rfl)
    (fun k => (wrBlock_apply V c t (ix2 k (j 1))).trans (congrArg (fun z => (V c main_arg3 : A S4x128) (ix2 k z)) (Fin.ext hq)))
    (fun k => (woBlock_apply V c t (ix2 k (j 1))).trans (congrArg (fun z => (V c main_arg5 : A S4x128) (ix2 k z)) (Fin.ext hq)))
    ((biasBlock_apply V c t (ix2 (0 : Fin 1) (j 1))).trans (congrArg (fun z => (V c main_v14 : A S1x128) (ix2 (0 : Fin 1) z)) (Fin.ext hq)))

/-- An index of the output array is in point t's block iff each coordinate is in the block's range on its axis. -/
theorem mem_block (t : Fin cfg0.N) (i : S100000x128.Idx) :
    i ∈ ((cfg0.win 5).blk t).view.set ↔ ∀ a : Fin 2, win0_5.index t a * S5000x128.size a ≤ (i a).val ∧ (i a).val < win0_5.index t a * S5000x128.size a + S5000x128.size a := by
  show i ∈ ((View.whole main_v15).slice (win0_5.rect t)).set ↔ _
  rw [View.set_slice_whole, Rect.mem_set_unit]
  exact Iff.rfl

/-- Row p of the output is written by point p / 5000: the twenty blocks of 5000 rows tile the 100000 rows. -/
theorem covered (i : S100000x128.Idx) :
    ∃ t : Fin cfg0.N, (cfg0.win 5).flush t = true ∧ i ∈ ((cfg0.win 5).blk t).view.set := by
  have hi0 : (i 0).val < 100000 := (i 0).isLt
  have hi1 : (i 1).val < 128 := (i 1).isLt
  have hN : cfg0.N = 20 := N_0
  have ht : (i 0).val / 5000 < cfg0.N := by rw [hN]; omega
  obtain ⟨-, -, -, -, -, -, -, -, -, -, e0, e1⟩ := block_index ⟨(i 0).val / 5000, ht⟩
  have e0' : win0_5.index ⟨(i 0).val / 5000, ht⟩ (0 : Fin 2) = (i 0).val / 5000 := e0
  refine ⟨⟨(i 0).val / 5000, ht⟩, flush0_5 _, ?_⟩
  rw [mem_block]
  intro a
  match a with
  | ⟨0, _⟩ =>
    show win0_5.index ⟨(i 0).val / 5000, ht⟩ (0 : Fin 2) * 5000 ≤ (i 0).val ∧ (i 0).val < win0_5.index ⟨(i 0).val / 5000, ht⟩ (0 : Fin 2) * 5000 + 5000
    rw [e0']; omega
  | ⟨1, _⟩ =>
    show win0_5.index ⟨(i 0).val / 5000, ht⟩ (1 : Fin 2) * 128 ≤ (i 1).val ∧ (i 1).val < win0_5.index ⟨(i 0).val / 5000, ht⟩ (1 : Fin 2) * 128 + 128
    rw [e1]; omega

end Cert.KVal.Layer0

namespace Cert.KVal

open Idealize.ShloMosaic Idealize.ShloMosaic.TcCoe Idealize.ShloMosaic.ValueIdx Idealize.SL.Sem
open Cert.KernelIdeal Cert.KernelIdeal.Gen Cert.Spec Cert.KVal.Layer0

/-- After region 0 its output array holds relu(a · Wr + x · Wo + br), entry by entry, of the arrays the region found. -/
theorem layer0_arr (V : (c : Dev nD) → (b : Ref sig .tc) → Buf (Elt Ideal) ((c : Thread nD τ).loc b)) (c : Dev nD) :
    (dat0 (F := Ideal) V c).arrAt 5 cfg0.N = layer4 (V c main_v13) (V c main_arg0) (V c main_arg3) (V c main_v14) (V c main_arg5) := by
  exact (dat0 (F := Ideal) V c).arrAt_eq_of_cover 5 (layer4 (V c main_v13) (V c main_arg0) (V c main_arg3) (V c main_v14) (V c main_arg5))
    (fun t _ => flushed_eq V c t) covered

end Cert.KVal

end
-- ==== Proof.KLayer1.lean ====
/- Region 1 (a graph-convolution layer's dense update): the array the region leaves is the layer's function of the arrays it finds. -/
import proofs.«412093_j29446295781863_1_alg».proof.Proof.Gen.KernelIdeal.Frame
import proofs.«412093_j29446295781863_1_alg».proof.Proof.Spec
import Idealize.ShloMosaic.Lib.Pipeline.Value
import Idealize.ShloMosaic.Lib.ValueIdx
import Idealize.ShloMosaic.PureOps.Ideal.Laws

set_option maxRecDepth 16384

noncomputable section

namespace Cert.KVal

open Idealize.ShloMosaic Idealize.ShloMosaic.TcCoe Idealize.ShloMosaic.ValueIdx Idealize.SL.Sem
open Cert.KernelIdeal Cert.KernelIdeal.Gen Cert.Spec

/-! ## One entry of the body's result

The body multiplies a 5000 × 128 block of rows by a 128 × 128 matrix twice, adds the two products and the bias row, and
takes the maximum with zero.  Entry (r, q) of a product is the sum over k of (row r, column k) times (row k, column q):
the contraction's index functions put the output's row on the left operand's axis 0, the output's column on the right
operand's axis 1, and the summation index on the two inner axes. -/

/-- The left operand's row is the output's row. -/
theorem reg1_lhs_row (i : S5000x128.Idx) (q : dot_S5000x128_S128x128_S5000x128_1_0_0_1_n_n.contr.Idx) :
    (dot_S5000x128_S128x128_S5000x128_1_0_0_1_n_n.lhsIdx i q 0).val = (i 0).val := by
  unfold DotDims.lhsIdx
  rw [dif_neg (show ¬(0 : Fin S5000x128.rank) ∈ dot_S5000x128_S128x128_S5000x128_1_0_0_1_n_n.lhsBatch by decide), dif_pos (show (0 : Fin S5000x128.rank) ∈ dot_S5000x128_S128x128_S5000x128_1_0_0_1_n_n.lhsNonContracting by decide)]
  rfl
/-- The left operand's column is the summation index. -/
theorem reg1_lhs_inner (i : S5000x128.Idx) (q : dot_S5000x128_S128x128_S5000x128_1_0_0_1_n_n.contr.Idx) :
    (dot_S5000x128_S128x128_S5000x128_1_0_0_1_n_n.lhsIdx i q 1).val = (q ⟨0, by decide⟩).val :=
  dot_S5000x128_S128x128_S5000x128_1_0_0_1_n_n.lhsIdx_val_of_single rfl i q
/-- The right operand's row is the summation index. -/
theorem reg1_rhs_inner (i : S5000x128.Idx) (q : dot_S5000x128_S128x128_S5000x128_1_0_0_1_n_n.contr.Idx) :
    (dot_S5000x128_S128x128_S5000x128_1_0_0_1_n_n.rhsIdx i q 0).val = (q ⟨0, by decide⟩).val :=
  dot_S5000x128_S128x128_S5000x128_1_0_0_1_n_n.rhsIdx_val_of_single rfl i q
/-- The right operand's column is the output's column. -/
theorem reg1_rhs_col (i : S5000x128.Idx) (q : dot_S5000x128_S128x128_S5000x128_1_0_0_1_n_n.contr.Idx) :
    (dot_S5000x128_S128x128_S5000x128_1_0_0_1_n_n.rhsIdx i q 1).val = (i 1).val := by
  unfold DotDims.rhsIdx
  rw [dif_neg (show ¬(1 : Fin S128x128.rank) ∈ dot_S5000x128_S128x128_S5000x128_1_0_0_1_n_n.rhsBatch by decide), dif_pos (show (1 : Fin S128x128.rank) ∈ dot_S5000x128_S128x128_S5000x128_1_0_0_1_n_n.rhsNonContracting by decide)]
  rfl

/-- A product into a zero accumulator, at entry (r, q): the inner product of row r of the left operand and column q of
    the right one. -/
theorem reg1_product_at (l : FVec Ideal S5000x128 .bf16) (w : FVec Ideal S128x128 .bf16) (r : Fin 5000) (q : Fin 128) :
    matmul dot_S5000x128_S128x128_S5000x128_1_0_0_1_n_n none l w (constant (F := Ideal) S5000x128 .f32 0x00000000#32) (ix2 r q)
      = ∑ k : Fin 128, l (ix2 r k) * w (ix2 k q) := by
  refine (Ideal.matmul_constant_zero_apply dot_S5000x128_S128x128_S5000x128_1_0_0_1_n_n none l w (ix2 r q)).trans ?_
  rw [← Equiv.sum_comp (contrEquiv1 dot_S5000x128_S128x128_S5000x128_1_0_0_1_n_n 128 rfl rfl).symm]
  refine Finset.sum_congr rfl fun k _ => ?_
  have hk := contrEquiv1_symm_val dot_S5000x128_S128x128_S5000x128_1_0_0_1_n_n 128 rfl rfl k
  have el : dot_S5000x128_S128x128_S5000x128_1_0_0_1_n_n.lhsIdx (ix2 r q) ((contrEquiv1 dot_S5000x128_S128x128_S5000x128_1_0_0_1_n_n 128 rfl rfl).symm k) = ix2 r k := funext fun a => Fin.ext (by
    match a with
    | ⟨0, _⟩ => exact reg1_lhs_row _ _
    | ⟨1, _⟩ => exact (reg1_lhs_inner _ _).trans hk)
  have er : dot_S5000x128_S128x128_S5000x128_1_0_0_1_n_n.rhsIdx (ix2 r q) ((contrEquiv1 dot_S5000x128_S128x128_S5000x128_1_0_0_1_n_n 128 rfl rfl).symm k) = ix2 k q := funext fun a => Fin.ext (by
    match a with
    | ⟨0, _⟩ => exact (reg1_rhs_inner _ _).trans hk
    | ⟨1, _⟩ => exact reg1_rhs_col _ _)
  rw [el, er]

/-- The bias row, spread over the 5000 rows, at entry (r, q) is the row's entry q. -/
theorem reg1_bias_at (b : Vec Ideal S1x128 .f32) (r : Fin 5000) (q : Fin 128) :
    broadcastTo S5000x128 (shapeCast S1x128 b shapeCasts_S1x128_S1x128) broadcasts_S1x128_S5000x128 (ix2 r q) = b (ix2 (0 : Fin 1) q) := by
  rw [shapeCast_self]
  exact broadcastTo_apply b broadcasts_S1x128_S5000x128 (ix2 r q) (ix2 (0 : Fin 1) q) (fun a => by
    match a with
    | ⟨0, _⟩ => rfl
    | ⟨1, _⟩ => rfl)

/-- Entry (r, q) of the body's result is relu(⟨row r of a, column q of Wr⟩ + ⟨row r of x, column q of Wo⟩ + b q): the
    changes of number format are the identity over the extended reals. -/
theorem reg1_body_at (a x : Vec Ideal S5000x128 .f32) (wr wo : Vec Ideal S128x128 .f32) (b : Vec Ideal S1x128 .f32)
    (r : Fin 5000) (q : Fin 128) :
    k1_pay1 (F := Ideal) a x wr wo b (ix2 r q)
      = convAt (fun k : Fin 128 => a (ix2 r k)) (fun k => x (ix2 r k)) (fun k => wr (ix2 k q)) (fun k => wo (ix2 k q))
          (b (ix2 (0 : Fin 1) q)) := by
  unfold k1_pay1
  refine (maximumf_apply _ _ _).trans ?_
  rw [addf_apply, addf_apply, reg1_product_at, reg1_product_at, reg1_bias_at, broadcast_apply]
  rw [shapeCast_self, shapeCast_self]
  rfl

/-! ## From the blocks to the array

The grid has 20 points.  At point t the windows of the aggregated rows, of the rows themselves and of the output hold
rows 5000·t … 5000·t + 4999 of their arrays; the two matrices and the bias row are whole at every point.  So the block
the point writes back is the layer's function restricted to those rows, and the 20 blocks cover the 100000 rows. -/

theorem reg1_hz : (![0, 0] : Fin 2 → Nat) = fun _ => 0 := funext fun a => by fin_cases a <;> rfl

/-- The block index of every window at every point, decided over the grid: the row-blocked windows are at block (t, 0),
    the whole ones at block (0, 0). -/
theorem reg1_index_facts : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0 :=
  (by decide +kernel : ∀ t : Fin grid1.N, _)

/-- Row r of the aggregated rows' block at point t is row 5000·t + r of their array. -/
theorem reg1_block_a (V : (c : Dev nD) → (b : Ref sig .tc) → Buf (Elt Ideal) ((c : Thread nD τ).loc b)) (c : Dev nD) (t : Fin cfg1.N) (r : Fin 5000) (k : Fin 128)
    (p : Fin 100000) (hp : p.val = t.val * 5000 + r.val) :
    iblk1 V c 0 t (ix2 r k) = V c main_v25 (ix2 p k) := by
  obtain ⟨f0, f1, -⟩ := reg1_index_facts t
  show V c main_v25 (((cfg1.win 0).blk t).view.emb (ix2 r k)) = V c main_v25 (ix2 p k)
  refine congrArg (V c main_v25) (funext fun a => Fin.ext ?_)
  match a with
  | ⟨0, _⟩ => show win1_0.index t (0 : Fin 2) * 5000 + 1 * r.val = p.val; omega
  | ⟨1, _⟩ => show win1_0.index t (1 : Fin 2) * 128 + 1 * k.val = k.val; omega

/-- Row r of the rows' own block at point t is row 5000·t + r of their array. -/
theorem reg1_block_x (V : (c : Dev nD) → (b : Ref sig .tc) → Buf (Elt Ideal) ((c : Thread nD τ).loc b)) (c : Dev nD) (t : Fin cfg1.N) (r : Fin 5000) (k : Fin 128)
    (p : Fin 100000) (hp : p.val = t.val * 5000 + r.val) :
    iblk1 V c 1 t (ix2 r k) = V c main_v15 (ix2 p k) := by
  obtain ⟨-, -, f0, f1, -⟩ := reg1_index_facts t
  show V c main_v15 (((cfg1.win 1).blk t).view.emb (ix2 r k)) = V c main_v15 (ix2 p k)
  refine congrArg (V c main_v15) (funext fun a => Fin.ext ?_)
  match a with
  | ⟨0, _⟩ => show win1_1.index t (0 : Fin 2) * 5000 + 1 * r.val = p.val; omega
  | ⟨1, _⟩ => show win1_1.index t (1 : Fin 2) * 128 + 1 * k.val = k.val; omega

/-- The first matrix's block is the whole matrix at every point. -/
theorem reg1_block_wr (V : (c : Dev nD) → (b : Ref sig .tc) → Buf (Elt Ideal) ((c : Thread nD τ).loc b)) (c : Dev nD) (t : Fin cfg1.N) (k q : Fin 128) :
    iblk1 V c 2 t (ix2 k q) = V c main_arg6 (ix2 k q) := by
  obtain ⟨-, -, -, -, f0, f1, -⟩ := reg1_index_facts t
  show V c main_arg6 (((cfg1.win 2).blk t).view.emb (ix2 k q)) = V c main_arg6 (ix2 k q)
  refine congrArg (V c main_arg6) (funext fun a => Fin.ext ?_)
  match a with
  | ⟨0, _⟩ => show win1_2.index t (0 : Fin 2) * 128 + 1 * k.val = k.val; omega
  | ⟨1, _⟩ => show win1_2.index t (1 : Fin 2) * 128 + 1 * q.val = q.val; omega

/-- The bias row's block is the whole row at every point. -/
theorem reg1_block_b (V : (c : Dev nD) → (b : Ref sig .tc) → Buf (Elt Ideal) ((c : Thread nD τ).loc b)) (c : Dev nD) (t : Fin cfg1.N) (q : Fin 128) :
    iblk1 V c 3 t (ix2 (0 : Fin 1) q) = V c main_v26 (ix2 (0 : Fin 1) q) := by
  obtain ⟨-, -, -, -, -, -, f0, f1, -⟩ := reg1_index_facts t
  show V c main_v26 (((cfg1.win 3).blk t).view.emb (ix2 (0 : Fin 1) q)) = V c main_v26 (ix2 (0 : Fin 1) q)
  refine congrArg (V c main_v26) (funext fun a => Fin.ext ?_)
  match a with
  | ⟨0, _⟩ => show win1_3.index t (0 : Fin 2) * 1 + 1 * (0 : Fin 1).val = (0 : Fin 1).val; omega
  | ⟨1, _⟩ => show win1_3.index t (1 : Fin 2) * 128 + 1 * q.val = q.val; omega

/-- The second matrix's block is the whole matrix at every point. -/
theorem reg1_block_wo (V : (c : Dev nD) → (b : Ref sig .tc) → Buf (Elt Ideal) ((c : Thread nD τ).loc b)) (c : Dev nD) (t : Fin cfg1.N) (k q : Fin 128) :
    iblk1 V c 4 t (ix2 k q) = V c main_arg8 (ix2 k q) := by
  obtain ⟨-, -, -, -, -, -, -, -, f0, f1, -⟩ := reg1_index_facts t
  show V c main_arg8 (((cfg1.win 4).blk t).view.emb (ix2 k q)) = V c main_arg8 (ix2 k q)
  refine congrArg (V c main_arg8) (funext fun a => Fin.ext ?_)
  match a with
  | ⟨0, _⟩ => show win1_4.index t (0 : Fin 2) * 128 + 1 * k.val = k.val; omega
  | ⟨1, _⟩ => show win1_4.index t (1 : Fin 2) * 128 + 1 * q.val = q.val; omega

/-- What point t writes back is the layer's function of the arrays the region found, restricted to the point's rows. -/
theorem reg1_block_out (V : (c : Dev nD) → (b : Ref sig .tc) → Buf (Elt Ideal) ((c : Thread nD τ).loc b)) (c : Dev nD) (t : Fin cfg1.N) :
    (dat1 (F := Ideal) V c).flushed 5 t
      = ((cfg1.win 5).blk t).view.read (Elt Ideal)
          (layer128 (V c main_v25) (V c main_v15) (V c main_arg6) (V c main_v26) (V c main_arg8)) := by
  show (cfg1.win 5).cut (grid1.coords t) ((dat1 V c).after 5 t) = _
  rw [after1_5]
  unfold out1_5
  rw [View.canon_unit_zero reg1_hz]
  simp only [View.ld_unit_zero (S := S5000x128) reg1_hz, View.ld_unit_zero (S := S128x128) reg1_hz,
    View.ld_unit_zero (S := S1x128) reg1_hz]
  obtain ⟨-, -, -, -, -, -, -, -, -, -, f0, f1⟩ := reg1_index_facts t
  have ht : t.val < 20 := lt_of_lt_of_eq t.isLt N_1
  funext j
  have hr : (j 0).val < 5000 := (j 0).isLt
  have hq : (j 1).val < 128 := (j 1).isLt
  have hp : t.val * 5000 + (j 0).val < 100000 := by omega
  -- the entry's place in the block, and in the array
  have hx : (cfg1.win 5).xinj (grid1.coords t) j = ix2 (⟨(j 0).val, hr⟩ : Fin 5000) (⟨(j 1).val, hq⟩ : Fin 128) :=
    funext fun a => by match a with | ⟨0, _⟩ => rfl | ⟨1, _⟩ => rfl
  have he : ((cfg1.win 5).blk t).view.emb j
      = ix2 (⟨t.val * 5000 + (j 0).val, hp⟩ : Fin 100000) (⟨(j 1).val, hq⟩ : Fin 128) := by
    funext a; apply Fin.ext
    match a with
    | ⟨0, _⟩ => show win1_5.index t (0 : Fin 2) * 5000 + 1 * (j 0).val = t.val * 5000 + (j 0).val; omega
    | ⟨1, _⟩ => show win1_5.index t (1 : Fin 2) * 128 + 1 * (j 1).val = (j 1).val; omega
  show k1_pay1 (F := Ideal) (iblk1 V c 0 t) (iblk1 V c 1 t) (iblk1 V c 2 t) (iblk1 V c 4 t) (iblk1 V c 3 t)
        ((cfg1.win 5).xinj (grid1.coords t) j)
      = layer128 (V c main_v25) (V c main_v15) (V c main_arg6) (V c main_v26) (V c main_arg8)
          (((cfg1.win 5).blk t).view.emb j)
  rw [hx, he]
  refine (reg1_body_at (iblk1 V c 0 t) (iblk1 V c 1 t) (iblk1 V c 2 t) (iblk1 V c 4 t) (iblk1 V c 3 t)
    ⟨(j 0).val, hr⟩ ⟨(j 1).val, hq⟩).trans ?_
  have ea : (fun k : Fin 128 => iblk1 V c 0 t (ix2 (⟨(j 0).val, hr⟩ : Fin 5000) k))
      = fun k => V c main_v25 (ix2 (⟨t.val * 5000 + (j 0).val, hp⟩ : Fin 100000) k) :=
    funext fun k => reg1_block_a V c t ⟨(j 0).val, hr⟩ k ⟨t.val * 5000 + (j 0).val, hp⟩ rfl
  have ex : (fun k : Fin 128 => iblk1 V c 1 t (ix2 (⟨(j 0).val, hr⟩ : Fin 5000) k))
      = fun k => V c main_v15 (ix2 (⟨t.val * 5000 + (j 0).val, hp⟩ : Fin 100000) k) :=
    funext fun k => reg1_block_x V c t ⟨(j 0).val, hr⟩ k ⟨t.val * 5000 + (j 0).val, hp⟩ rfl
  have ewr : (fun k : Fin 128 => iblk1 V c 2 t (ix2 k (⟨(j 1).val, hq⟩ : Fin 128)))
      = fun k => V c main_arg6 (ix2 k (⟨(j 1).val, hq⟩ : Fin 128)) :=
    funext fun k => reg1_block_wr V c t k ⟨(j 1).val, hq⟩
  have ewo : (fun k : Fin 128 => iblk1 V c 4 t (ix2 k (⟨(j 1).val, hq⟩ : Fin 128)))
      = fun k => V c main_arg8 (ix2 k (⟨(j 1).val, hq⟩ : Fin 128)) :=
    funext fun k => reg1_block_wo V c t k ⟨(j 1).val, hq⟩
  rw [ea, ex, ewr, ewo, reg1_block_b V c t ⟨(j 1).val, hq⟩]
  rfl

/-- An index of the output array is in point t's block iff each coordinate is in the block's range on its axis. -/
theorem reg1_mem_block (t : Fin cfg1.N) (i : S100000x128.Idx) :
    i ∈ ((cfg1.win 5).blk t).view.set ↔ ∀ a : Fin 2, win1_5.index t a * S5000x128.size a ≤ (i a).val
      ∧ (i a).val < win1_5.index t a * S5000x128.size a + S5000x128.size a := by
  show i ∈ ((View.whole main_v27).slice (win1_5.rect t)).set ↔ _
  rw [View.set_slice_whole, Rect.mem_set_unit]
  exact Iff.rfl

/-- Row p of the output array is written back by point p / 5000. -/
theorem reg1_rows_covered (i : S100000x128.Idx) :
    ∃ t : Fin cfg1.N, (cfg1.win 5).flush t = true ∧ i ∈ ((cfg1.win 5).blk t).view.set := by
  have hi0 : (i 0).val < 100000 := (i 0).isLt
  have hi1 : (i 1).val < 128 := (i 1).isLt
  have hN : (i 0).val / 5000 < cfg1.N := lt_of_lt_of_eq (by omega : (i 0).val / 5000 < 20) N_1.symm
  obtain ⟨-, -, -, -, -, -, -, -, -, -, f0, f1⟩ := reg1_index_facts ⟨(i 0).val / 5000, hN⟩
  refine ⟨⟨(i 0).val / 5000, hN⟩, flush1_5 _, ?_⟩
  rw [reg1_mem_block]
  intro a
  match a with
  | ⟨0, _⟩ =>
    show win1_5.index ⟨(i 0).val / 5000, hN⟩ (0 : Fin 2) * 5000 ≤ (i 0).val
      ∧ (i 0).val < win1_5.index ⟨(i 0).val / 5000, hN⟩ (0 : Fin 2) * 5000 + 5000
    rw [f0]; show (i 0).val / 5000 * 5000 ≤ (i 0).val ∧ (i 0).val < (i 0).val / 5000 * 5000 + 5000; omega
  | ⟨1, _⟩ =>
    show win1_5.index ⟨(i 0).val / 5000, hN⟩ (1 : Fin 2) * 128 ≤ (i 1).val
      ∧ (i 1).val < win1_5.index ⟨(i 0).val / 5000, hN⟩ (1 : Fin 2) * 128 + 128
    rw [f1]; omega

/-- After region 1 its output array holds relu(a · Wr + x · Wo + br), entry by entry, of the arrays the region found. -/
theorem layer1_arr (V : (c : Dev nD) → (b : Ref sig .tc) → Buf (Elt Ideal) ((c : Thread nD τ).loc b)) (c : Dev nD) :
    (dat1 (F := Ideal) V c).arrAt 5 cfg1.N = layer128 (V c main_v25) (V c main_v15) (V c main_arg6) (V c main_v26) (V c main_arg8) :=
  (dat1 (F := Ideal) V c).arrAt_eq_of_cover 5
    (layer128 (V c main_v25) (V c main_v15) (V c main_arg6) (V c main_v26) (V c main_arg8))
    (fun t _ => reg1_block_out V c t) reg1_rows_covered

end Cert.KVal

end
-- ==== Proof.KLayer2.lean ====
/- Region 2 (a graph-convolution layer's dense update): the array the region leaves is the layer's function of the arrays it finds. -/
import proofs.«412093_j29446295781863_1_alg».proof.Proof.Gen.KernelIdeal.Frame
import proofs.«412093_j29446295781863_1_alg».proof.Proof.Spec
import Idealize.ShloMosaic.Lib.Pipeline.Value
import Idealize.ShloMosaic.Lib.ValueIdx
import Idealize.ShloMosaic.PureOps.Ideal.Laws

set_option maxRecDepth 16384

noncomputable section

namespace Cert.KVal

open Idealize.ShloMosaic Idealize.ShloMosaic.TcCoe Idealize.ShloMosaic.ValueIdx Idealize.SL.Sem
open Cert.KernelIdeal Cert.KernelIdeal.Gen Cert.Spec

/-! ## One entry of the body's result

The body multiplies a 5000 × 128 block of rows by a 128 × 128 matrix twice, adds the two products and the bias row, and
takes the maximum with zero.  Entry (r, q) of a product is the sum over k of (row r, column k) times (row k, column q):
the contraction's index functions put the output's row on the left operand's axis 0, the output's column on the right
operand's axis 1, and the summation index on the two inner axes. -/

/-- The left operand's row is the output's row. -/
theorem reg2_lhs_row (i : S5000x128.Idx) (q : dot_S5000x128_S128x128_S5000x128_1_0_0_1_n_n.contr.Idx) :
    (dot_S5000x128_S128x128_S5000x128_1_0_0_1_n_n.lhsIdx i q 0).val = (i 0).val := by
  unfold DotDims.lhsIdx
  rw [dif_neg (show ¬(0 : Fin S5000x128.rank) ∈ dot_S5000x128_S128x128_S5000x128_1_0_0_1_n_n.lhsBatch by decide), dif_pos (show (0 : Fin S5000x128.rank) ∈ dot_S5000x128_S128x128_S5000x128_1_0_0_1_n_n.lhsNonContracting by decide)]
  rfl
/-- The left operand's column is the summation index. -/
theorem reg2_lhs_inner (i : S5000x128.Idx) (q : dot_S5000x128_S128x128_S5000x128_1_0_0_1_n_n.contr.Idx) :
    (dot_S5000x128_S128x128_S5000x128_1_0_0_1_n_n.lhsIdx i q 1).val = (q ⟨0, by decide⟩).val :=
  dot_S5000x128_S128x128_S5000x128_1_0_0_1_n_n.lhsIdx_val_of_single rfl i q
/-- The right operand's row is the summation index. -/
theorem reg2_rhs_inner (i : S5000x128.Idx) (q : dot_S5000x128_S128x128_S5000x128_1_0_0_1_n_n.contr.Idx) :
    (dot_S5000x128_S128x128_S5000x128_1_0_0_1_n_n.rhsIdx i q 0).val = (q ⟨0, by decide⟩).val :=
  dot_S5000x128_S128x128_S5000x128_1_0_0_1_n_n.rhsIdx_val_of_single rfl i q
/-- The right operand's column is the output's column. -/
theorem reg2_rhs_col (i : S5000x128.Idx) (q : dot_S5000x128_S128x128_S5000x128_1_0_0_1_n_n.contr.Idx) :
    (dot_S5000x128_S128x128_S5000x128_1_0_0_1_n_n.rhsIdx i q 1).val = (i 1).val := by
  unfold DotDims.rhsIdx
  rw [dif_neg (show ¬(1 : Fin S128x128.rank) ∈ dot_S5000x128_S128x128_S5000x128_1_0_0_1_n_n.rhsBatch by decide), dif_pos (show (1 : Fin S128x128.rank) ∈ dot_S5000x128_S128x128_S5000x128_1_0_0_1_n_n.rhsNonContracting by decide)]
  rfl

/-- A product into a zero accumulator, at entry (r, q): the inner product of row r of the left operand and column q of
    the right one. -/
theorem reg2_product_at (l : FVec Ideal S5000x128 .bf16) (w : FVec Ideal S128x128 .bf16) (r : Fin 5000) (q : Fin 128) :
    matmul dot_S5000x128_S128x128_S5000x128_1_0_0_1_n_n none l w (constant (F := Ideal) S5000x128 .f32 0x00000000#32) (ix2 r q)
      = ∑ k : Fin 128, l (ix2 r k) * w (ix2 k q) := by
  refine (Ideal.matmul_constant_zero_apply dot_S5000x128_S128x128_S5000x128_1_0_0_1_n_n none l w (ix2 r q)).trans ?_
  rw [← Equiv.sum_comp (contrEquiv1 dot_S5000x128_S128x128_S5000x128_1_0_0_1_n_n 128 rfl rfl).symm]
  refine Finset.sum_congr rfl fun k _ => ?_
  have hk := contrEquiv1_symm_val dot_S5000x128_S128x128_S5000x128_1_0_0_1_n_n 128 rfl rfl k
  have el : dot_S5000x128_S128x128_S5000x128_1_0_0_1_n_n.lhsIdx (ix2 r q) ((contrEquiv1 dot_S5000x128_S128x128_S5000x128_1_0_0_1_n_n 128 rfl rfl).symm k) = ix2 r k := funext fun a => Fin.ext (by
    match a with
    | ⟨0, _⟩ => exact reg2_lhs_row _ _
    | ⟨1, _⟩ => exact (reg2_lhs_inner _ _).trans hk)
  have er : dot_S5000x128_S128x128_S5000x128_1_0_0_1_n_n.rhsIdx (ix2 r q) ((contrEquiv1 dot_S5000x128_S128x128_S5000x128_1_0_0_1_n_n 128 rfl rfl).symm k) = ix2 k q := funext fun a => Fin.ext (by
    match a with
    | ⟨0, _⟩ => exact (reg2_rhs_inner _ _).trans hk
    | ⟨1, _⟩ => exact reg2_rhs_col _ _)
  rw [el, er]

/-- The bias row, spread over the 5000 rows, at entry (r, q) is the row's entry q. -/
theorem reg2_bias_at (b : Vec Ideal S1x128 .f32) (r : Fin 5000) (q : Fin 128) :
    broadcastTo S5000x128 (shapeCast S1x128 b shapeCasts_S1x128_S1x128) broadcasts_S1x128_S5000x128 (ix2 r q) = b (ix2 (0 : Fin 1) q) := by
  rw [shapeCast_self]
  exact broadcastTo_apply b broadcasts_S1x128_S5000x128 (ix2 r q) (ix2 (0 : Fin 1) q) (fun a => by
    match a with
    | ⟨0, _⟩ => rfl
    | ⟨1, _⟩ => rfl)

/-- Entry (r, q) of the body's result is relu(⟨row r of a, column q of Wr⟩ + ⟨row r of x, column q of Wo⟩ + b q): the
    changes of number format are the identity over the extended reals. -/
theorem reg2_body_at (a x : Vec Ideal S5000x128 .f32) (wr wo : Vec Ideal S128x128 .f32) (b : Vec Ideal S1x128 .f32)
    (r : Fin 5000) (q : Fin 128) :
    k2_pay1 (F := Ideal) a x wr wo b (ix2 r q)
      = convAt (fun k : Fin 128 => a (ix2 r k)) (fun k => x (ix2 r k)) (fun k => wr (ix2 k q)) (fun k => wo (ix2 k q))
          (b (ix2 (0 : Fin 1) q)) := by
  unfold k2_pay1
  refine (maximumf_apply _ _ _).trans ?_
  rw [addf_apply, addf_apply, reg2_product_at, reg2_product_at, reg2_bias_at, broadcast_apply]
  rw [shapeCast_self, shapeCast_self]
  rfl

/-! ## From the blocks to the array

The grid has 20 points.  At point t the windows of the aggregated rows, of the rows themselves and of the output hold
rows 5000·t … 5000·t + 4999 of their arrays; the two matrices and the bias row are whole at every point.  So the block
the point writes back is the layer's function restricted to those rows, and the 20 blocks cover the 100000 rows. -/

theorem reg2_hz : (![0, 0] : Fin 2 → Nat) = fun _ => 0 := funext fun a => by fin_cases a <;> rfl

/-- The block index of every window at every point, decided over the grid: the row-blocked windows are at block (t, 0),
    the whole ones at block (0, 0). -/
theorem reg2_index_facts : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = t.val ∧ win2_5.index t (1 : Fin 2) = 0 :=
  (by decide +kernel : ∀ t : Fin grid2.N, _)

/-- Row r of the aggregated rows' block at point t is row 5000·t + r of their array. -/
theorem reg2_block_a (V : (c : Dev nD) → (b : Ref sig .tc) → Buf (Elt Ideal) ((c : Thread nD τ).loc b)) (c : Dev nD) (t : Fin cfg2.N) (r : Fin 5000) (k : Fin 128)
    (p : Fin 100000) (hp : p.val = t.val * 5000 + r.val) :
    iblk2 V c 0 t (ix2 r k) = V c main_v37 (ix2 p k) := by
  obtain ⟨f0, f1, -⟩ := reg2_index_facts t
  show V c main_v37 (((cfg2.win 0).blk t).view.emb (ix2 r k)) = V c main_v37 (ix2 p k)
  refine congrArg (V c main_v37) (funext fun a => Fin.ext ?_)
  match a with
  | ⟨0, _⟩ => show win2_0.index t (0 : Fin 2) * 5000 + 1 * r.val = p.val; omega
  | ⟨1, _⟩ => show win2_0.index t (1 : Fin 2) * 128 + 1 * k.val = k.val; omega

/-- Row r of the rows' own block at point t is row 5000·t + r of their array. -/
theorem reg2_block_x (V : (c : Dev nD) → (b : Ref sig .tc) → Buf (Elt Ideal) ((c : Thread nD τ).loc b)) (c : Dev nD) (t : Fin cfg2.N) (r : Fin 5000) (k : Fin 128)
    (p : Fin 100000) (hp : p.val = t.val * 5000 + r.val) :
    iblk2 V c 1 t (ix2 r k) = V c main_v27 (ix2 p k) := by
  obtain ⟨-, -, f0, f1, -⟩ := reg2_index_facts t
  show V c main_v27 (((cfg2.win 1).blk t).view.emb (ix2 r k)) = V c main_v27 (ix2 p k)
  refine congrArg (V c main_v27) (funext fun a => Fin.ext ?_)
  match a with
  | ⟨0, _⟩ => show win2_1.index t (0 : Fin 2) * 5000 + 1 * r.val = p.val; omega
  | ⟨1, _⟩ => show win2_1.index t (1 : Fin 2) * 128 + 1 * k.val = k.val; omega

/-- The first matrix's block is the whole matrix at every point. -/
theorem reg2_block_wr (V : (c : Dev nD) → (b : Ref sig .tc) → Buf (Elt Ideal) ((c : Thread nD τ).loc b)) (c : Dev nD) (t : Fin cfg2.N) (k q : Fin 128) :
    iblk2 V c 2 t (ix2 k q) = V c main_arg9 (ix2 k q) := by
  obtain ⟨-, -, -, -, f0, f1, -⟩ := reg2_index_facts t
  show V c main_arg9 (((cfg2.win 2).blk t).view.emb (ix2 k q)) = V c main_arg9 (ix2 k q)
  refine congrArg (V c main_arg9) (funext fun a => Fin.ext ?_)
  match a with
  | ⟨0, _⟩ => show win2_2.index t (0 : Fin 2) * 128 + 1 * k.val = k.val; omega
  | ⟨1, _⟩ => show win2_2.index t (1 : Fin 2) * 128 + 1 * q.val = q.val; omega

/-- The bias row's block is the whole row at every point. -/
theorem reg2_block_b (V : (c : Dev nD) → (b : Ref sig .tc) → Buf (Elt Ideal) ((c : Thread nD τ).loc b)) (c : Dev nD) (t : Fin cfg2.N) (q : Fin 128) :
    iblk2 V c 3 t (ix2 (0 : Fin 1) q) = V c main_v38 (ix2 (0 : Fin 1) q) := by
  obtain ⟨-, -, -, -, -, -, f0, f1, -⟩ := reg2_index_facts t
  show V c main_v38 (((cfg2.win 3).blk t).view.emb (ix2 (0 : Fin 1) q)) = V c main_v38 (ix2 (0 : Fin 1) q)
  refine congrArg (V c main_v38) (funext fun a => Fin.ext ?_)
  match a with
  | ⟨0, _⟩ => show win2_3.index t (0 : Fin 2) * 1 + 1 * (0 : Fin 1).val = (0 : Fin 1).val; omega
  | ⟨1, _⟩ => show win2_3.index t (1 : Fin 2) * 128 + 1 * q.val = q.val; omega

/-- The second matrix's block is the whole matrix at every point. -/
theorem reg2_block_wo (V : (c : Dev nD) → (b : Ref sig .tc) → Buf (Elt Ideal) ((c : Thread nD τ).loc b)) (c : Dev nD) (t : Fin cfg2.N) (k q : Fin 128) :
    iblk2 V c 4 t (ix2 k q) = V c main_arg11 (ix2 k q) := by
  obtain ⟨-, -, -, -, -, -, -, -, f0, f1, -⟩ := reg2_index_facts t
  show V c main_arg11 (((cfg2.win 4).blk t).view.emb (ix2 k q)) = V c main_arg11 (ix2 k q)
  refine congrArg (V c main_arg11) (funext fun a => Fin.ext ?_)
  match a with
  | ⟨0, _⟩ => show win2_4.index t (0 : Fin 2) * 128 + 1 * k.val = k.val; omega
  | ⟨1, _⟩ => show win2_4.index t (1 : Fin 2) * 128 + 1 * q.val = q.val; omega

/-- What point t writes back is the layer's function of the arrays the region found, restricted to the point's rows. -/
theorem reg2_block_out (V : (c : Dev nD) → (b : Ref sig .tc) → Buf (Elt Ideal) ((c : Thread nD τ).loc b)) (c : Dev nD) (t : Fin cfg2.N) :
    (dat2 (F := Ideal) V c).flushed 5 t
      = ((cfg2.win 5).blk t).view.read (Elt Ideal)
          (layer128 (V c main_v37) (V c main_v27) (V c main_arg9) (V c main_v38) (V c main_arg11)) := by
  show (cfg2.win 5).cut (grid2.coords t) ((dat2 V c).after 5 t) = _
  rw [after2_5]
  unfold out2_5
  rw [View.canon_unit_zero reg2_hz]
  simp only [View.ld_unit_zero (S := S5000x128) reg2_hz, View.ld_unit_zero (S := S128x128) reg2_hz,
    View.ld_unit_zero (S := S1x128) reg2_hz]
  obtain ⟨-, -, -, -, -, -, -, -, -, -, f0, f1⟩ := reg2_index_facts t
  have ht : t.val < 20 := lt_of_lt_of_eq t.isLt N_2
  funext j
  have hr : (j 0).val < 5000 := (j 0).isLt
  have hq : (j 1).val < 128 := (j 1).isLt
  have hp : t.val * 5000 + (j 0).val < 100000 := by omega
  -- the entry's place in the block, and in the array
  have hx : (cfg2.win 5).xinj (grid2.coords t) j = ix2 (⟨(j 0).val, hr⟩ : Fin 5000) (⟨(j 1).val, hq⟩ : Fin 128) :=
    funext fun a => by match a with | ⟨0, _⟩ => rfl | ⟨1, _⟩ => rfl
  have he : ((cfg2.win 5).blk t).view.emb j
      = ix2 (⟨t.val * 5000 + (j 0).val, hp⟩ : Fin 100000) (⟨(j 1).val, hq⟩ : Fin 128) := by
    funext a; apply Fin.ext
    match a with
    | ⟨0, _⟩ => show win2_5.index t (0 : Fin 2) * 5000 + 1 * (j 0).val = t.val * 5000 + (j 0).val; omega
    | ⟨1, _⟩ => show win2_5.index t (1 : Fin 2) * 128 + 1 * (j 1).val = (j 1).val; omega
  show k2_pay1 (F := Ideal) (iblk2 V c 0 t) (iblk2 V c 1 t) (iblk2 V c 2 t) (iblk2 V c 4 t) (iblk2 V c 3 t)
        ((cfg2.win 5).xinj (grid2.coords t) j)
      = layer128 (V c main_v37) (V c main_v27) (V c main_arg9) (V c main_v38) (V c main_arg11)
          (((cfg2.win 5).blk t).view.emb j)
  rw [hx, he]
  refine (reg2_body_at (iblk2 V c 0 t) (iblk2 V c 1 t) (iblk2 V c 2 t) (iblk2 V c 4 t) (iblk2 V c 3 t)
    ⟨(j 0).val, hr⟩ ⟨(j 1).val, hq⟩).trans ?_
  have ea : (fun k : Fin 128 => iblk2 V c 0 t (ix2 (⟨(j 0).val, hr⟩ : Fin 5000) k))
      = fun k => V c main_v37 (ix2 (⟨t.val * 5000 + (j 0).val, hp⟩ : Fin 100000) k) :=
    funext fun k => reg2_block_a V c t ⟨(j 0).val, hr⟩ k ⟨t.val * 5000 + (j 0).val, hp⟩ rfl
  have ex : (fun k : Fin 128 => iblk2 V c 1 t (ix2 (⟨(j 0).val, hr⟩ : Fin 5000) k))
      = fun k => V c main_v27 (ix2 (⟨t.val * 5000 + (j 0).val, hp⟩ : Fin 100000) k) :=
    funext fun k => reg2_block_x V c t ⟨(j 0).val, hr⟩ k ⟨t.val * 5000 + (j 0).val, hp⟩ rfl
  have ewr : (fun k : Fin 128 => iblk2 V c 2 t (ix2 k (⟨(j 1).val, hq⟩ : Fin 128)))
      = fun k => V c main_arg9 (ix2 k (⟨(j 1).val, hq⟩ : Fin 128)) :=
    funext fun k => reg2_block_wr V c t k ⟨(j 1).val, hq⟩
  have ewo : (fun k : Fin 128 => iblk2 V c 4 t (ix2 k (⟨(j 1).val, hq⟩ : Fin 128)))
      = fun k => V c main_arg11 (ix2 k (⟨(j 1).val, hq⟩ : Fin 128)) :=
    funext fun k => reg2_block_wo V c t k ⟨(j 1).val, hq⟩
  rw [ea, ex, ewr, ewo, reg2_block_b V c t ⟨(j 1).val, hq⟩]
  rfl

/-- An index of the output array is in point t's block iff each coordinate is in the block's range on its axis. -/
theorem reg2_mem_block (t : Fin cfg2.N) (i : S100000x128.Idx) :
    i ∈ ((cfg2.win 5).blk t).view.set ↔ ∀ a : Fin 2, win2_5.index t a * S5000x128.size a ≤ (i a).val
      ∧ (i a).val < win2_5.index t a * S5000x128.size a + S5000x128.size a := by
  show i ∈ ((View.whole main_v39).slice (win2_5.rect t)).set ↔ _
  rw [View.set_slice_whole, Rect.mem_set_unit]
  exact Iff.rfl

/-- Row p of the output array is written back by point p / 5000. -/
theorem reg2_rows_covered (i : S100000x128.Idx) :
    ∃ t : Fin cfg2.N, (cfg2.win 5).flush t = true ∧ i ∈ ((cfg2.win 5).blk t).view.set := by
  have hi0 : (i 0).val < 100000 := (i 0).isLt
  have hi1 : (i 1).val < 128 := (i 1).isLt
  have hN : (i 0).val / 5000 < cfg2.N := lt_of_lt_of_eq (by omega : (i 0).val / 5000 < 20) N_2.symm
  obtain ⟨-, -, -, -, -, -, -, -, -, -, f0, f1⟩ := reg2_index_facts ⟨(i 0).val / 5000, hN⟩
  refine ⟨⟨(i 0).val / 5000, hN⟩, flush2_5 _, ?_⟩
  rw [reg2_mem_block]
  intro a
  match a with
  | ⟨0, _⟩ =>
    show win2_5.index ⟨(i 0).val / 5000, hN⟩ (0 : Fin 2) * 5000 ≤ (i 0).val
      ∧ (i 0).val < win2_5.index ⟨(i 0).val / 5000, hN⟩ (0 : Fin 2) * 5000 + 5000
    rw [f0]; show (i 0).val / 5000 * 5000 ≤ (i 0).val ∧ (i 0).val < (i 0).val / 5000 * 5000 + 5000; omega
  | ⟨1, _⟩ =>
    show win2_5.index ⟨(i 0).val / 5000, hN⟩ (1 : Fin 2) * 128 ≤ (i 1).val
      ∧ (i 1).val < win2_5.index ⟨(i 0).val / 5000, hN⟩ (1 : Fin 2) * 128 + 128
    rw [f1]; omega

/-- After region 2 its output array holds relu(a · Wr + x · Wo + br), entry by entry, of the arrays the region found. -/
theorem layer2_arr (V : (c : Dev nD) → (b : Ref sig .tc) → Buf (Elt Ideal) ((c : Thread nD τ).loc b)) (c : Dev nD) :
    (dat2 (F := Ideal) V c).arrAt 5 cfg2.N = layer128 (V c main_v37) (V c main_v27) (V c main_arg9) (V c main_v38) (V c main_arg11) :=
  (dat2 (F := Ideal) V c).arrAt_eq_of_cover 5
    (layer128 (V c main_v37) (V c main_v27) (V c main_arg9) (V c main_v38) (V c main_arg11))
    (fun t _ => reg2_block_out V c t) reg2_rows_covered

end Cert.KVal

end
-- ==== Proof.KLayer3.lean ====
/- Region 3 (a graph-convolution layer's dense update): the array the region leaves is the layer's function of the arrays it finds. -/
import proofs.«412093_j29446295781863_1_alg».proof.Proof.Gen.KernelIdeal.Frame
import proofs.«412093_j29446295781863_1_alg».proof.Proof.Spec
import Idealize.ShloMosaic.Lib.Pipeline.Value
import Idealize.ShloMosaic.Lib.ValueIdx
import Idealize.ShloMosaic.PureOps.Ideal.Laws

set_option maxRecDepth 16384

noncomputable section

namespace Cert.KVal

open Idealize.ShloMosaic Idealize.ShloMosaic.TcCoe Idealize.ShloMosaic.ValueIdx Idealize.SL.Sem
open Cert.KernelIdeal Cert.KernelIdeal.Gen Cert.Spec

/-! ## One entry of the body's result

The body multiplies a 5000 × 128 block of rows by a 128 × 128 matrix twice, adds the two products and the bias row, and
takes the maximum with zero.  Entry (r, q) of a product is the sum over k of (row r, column k) times (row k, column q):
the contraction's index functions put the output's row on the left operand's axis 0, the output's column on the right
operand's axis 1, and the summation index on the two inner axes. -/

/-- The left operand's row is the output's row. -/
theorem reg3_lhs_row (i : S5000x128.Idx) (q : dot_S5000x128_S128x128_S5000x128_1_0_0_1_n_n.contr.Idx) :
    (dot_S5000x128_S128x128_S5000x128_1_0_0_1_n_n.lhsIdx i q 0).val = (i 0).val := by
  unfold DotDims.lhsIdx
  rw [dif_neg (show ¬(0 : Fin S5000x128.rank) ∈ dot_S5000x128_S128x128_S5000x128_1_0_0_1_n_n.lhsBatch by decide), dif_pos (show (0 : Fin S5000x128.rank) ∈ dot_S5000x128_S128x128_S5000x128_1_0_0_1_n_n.lhsNonContracting by decide)]
  rfl
/-- The left operand's column is the summation index. -/
theorem reg3_lhs_inner (i : S5000x128.Idx) (q : dot_S5000x128_S128x128_S5000x128_1_0_0_1_n_n.contr.Idx) :
    (dot_S5000x128_S128x128_S5000x128_1_0_0_1_n_n.lhsIdx i q 1).val = (q ⟨0, by decide⟩).val :=
  dot_S5000x128_S128x128_S5000x128_1_0_0_1_n_n.lhsIdx_val_of_single rfl i q
/-- The right operand's row is the summation index. -/
theorem reg3_rhs_inner (i : S5000x128.Idx) (q : dot_S5000x128_S128x128_S5000x128_1_0_0_1_n_n.contr.Idx) :
    (dot_S5000x128_S128x128_S5000x128_1_0_0_1_n_n.rhsIdx i q 0).val = (q ⟨0, by decide⟩).val :=
  dot_S5000x128_S128x128_S5000x128_1_0_0_1_n_n.rhsIdx_val_of_single rfl i q
/-- The right operand's column is the output's column. -/
theorem reg3_rhs_col (i : S5000x128.Idx) (q : dot_S5000x128_S128x128_S5000x128_1_0_0_1_n_n.contr.Idx) :
    (dot_S5000x128_S128x128_S5000x128_1_0_0_1_n_n.rhsIdx i q 1).val = (i 1).val := by
  unfold DotDims.rhsIdx
  rw [dif_neg (show ¬(1 : Fin S128x128.rank) ∈ dot_S5000x128_S128x128_S5000x128_1_0_0_1_n_n.rhsBatch by decide), dif_pos (show (1 : Fin S128x128.rank) ∈ dot_S5000x128_S128x128_S5000x128_1_0_0_1_n_n.rhsNonContracting by decide)]
  rfl

/-- A product into a zero accumulator, at entry (r, q): the inner product of row r of the left operand and column q of
    the right one. -/
theorem reg3_product_at (l : FVec Ideal S5000x128 .bf16) (w : FVec Ideal S128x128 .bf16) (r : Fin 5000) (q : Fin 128) :
    matmul dot_S5000x128_S128x128_S5000x128_1_0_0_1_n_n none l w (constant (F := Ideal) S5000x128 .f32 0x00000000#32) (ix2 r q)
      = ∑ k : Fin 128, l (ix2 r k) * w (ix2 k q) := by
  refine (Ideal.matmul_constant_zero_apply dot_S5000x128_S128x128_S5000x128_1_0_0_1_n_n none l w (ix2 r q)).trans ?_
  rw [← Equiv.sum_comp (contrEquiv1 dot_S5000x128_S128x128_S5000x128_1_0_0_1_n_n 128 rfl rfl).symm]
  refine Finset.sum_congr rfl fun k _ => ?_
  have hk := contrEquiv1_symm_val dot_S5000x128_S128x128_S5000x128_1_0_0_1_n_n 128 rfl rfl k
  have el : dot_S5000x128_S128x128_S5000x128_1_0_0_1_n_n.lhsIdx (ix2 r q) ((contrEquiv1 dot_S5000x128_S128x128_S5000x128_1_0_0_1_n_n 128 rfl rfl).symm k) = ix2 r k := funext fun a => Fin.ext (by
    match a with
    | ⟨0, _⟩ => exact reg3_lhs_row _ _
    | ⟨1, _⟩ => exact (reg3_lhs_inner _ _).trans hk)
  have er : dot_S5000x128_S128x128_S5000x128_1_0_0_1_n_n.rhsIdx (ix2 r q) ((contrEquiv1 dot_S5000x128_S128x128_S5000x128_1_0_0_1_n_n 128 rfl rfl).symm k) = ix2 k q := funext fun a => Fin.ext (by
    match a with
    | ⟨0, _⟩ => exact (reg3_rhs_inner _ _).trans hk
    | ⟨1, _⟩ => exact reg3_rhs_col _ _)
  rw [el, er]

/-- The bias row, spread over the 5000 rows, at entry (r, q) is the row's entry q. -/
theorem reg3_bias_at (b : Vec Ideal S1x128 .f32) (r : Fin 5000) (q : Fin 128) :
    broadcastTo S5000x128 (shapeCast S1x128 b shapeCasts_S1x128_S1x128) broadcasts_S1x128_S5000x128 (ix2 r q) = b (ix2 (0 : Fin 1) q) := by
  rw [shapeCast_self]
  exact broadcastTo_apply b broadcasts_S1x128_S5000x128 (ix2 r q) (ix2 (0 : Fin 1) q) (fun a => by
    match a with
    | ⟨0, _⟩ => rfl
    | ⟨1, _⟩ => rfl)

/-- Entry (r, q) of the body's result is relu(⟨row r of a, column q of Wr⟩ + ⟨row r of x, column q of Wo⟩ + b q): the
    changes of number format are the identity over the extended reals. -/
theorem reg3_body_at (a x : Vec Ideal S5000x128 .f32) (wr wo : Vec Ideal S128x128 .f32) (b : Vec Ideal S1x128 .f32)
    (r : Fin 5000) (q : Fin 128) :
    k3_pay1 (F := Ideal) a x wr wo b (ix2 r q)
      = convAt (fun k : Fin 128 => a (ix2 r k)) (fun k => x (ix2 r k)) (fun k => wr (ix2 k q)) (fun k => wo (ix2 k q))
          (b (ix2 (0 : Fin 1) q)) := by
  unfold k3_pay1
  refine (maximumf_apply _ _ _).trans ?_
  rw [addf_apply, addf_apply, reg3_product_at, reg3_product_at, reg3_bias_at, broadcast_apply]
  rw [shapeCast_self, shapeCast_self]
  rfl

/-! ## From the blocks to the array

The grid has 20 points.  At point t the windows of the aggregated rows, of the rows themselves and of the output hold
rows 5000·t … 5000·t + 4999 of their arrays; the two matrices and the bias row are whole at every point.  So the block
the point writes back is the layer's function restricted to those rows, and the 20 blocks cover the 100000 rows. -/

theorem reg3_hz : (![0, 0] : Fin 2 → Nat) = fun _ => 0 := funext fun a => by fin_cases a <;> rfl

/-- The block index of every window at every point, decided over the grid: the row-blocked windows are at block (t, 0),
    the whole ones at block (0, 0). -/
theorem reg3_index_facts : ∀ t : Fin cfg3.N,
    win3_0.index t (0 : Fin 2) = t.val ∧ win3_0.index t (1 : Fin 2) = 0
    ∧ win3_1.index t (0 : Fin 2) = t.val ∧ win3_1.index t (1 : Fin 2) = 0
    ∧ win3_2.index t (0 : Fin 2) = 0 ∧ win3_2.index t (1 : Fin 2) = 0
    ∧ win3_3.index t (0 : Fin 2) = 0 ∧ win3_3.index t (1 : Fin 2) = 0
    ∧ win3_4.index t (0 : Fin 2) = 0 ∧ win3_4.index t (1 : Fin 2) = 0
    ∧ win3_5.index t (0 : Fin 2) = t.val ∧ win3_5.index t (1 : Fin 2) = 0 :=
  (by decide +kernel : ∀ t : Fin grid3.N, _)

/-- Row r of the aggregated rows' block at point t is row 5000·t + r of their array. -/
theorem reg3_block_a (V : (c : Dev nD) → (b : Ref sig .tc) → Buf (Elt Ideal) ((c : Thread nD τ).loc b)) (c : Dev nD) (t : Fin cfg3.N) (r : Fin 5000) (k : Fin 128)
    (p : Fin 100000) (hp : p.val = t.val * 5000 + r.val) :
    iblk3 V c 0 t (ix2 r k) = V c main_v49 (ix2 p k) := by
  obtain ⟨f0, f1, -⟩ := reg3_index_facts t
  show V c main_v49 (((cfg3.win 0).blk t).view.emb (ix2 r k)) = V c main_v49 (ix2 p k)
  refine congrArg (V c main_v49) (funext fun a => Fin.ext ?_)
  match a with
  | ⟨0, _⟩ => show win3_0.index t (0 : Fin 2) * 5000 + 1 * r.val = p.val; omega
  | ⟨1, _⟩ => show win3_0.index t (1 : Fin 2) * 128 + 1 * k.val = k.val; omega

/-- Row r of the rows' own block at point t is row 5000·t + r of their array. -/
theorem reg3_block_x (V : (c : Dev nD) → (b : Ref sig .tc) → Buf (Elt Ideal) ((c : Thread nD τ).loc b)) (c : Dev nD) (t : Fin cfg3.N) (r : Fin 5000) (k : Fin 128)
    (p : Fin 100000) (hp : p.val = t.val * 5000 + r.val) :
    iblk3 V c 1 t (ix2 r k) = V c main_v39 (ix2 p k) := by
  obtain ⟨-, -, f0, f1, -⟩ := reg3_index_facts t
  show V c main_v39 (((cfg3.win 1).blk t).view.emb (ix2 r k)) = V c main_v39 (ix2 p k)
  refine congrArg (V c main_v39) (funext fun a => Fin.ext ?_)
  match a with
  | ⟨0, _⟩ => show win3_1.index t (0 : Fin 2) * 5000 + 1 * r.val = p.val; omega
  | ⟨1, _⟩ => show win3_1.index t (1 : Fin 2) * 128 + 1 * k.val = k.val; omega

/-- The first matrix's block is the whole matrix at every point. -/
theorem reg3_block_wr (V : (c : Dev nD) → (b : Ref sig .tc) → Buf (Elt Ideal) ((c : Thread nD τ).loc b)) (c : Dev nD) (t : Fin cfg3.N) (k q : Fin 128) :
    iblk3 V c 2 t (ix2 k q) = V c main_arg12 (ix2 k q) := by
  obtain ⟨-, -, -, -, f0, f1, -⟩ := reg3_index_facts t
  show V c main_arg12 (((cfg3.win 2).blk t).view.emb (ix2 k q)) = V c main_arg12 (ix2 k q)
  refine congrArg (V c main_arg12) (funext fun a => Fin.ext ?_)
  match a with
  | ⟨0, _⟩ => show win3_2.index t (0 : Fin 2) * 128 + 1 * k.val = k.val; omega
  | ⟨1, _⟩ => show win3_2.index t (1 : Fin 2) * 128 + 1 * q.val = q.val; omega

/-- The bias row's block is the whole row at every point. -/
theorem reg3_block_b (V : (c : Dev nD) → (b : Ref sig .tc) → Buf (Elt Ideal) ((c : Thread nD τ).loc b)) (c : Dev nD) (t : Fin cfg3.N) (q : Fin 128) :
    iblk3 V c 3 t (ix2 (0 : Fin 1) q) = V c main_v50 (ix2 (0 : Fin 1) q) := by
  obtain ⟨-, -, -, -, -, -, f0, f1, -⟩ := reg3_index_facts t
  show V c main_v50 (((cfg3.win 3).blk t).view.emb (ix2 (0 : Fin 1) q)) = V c main_v50 (ix2 (0 : Fin 1) q)
  refine congrArg (V c main_v50) (funext fun a => Fin.ext ?_)
  match a with
  | ⟨0, _⟩ => show win3_3.index t (0 : Fin 2) * 1 + 1 * (0 : Fin 1).val = (0 : Fin 1).val; omega
  | ⟨1, _⟩ => show win3_3.index t (1 : Fin 2) * 128 + 1 * q.val = q.val; omega

/-- The second matrix's block is the whole matrix at every point. -/
theorem reg3_block_wo (V : (c : Dev nD) → (b : Ref sig .tc) → Buf (Elt Ideal) ((c : Thread nD τ).loc b)) (c : Dev nD) (t : Fin cfg3.N) (k q : Fin 128) :
    iblk3 V c 4 t (ix2 k q) = V c main_arg14 (ix2 k q) := by
  obtain ⟨-, -, -, -, -, -, -, -, f0, f1, -⟩ := reg3_index_facts t
  show V c main_arg14 (((cfg3.win 4).blk t).view.emb (ix2 k q)) = V c main_arg14 (ix2 k q)
  refine congrArg (V c main_arg14) (funext fun a => Fin.ext ?_)
  match a with
  | ⟨0, _⟩ => show win3_4.index t (0 : Fin 2) * 128 + 1 * k.val = k.val; omega
  | ⟨1, _⟩ => show win3_4.index t (1 : Fin 2) * 128 + 1 * q.val = q.val; omega

/-- What point t writes back is the layer's function of the arrays the region found, restricted to the point's rows. -/
theorem reg3_block_out (V : (c : Dev nD) → (b : Ref sig .tc) → Buf (Elt Ideal) ((c : Thread nD τ).loc b)) (c : Dev nD) (t : Fin cfg3.N) :
    (dat3 (F := Ideal) V c).flushed 5 t
      = ((cfg3.win 5).blk t).view.read (Elt Ideal)
          (layer128 (V c main_v49) (V c main_v39) (V c main_arg12) (V c main_v50) (V c main_arg14)) := by
  show (cfg3.win 5).cut (grid3.coords t) ((dat3 V c).after 5 t) = _
  rw [after3_5]
  unfold out3_5
  rw [View.canon_unit_zero reg3_hz]
  simp only [View.ld_unit_zero (S := S5000x128) reg3_hz, View.ld_unit_zero (S := S128x128) reg3_hz,
    View.ld_unit_zero (S := S1x128) reg3_hz]
  obtain ⟨-, -, -, -, -, -, -, -, -, -, f0, f1⟩ := reg3_index_facts t
  have ht : t.val < 20 := lt_of_lt_of_eq t.isLt N_3
  funext j
  have hr : (j 0).val < 5000 := (j 0).isLt
  have hq : (j 1).val < 128 := (j 1).isLt
  have hp : t.val * 5000 + (j 0).val < 100000 := by omega
  -- the entry's place in the block, and in the array
  have hx : (cfg3.win 5).xinj (grid3.coords t) j = ix2 (⟨(j 0).val, hr⟩ : Fin 5000) (⟨(j 1).val, hq⟩ : Fin 128) :=
    funext fun a => by match a with | ⟨0, _⟩ => rfl | ⟨1, _⟩ => rfl
  have he : ((cfg3.win 5).blk t).view.emb j
      = ix2 (⟨t.val * 5000 + (j 0).val, hp⟩ : Fin 100000) (⟨(j 1).val, hq⟩ : Fin 128) := by
    funext a; apply Fin.ext
    match a with
    | ⟨0, _⟩ => show win3_5.index t (0 : Fin 2) * 5000 + 1 * (j 0).val = t.val * 5000 + (j 0).val; omega
    | ⟨1, _⟩ => show win3_5.index t (1 : Fin 2) * 128 + 1 * (j 1).val = (j 1).val; omega
  show k3_pay1 (F := Ideal) (iblk3 V c 0 t) (iblk3 V c 1 t) (iblk3 V c 2 t) (iblk3 V c 4 t) (iblk3 V c 3 t)
        ((cfg3.win 5).xinj (grid3.coords t) j)
      = layer128 (V c main_v49) (V c main_v39) (V c main_arg12) (V c main_v50) (V c main_arg14)
          (((cfg3.win 5).blk t).view.emb j)
  rw [hx, he]
  refine (reg3_body_at (iblk3 V c 0 t) (iblk3 V c 1 t) (iblk3 V c 2 t) (iblk3 V c 4 t) (iblk3 V c 3 t)
    ⟨(j 0).val, hr⟩ ⟨(j 1).val, hq⟩).trans ?_
  have ea : (fun k : Fin 128 => iblk3 V c 0 t (ix2 (⟨(j 0).val, hr⟩ : Fin 5000) k))
      = fun k => V c main_v49 (ix2 (⟨t.val * 5000 + (j 0).val, hp⟩ : Fin 100000) k) :=
    funext fun k => reg3_block_a V c t ⟨(j 0).val, hr⟩ k ⟨t.val * 5000 + (j 0).val, hp⟩ rfl
  have ex : (fun k : Fin 128 => iblk3 V c 1 t (ix2 (⟨(j 0).val, hr⟩ : Fin 5000) k))
      = fun k => V c main_v39 (ix2 (⟨t.val * 5000 + (j 0).val, hp⟩ : Fin 100000) k) :=
    funext fun k => reg3_block_x V c t ⟨(j 0).val, hr⟩ k ⟨t.val * 5000 + (j 0).val, hp⟩ rfl
  have ewr : (fun k : Fin 128 => iblk3 V c 2 t (ix2 k (⟨(j 1).val, hq⟩ : Fin 128)))
      = fun k => V c main_arg12 (ix2 k (⟨(j 1).val, hq⟩ : Fin 128)) :=
    funext fun k => reg3_block_wr V c t k ⟨(j 1).val, hq⟩
  have ewo : (fun k : Fin 128 => iblk3 V c 4 t (ix2 k (⟨(j 1).val, hq⟩ : Fin 128)))
      = fun k => V c main_arg14 (ix2 k (⟨(j 1).val, hq⟩ : Fin 128)) :=
    funext fun k => reg3_block_wo V c t k ⟨(j 1).val, hq⟩
  rw [ea, ex, ewr, ewo, reg3_block_b V c t ⟨(j 1).val, hq⟩]
  rfl

/-- An index of the output array is in point t's block iff each coordinate is in the block's range on its axis. -/
theorem reg3_mem_block (t : Fin cfg3.N) (i : S100000x128.Idx) :
    i ∈ ((cfg3.win 5).blk t).view.set ↔ ∀ a : Fin 2, win3_5.index t a * S5000x128.size a ≤ (i a).val
      ∧ (i a).val < win3_5.index t a * S5000x128.size a + S5000x128.size a := by
  show i ∈ ((View.whole main_v51).slice (win3_5.rect t)).set ↔ _
  rw [View.set_slice_whole, Rect.mem_set_unit]
  exact Iff.rfl

/-- Row p of the output array is written back by point p / 5000. -/
theorem reg3_rows_covered (i : S100000x128.Idx) :
    ∃ t : Fin cfg3.N, (cfg3.win 5).flush t = true ∧ i ∈ ((cfg3.win 5).blk t).view.set := by
  have hi0 : (i 0).val < 100000 := (i 0).isLt
  have hi1 : (i 1).val < 128 := (i 1).isLt
  have hN : (i 0).val / 5000 < cfg3.N := lt_of_lt_of_eq (by omega : (i 0).val / 5000 < 20) N_3.symm
  obtain ⟨-, -, -, -, -, -, -, -, -, -, f0, f1⟩ := reg3_index_facts ⟨(i 0).val / 5000, hN⟩
  refine ⟨⟨(i 0).val / 5000, hN⟩, flush3_5 _, ?_⟩
  rw [reg3_mem_block]
  intro a
  match a with
  | ⟨0, _⟩ =>
    show win3_5.index ⟨(i 0).val / 5000, hN⟩ (0 : Fin 2) * 5000 ≤ (i 0).val
      ∧ (i 0).val < win3_5.index ⟨(i 0).val / 5000, hN⟩ (0 : Fin 2) * 5000 + 5000
    rw [f0]; show (i 0).val / 5000 * 5000 ≤ (i 0).val ∧ (i 0).val < (i 0).val / 5000 * 5000 + 5000; omega
  | ⟨1, _⟩ =>
    show win3_5.index ⟨(i 0).val / 5000, hN⟩ (1 : Fin 2) * 128 ≤ (i 1).val
      ∧ (i 1).val < win3_5.index ⟨(i 0).val / 5000, hN⟩ (1 : Fin 2) * 128 + 128
    rw [f1]; omega

/-- After region 3 its output array holds relu(a · Wr + x · Wo + br), entry by entry, of the arrays the region found. -/
theorem layer3_arr (V : (c : Dev nD) → (b : Ref sig .tc) → Buf (Elt Ideal) ((c : Thread nD τ).loc b)) (c : Dev nD) :
    (dat3 (F := Ideal) V c).arrAt 5 cfg3.N = layer128 (V c main_v49) (V c main_v39) (V c main_arg12) (V c main_v50) (V c main_arg14) :=
  (dat3 (F := Ideal) V c).arrAt_eq_of_cover 5
    (layer128 (V c main_v49) (V c main_v39) (V c main_arg12) (V c main_v50) (V c main_arg14))
    (fun t _ => reg3_block_out V c t) reg3_rows_covered

end Cert.KVal

end
-- ==== Proof.KPool.lean ====
/- Region 4 (the per-graph sums): the array the region leaves is the pooled sum of the node features it finds. -/
import proofs.«412093_j29446295781863_1_alg».proof.Proof.Gen.KernelIdeal.Frame
import proofs.«412093_j29446295781863_1_alg».proof.Proof.Spec
import Idealize.ShloMosaic.Lib.Pipeline.Value
import Idealize.ShloMosaic.Lib.ValueIdx
import Idealize.ShloMosaic.PureOps.Ideal.Laws

set_option maxRecDepth 16384

noncomputable section

namespace Cert.KVal

open Idealize.ShloMosaic Idealize.ShloMosaic.TcCoe Idealize.ShloMosaic.ValueIdx Idealize.SL.Sem
open Cert.KernelIdeal Cert.KernelIdeal.Gen Cert.Spec

/-!
  The region walks the 100000 nodes in twenty tiles of 5000 rows. At each tile it forms the 0/1 matrix
  "row r has graph id g" (5000 × 128), multiplies its transpose with the tile of features (5000 × 128), and adds
  the 128 × 128 product to an accumulator that is zeroed at the first tile and written back after the last. So the
  accumulator after tile n holds, at (g, h), the sum of x[k, h] over the nodes k < 5000·(n + 1) whose id is g, and
  after the last tile the sum over all nodes. Sums are over the extended reals, where addition is a commutative
  monoid and 1 · v = v, 0 · v = 0 for every v: no finiteness is needed.
-/

namespace Pool

/-! ## One tile's step, entry by entry -/

/-- The weight of a node for graph g — 1 if its id word is g, else 0 — times a value: the value or nothing.
    No finiteness is asked: 1 · v = v and 0 · v = 0 for every extended real v. -/
theorem weight_mul (w : BitVec 32) (g : Fin 128) (v : EReal) :
    (FloatOps.sitofp (F := Ideal) .f32 ((IntOp.cmpi .eq w (BitVec.ofNat 32 g.val)).setWidth 32) : EReal) * v = hot w g v := by
  unfold hot
  by_cases h : w = BitVec.ofNat 32 g.val
  · rw [if_pos h]
    have e : (IntOp.cmpi .eq w (BitVec.ofNat 32 g.val)).setWidth 32 = 1#32 := by
      rw [h]; simp [IntOp.cmpi]
    rw [e]
    show (((1#32 : BitVec 32).toInt : ℝ) : EReal) * v = v
    have : (1#32 : BitVec 32).toInt = 1 := by decide
    rw [this]; simp
  · rw [if_neg h]
    have e : (IntOp.cmpi .eq w (BitVec.ofNat 32 g.val)).setWidth 32 = 0#32 := by
      have hb : (w == BitVec.ofNat 32 g.val) = false := beq_false_of_ne h
      simp [IntOp.cmpi, hb]
    rw [e]
    show (((0#32 : BitVec 32).toInt : ℝ) : EReal) * v = 0
    have : (0#32 : BitVec 32).toInt = 0 := by decide
    rw [this]; simp

/-- The pooling product's dimension numbers: both operands contract their rows. -/
abbrev poolDot := dot_S5000x128_S5000x128_S128x128_0_0_1_1_n_n

theorem lhs_pool_0 (i : S128x128.Idx) (q : poolDot.contr.Idx) :
    (poolDot.lhsIdx i q 0).val = (q ⟨0, by decide⟩).val :=
  poolDot.lhsIdx_val_of_single rfl i q
theorem lhs_pool_1 (i : S128x128.Idx) (q : poolDot.contr.Idx) :
    (poolDot.lhsIdx i q 1).val = (i 0).val := by
  unfold DotDims.lhsIdx
  rw [dif_neg (show ¬(1 : Fin S5000x128.rank) ∈ poolDot.lhsBatch by decide), dif_pos (show (1 : Fin S5000x128.rank) ∈ poolDot.lhsNonContracting by decide)]
  rfl
theorem rhs_pool_0 (i : S128x128.Idx) (q : poolDot.contr.Idx) :
    (poolDot.rhsIdx i q 0).val = (q ⟨0, by decide⟩).val :=
  poolDot.rhsIdx_val_of_single rfl i q
theorem rhs_pool_1 (i : S128x128.Idx) (q : poolDot.contr.Idx) :
    (poolDot.rhsIdx i q 1).val = (i 1).val := by
  unfold DotDims.rhsIdx
  rw [dif_neg (show ¬(1 : Fin S5000x128.rank) ∈ poolDot.rhsBatch by decide), dif_pos (show (1 : Fin S5000x128.rank) ∈ poolDot.rhsNonContracting by decide)]
  rfl

/-- One tile's step: the accumulator plus, at (g, h), the tile's rows x[r, h] whose id is g — the product of the
    transposed 0/1 matrix (row r, column g: is row r's id g?) with the tile, summed over the tile's rows. -/
theorem tile_apply (x : Vec Ideal S5000x128 .f32) (ids : Vec Ideal S5000x1 .i32) (acc : Vec Ideal S128x128 .f32) (g h : Fin 128) :
    k4_pay2 (F := Ideal) x ids acc (ix2 g h)
      = acc (ix2 g h) + ∑ r : Fin 5000, hot (ids (ix2 r (0 : Fin 1))) g (x (ix2 r h)) := by
  unfold k4_pay2
  refine (addf_apply _ _ (ix2 g h)).trans ?_
  refine congrArg₂ (· + ·) (congrFun (shapeCast_self acc shapeCasts_S128x128_S128x128) (ix2 g h)) ?_
  refine (Ideal.matmul_constant_zero_apply poolDot none _ _ (ix2 g h)).trans ?_
  rw [← Equiv.sum_comp (ValueIdx.contrEquiv1 poolDot 5000 rfl rfl).symm]
  refine Finset.sum_congr rfl fun r _ => ?_
  have hk := ValueIdx.contrEquiv1_symm_val poolDot 5000 rfl rfl r
  have el : poolDot.lhsIdx (ix2 g h) ((ValueIdx.contrEquiv1 poolDot 5000 rfl rfl).symm r) = ix2 r g := funext fun a => Fin.ext (by
    match a with
    | ⟨0, _⟩ => exact (lhs_pool_0 _ _).trans hk
    | ⟨1, _⟩ => exact lhs_pool_1 _ _)
  have er : poolDot.rhsIdx (ix2 g h) ((ValueIdx.contrEquiv1 poolDot 5000 rfl rfl).symm r) = ix2 r h := funext fun a => Fin.ext (by
    match a with
    | ⟨0, _⟩ => exact (rhs_pool_0 _ _).trans hk
    | ⟨1, _⟩ => exact rhs_pool_1 _ _)
  rw [el, er, shapeCast_self, shapeCast_self]
  have e1 : broadcastTo S5000x128 ids broadcasts_S5000x1_S5000x128 (ix2 r g) = ids (ix2 r (0 : Fin 1)) :=
    broadcastTo_apply ids broadcasts_S5000x1_S5000x128 (ix2 r g) (ix2 r (0 : Fin 1)) (fun a => match a with
      | ⟨0, _⟩ => by show r.val = if (5000 : Nat) = 1 then 0 else r.val; rw [if_neg (by decide)]
      | ⟨1, _⟩ => by show (0 : Nat) = if (1 : Nat) = 1 then 0 else g.val; rw [if_pos rfl])
  have e2 : iota Kind.tc S5000x128 32 [1] iota_S5000x128_d1_w32 (ix2 r g) = BitVec.ofNat 32 g.val :=
    iota_single_apply _ _ _ _ _ _
  refine Eq.trans ?_ (weight_mul (ids (ix2 r (0 : Fin 1))) g (x (ix2 r h)))
  rw [← e1, ← e2]
  rfl

/-! ## What each case of the body leaves in the accumulator's buffer -/

section Pieces
variable {F : FTy → Type} [FloatOps F]

/-- The zero offsets of a whole-buffer access. -/
theorem hz : (![0, 0] : Fin 2 → Nat) = fun _ => 0 := funext fun a => by
  match a with
  | ⟨0, _⟩ => rfl
  | ⟨1, _⟩ => rfl

/-- At a later point the body leaves, in the accumulator's buffer holding `xo`, the step applied to `xo`: its one
    store covers the buffer, and its loads read the whole buffers. -/
theorem out_B (c : Dev nD) (i : grid4.Coords) (a1 : Memref sig .tc .vmem S5000x128 .f32) (h1 : a1.IsWhole)
    (a2 : Memref sig .tc .vmem S5000x1 .i32) (h2 : a2.IsWhole) (a3 : Memref sig .tc .vmem S128x128 .f32) (h3 : a3.IsWhole)
    (hc : ¬cond4_0 i) (x : Vec F S5000x128 .f32) (ids : Vec F S5000x1 .i32) (xo : Vec F S128x128 .f32) :
    out4_B_2 c i a1 h1 a2 h2 a3 h3 hc x ids xo = k4_pay2 x ids xo := by
  unfold out4_B_2
  rw [View.read_writes_eq_canon _ _ _ (cover4_B_2 c i a1 h1 a2 h2 a3 h3 hc x ids xo)]
  unfold kernelRun4_B
  dsimp only
  sl_unfold_words
  rw [View.canon_unit_zero (S := S128x128) hz]
  simp only [View.readAt_eq_ld, h1.read_unread, h2.read_unread, h3.read_unread, View.ld_unit_zero (S := S5000x128) hz,
    View.ld_unit_zero (S := S5000x1) hz, View.ld_unit_zero (S := S128x128) hz]

/-- At the first point the body stores the zero block, reads it back, and leaves the step applied to it. -/
theorem out_A (c : Dev nD) (i : grid4.Coords) (a1 : Memref sig .tc .vmem S5000x128 .f32) (h1 : a1.IsWhole)
    (a2 : Memref sig .tc .vmem S5000x1 .i32) (h2 : a2.IsWhole) (a3 : Memref sig .tc .vmem S128x128 .f32) (h3 : a3.IsWhole)
    (hc : cond4_0 i) (x : Vec F S5000x128 .f32) (ids : Vec F S5000x1 .i32) :
    out4_A_2 c i a1 h1 a2 h2 a3 h3 hc x ids = k4_pay2 x ids (k4_pay1 (F := F)) := by
  unfold out4_A_2
  rw [View.read_writes_eq_canon _ _ _ (cover4_A_2 c i a1 h1 a2 h2 a3 h3 hc x ids)]
  unfold kernelRun4_A
  dsimp only
  sl_unfold_words
  rw [View.canon_cons_unit_zero (S := S128x128) hz, View.readCov_unit_zero (S := S128x128) _ hz]
  simp only [View.readAt_eq_ld, h1.read_unread, h2.read_unread, View.ld_unit_zero (S := S5000x128) hz,
    View.ld_unit_zero (S := S5000x1) hz]

end Pieces

/-! ## The tiles of the two arrays, and the running sum -/

/-- Node k's contribution to entry (g, h) of the per-graph sums; nothing past the last node. -/
def contrib (x : A S100000x128) (b : IVec S100000x1 32) (g h : Fin 128) (k : ℕ) : EReal :=
  if hk : k < 100000 then hot (b (ix2 ⟨k, hk⟩ (0 : Fin 1))) g (x (ix2 ⟨k, hk⟩ h)) else 0

/-- The per-graph sum as a sum over the first 100000 naturals. -/
theorem poolAt_eq_range (x : A S100000x128) (b : IVec S100000x1 32) (g h : Fin 128) :
    poolAt x b g h = ∑ k ∈ Finset.range 100000, contrib x b g h k := by
  unfold poolAt contrib
  exact Finset.sum_fin_eq_sum_range _

section Run
variable (V : (c : Dev nD) → (b : Ref sig .tc) → Buf (Elt Ideal) ((c : Thread nD τ).loc b))

/-- The node features and the graph ids as the region finds them, -/
abbrev xarr (c : Dev nD) : Vec Ideal S100000x128 .f32 := V c main_v51
abbrev idarr (c : Dev nD) : Vec Ideal S100000x1 .i32 := V c main_v52
/-- and tile t of each: rows 5000·t … 5000·t + 4999. -/
abbrev xblk (c : Dev nD) (t : Fin cfg4.N) : Vec Ideal S5000x128 .f32 := iblk4 V c 0 t
abbrev idblk (c : Dev nD) (t : Fin cfg4.N) : Vec Ideal S5000x1 .i32 := iblk4 V c 1 t

/-- The block indices at point t: the inputs' tiles move down the rows with t, the accumulator's block stays. -/
theorem idx4 : ∀ t : Fin cfg4.N, win4_0.index t (0 : Fin 2) = t.val ∧ win4_0.index t (1 : Fin 2) = 0
    ∧ win4_1.index t (0 : Fin 2) = t.val ∧ win4_1.index t (1 : Fin 2) = 0
    ∧ win4_2.index t (0 : Fin 2) = 0 ∧ win4_2.index t (1 : Fin 2) = 0 :=
  (by decide +kernel : ∀ t : Fin grid4.N, _)

/-- Row r of tile t of the features is row 5000·t + r of the array. -/
theorem xblk_apply (c : Dev nD) (t : Fin cfg4.N) (r : Fin 5000) (h : Fin 128) (hr : 5000 * t.val + r.val < 100000) :
    xblk V c t (ix2 r h) = xarr V c (ix2 ⟨5000 * t.val + r.val, hr⟩ h) := by
  obtain ⟨e0, e1, -, -, -, -⟩ := idx4 t
  show ((cfg4.win 0).blk t).view.read (Elt Ideal) (V c (Pipeline.arrRef spec4 0)) (ix2 r h) = V c main_v51 _
  rw [View.read_apply]
  show V c main_v51 _ = V c main_v51 _
  congr 1
  funext a
  apply Fin.ext
  match a with
  | ⟨0, _⟩ => show win4_0.index t (0 : Fin 2) * 5000 + 1 * r.val = 5000 * t.val + r.val; omega
  | ⟨1, _⟩ => show win4_0.index t (1 : Fin 2) * 128 + 1 * h.val = h.val; omega

/-- Row r of tile t of the ids is row 5000·t + r of the array. -/
theorem idblk_apply (c : Dev nD) (t : Fin cfg4.N) (r : Fin 5000) (hr : 5000 * t.val + r.val < 100000) :
    idblk V c t (ix2 r (0 : Fin 1)) = idarr V c (ix2 ⟨5000 * t.val + r.val, hr⟩ (0 : Fin 1)) := by
  obtain ⟨-, -, e0, e1, -, -⟩ := idx4 t
  show ((cfg4.win 1).blk t).view.read (Elt Ideal) (V c (Pipeline.arrRef spec4 1)) (ix2 r (0 : Fin 1)) = V c main_v52 _
  rw [View.read_apply]
  show V c main_v52 _ = V c main_v52 _
  congr 1
  funext a
  apply Fin.ext
  match a with
  | ⟨0, _⟩ => show win4_1.index t (0 : Fin 2) * 5000 + 1 * r.val = 5000 * t.val + r.val; omega
  | ⟨1, _⟩ => show win4_1.index t (1 : Fin 2) * 1 + 1 * 0 = 0; omega

/-- Tile t's addend at (g, h): the contributions of nodes 5000·t … 5000·t + 4999. -/
theorem tile_sum (c : Dev nD) (t : Fin cfg4.N) (g h : Fin 128) :
    ∑ r : Fin 5000, hot (idblk V c t (ix2 r (0 : Fin 1))) g (xblk V c t (ix2 r h))
      = ∑ k ∈ Finset.range 5000, contrib (xarr V c) (idarr V c) g h (5000 * t.val + k) := by
  have hN : t.val < 20 := lt_of_lt_of_eq t.isLt (show cfg4.N = 20 from N_4)
  rw [← Fin.sum_univ_eq_sum_range (fun k => contrib (xarr V c) (idarr V c) g h (5000 * t.val + k)) 5000]
  refine Finset.sum_congr rfl fun r _ => ?_
  have hr : 5000 * t.val + r.val < 100000 := by have := r.isLt; omega
  rw [contrib, dif_pos hr, xblk_apply V c t r h hr, idblk_apply V c t r hr]

/-- The first point leaves the step applied to the zero block, -/
theorem step_A (c : Dev nD) (t : Fin cfg4.N) (h0 : t.val % 20 = 0) :
    outsAt4 V c t.val t.isLt = k4_pay2 (F := Ideal) (xblk V c t) (idblk V c t) (k4_pay1 (F := Ideal)) :=
  (outsAt4_A V c t h0).trans
    (out_A (F := Ideal) c (grid4.coords t) (ms4_0 t) (hs4_0 t) (ms4_1 t) (hs4_1 t) (ms4_2 t) (hs4_2 t)
      ((hcond4_0 t).mpr h0) (iblk4 V c 0 t) (iblk4 V c 1 t))

/-- and every later point the step applied to what the point before left. -/
theorem step_B (c : Dev nD) (t : Fin cfg4.N) (h0 : ¬t.val % 20 = 0) :
    outsAt4 V c t.val t.isLt = k4_pay2 (F := Ideal) (xblk V c t) (idblk V c t)
      (outsAt4 V c (t.val - 1) (Nat.lt_of_le_of_lt (Nat.sub_le _ _) t.isLt)) :=
  (outsAt4_B V c t h0).trans
    (out_B (F := Ideal) c (grid4.coords t) (ms4_0 t) (hs4_0 t) (ms4_1 t) (hs4_1 t) (ms4_2 t) (hs4_2 t)
      (fun h => h0 ((hcond4_0 t).mp h)) (iblk4 V c 0 t) (iblk4 V c 1 t)
      (outsAt4 V c (t.val - 1) (Nat.lt_of_le_of_lt (Nat.sub_le _ _) t.isLt)))

/-- THE RUNNING SUM: after point n the accumulator holds, at (g, h), the contributions of the first 5000·(n + 1)
    nodes — by induction on the point. -/
theorem outsAt_apply (c : Dev nD) : ∀ (n : ℕ) (hn : n < cfg4.N) (g h : Fin 128),
    outsAt4 V c n hn (ix2 g h) = ∑ k ∈ Finset.range (5000 * (n + 1)), contrib (xarr V c) (idarr V c) g h k
  | 0, hn, g, h => by
    refine (congrFun (step_A V c ⟨0, hn⟩ rfl) (ix2 g h)).trans ?_
    refine (tile_apply (xblk V c ⟨0, hn⟩) (idblk V c ⟨0, hn⟩) (k4_pay1 (F := Ideal)) g h).trans ?_
    rw [tile_sum V c ⟨0, hn⟩ g h]
    have z : (k4_pay1 (F := Ideal)) (ix2 g h) = 0 := Ideal.ofBits_zero_f32
    rw [z, zero_add]
    simp only [Nat.mul_zero, Nat.zero_add, Nat.mul_one]
  | n + 1, hn, g, h => by
    have hN : n + 1 < 20 := lt_of_lt_of_eq hn (show cfg4.N = 20 from N_4)
    have hB : ¬(⟨n + 1, hn⟩ : Fin cfg4.N).val % 20 = 0 := by dsimp only; omega
    refine (congrFun (step_B V c ⟨n + 1, hn⟩ hB) (ix2 g h)).trans ?_
    refine (tile_apply (xblk V c ⟨n + 1, hn⟩) (idblk V c ⟨n + 1, hn⟩) (outsAt4 V c n (Nat.lt_of_succ_lt hn)) g h).trans ?_
    rw [tile_sum V c ⟨n + 1, hn⟩ g h, outsAt_apply c n (Nat.lt_of_succ_lt hn) g h,
      show 5000 * (n + 1 + 1) = 5000 * (n + 1) + 5000 by omega, Finset.sum_range_add]

end Run

/-! ## The write-back: the last point's block is the whole array -/

section Final
variable (V : (c : Dev nD) → (b : Ref sig .tc) → Buf (Elt Ideal) ((c : Thread nD τ).loc b))

/-- The last point, the one whose block is written back. -/
abbrev tLast : Fin cfg4.N := ⟨19, by rw [show cfg4.N = 20 from N_4]; decide⟩

/-- The accumulator's block is never cut: 128 × 128 at every point. -/
theorem xsize4_2 : ∀ t : Fin cfg4.N, win4_2.xsize (grid4.coords t) (0 : Fin 2) = 128
    ∧ win4_2.xsize (grid4.coords t) (1 : Fin 2) = 128 :=
  (by decide +kernel : ∀ t : Fin grid4.N, _)

/-- After the last point the accumulator holds the per-graph sums: all twenty tiles, 100000 nodes. -/
theorem last_eq (c : Dev nD) : outsAt4 V c tLast.val tLast.isLt = pool (xarr V c) (idarr V c) := by
  funext i
  obtain ⟨g, h, rfl⟩ : ∃ (g h : Fin 128), i = ix2 g h := ⟨i 0, i 1, eq_ix2 i⟩
  exact (outsAt_apply V c 19 tLast.isLt g h).trans (poolAt_eq_range (xarr V c) (idarr V c) g h).symm

/-- What the one write-back writes is the per-graph sums, read through the block (0, 0): the whole array. -/
theorem flushed_eq (c : Dev nD) (t : Fin cfg4.N) (hf : (cfg4.win 2).flush t = true) :
    (dat4 V c).flushed 2 t = ((cfg4.win 2).blk t).view.read (Elt Ideal) (pool (xarr V c) (idarr V c)) := by
  have hN : t.val < 20 := lt_of_lt_of_eq t.isLt (show cfg4.N = 20 from N_4)
  have h19 : t.val = 19 := by have := (flush4_2 t).mp hf; omega
  obtain rfl : t = tLast := Fin.ext h19
  obtain ⟨-, -, -, -, e0, e1⟩ := idx4 tLast
  show (cfg4.win 2).cut (grid4.coords tLast) ((dat4 V c).after 2 tLast) = _
  rw [after4_2, last_eq V c]
  have hz' : (fun a => win4_2.index tLast a * main_v53.ty.shape.size a) = fun _ => 0 := funext fun a => by
    match a with
    | ⟨0, _⟩ => show win4_2.index tLast (0 : Fin 2) * 128 = 0; omega
    | ⟨1, _⟩ => show win4_2.index tLast (1 : Fin 2) * 128 = 0; omega
  exact (Memref.read_access_unit_zero (Elt Ideal) main_v53 hz' (fun a => by rw [congrFun hz' a]; simp)
    (pool (xarr V c) (idarr V c))).symm

/-- Every index of the array lies in the last point's block. -/
theorem mem_last (i : S128x128.Idx) : i ∈ ((cfg4.win 2).blk tLast).view.set := by
  obtain ⟨-, -, -, -, e0, e1⟩ := idx4 tLast
  obtain ⟨s0, s1⟩ := xsize4_2 tLast
  show i ∈ ((View.whole main_v53).slice (win4_2.rect tLast)).set
  rw [View.set_slice_whole, Rect.mem_set_unit]
  intro a
  have h0 : (i 0 : Nat) < 128 := (i 0).isLt
  have h1 : (i 1 : Nat) < 128 := (i 1).isLt
  match a with
  | ⟨0, _⟩ =>
    show win4_2.index tLast (0 : Fin 2) * 128 ≤ (i 0 : Nat)
      ∧ (i 0 : Nat) < win4_2.index tLast (0 : Fin 2) * 128 + win4_2.xsize (grid4.coords tLast) (0 : Fin 2)
    omega
  | ⟨1, _⟩ =>
    show win4_2.index tLast (1 : Fin 2) * 128 ≤ (i 1 : Nat)
      ∧ (i 1 : Nat) < win4_2.index tLast (1 : Fin 2) * 128 + win4_2.xsize (grid4.coords tLast) (1 : Fin 2)
    omega

end Final

end Pool

/-- After region 4 its output array holds, at (g, h), the sum of x[n, h] over the nodes n with graph id g. -/
theorem pool_arr (V : (c : Dev nD) → (b : Ref sig .tc) → Buf (Elt Ideal) ((c : Thread nD τ).loc b)) (c : Dev nD) :
    (dat4 (F := Ideal) V c).arrAt 2 cfg4.N = pool (V c main_v51) (V c main_v52) :=
  (dat4 V c).arrAt_eq_of_cover 2 (pool (V c main_v51) (V c main_v52)) (Pool.flushed_eq V c) fun i =>
    ⟨Pool.tLast, (flush4_2 Pool.tLast).mpr rfl, Pool.mem_last i⟩

end Cert.KVal

end
-- ==== Proof.KMlp.lean ====
/- Region 5 (the head): the array the region leaves is the head's function of the arrays it finds. -/
import proofs.«412093_j29446295781863_1_alg».proof.Proof.Gen.KernelIdeal.Frame
import proofs.«412093_j29446295781863_1_alg».proof.Proof.Spec
import Idealize.ShloMosaic.Lib.ValueIdx
import Idealize.ShloMosaic.Lib.Pipeline.Value
import Idealize.ShloMosaic.PureOps.Ideal.Laws

set_option maxRecDepth 16384

noncomputable section

namespace Cert.KVal

open Idealize.ShloMosaic Idealize.ShloMosaic.TcCoe Idealize.ShloMosaic.ValueIdx Idealize.SL.Sem
open Cert.KernelIdeal Cert.KernelIdeal.Gen Cert.Spec

/-- The zero offsets of a whole-buffer access. -/
theorem hz : (![0, 0] : Fin 2 → Nat) = fun _ => 0 := funext fun a => by fin_cases a <;> rfl

/-! ## The contraction's operand indices, axis by axis -/

theorem sq_lhs_0 (i : S128x128.Idx) (r : dot_S128x128_S128x128_S128x128_1_0_0_1_n_n.contr.Idx) :
    (dot_S128x128_S128x128_S128x128_1_0_0_1_n_n.lhsIdx i r 0).val = (i 0).val := by
  unfold DotDims.lhsIdx
  rw [dif_neg (show ¬(0 : Fin S128x128.rank) ∈ dot_S128x128_S128x128_S128x128_1_0_0_1_n_n.lhsBatch by decide), dif_pos (show (0 : Fin S128x128.rank) ∈ dot_S128x128_S128x128_S128x128_1_0_0_1_n_n.lhsNonContracting by decide)]
  rfl
theorem sq_lhs_1 (i : S128x128.Idx) (r : dot_S128x128_S128x128_S128x128_1_0_0_1_n_n.contr.Idx) :
    (dot_S128x128_S128x128_S128x128_1_0_0_1_n_n.lhsIdx i r 1).val = (r ⟨0, by decide⟩).val :=
  dot_S128x128_S128x128_S128x128_1_0_0_1_n_n.lhsIdx_val_of_single rfl i r
theorem sq_rhs_0 (i : S128x128.Idx) (r : dot_S128x128_S128x128_S128x128_1_0_0_1_n_n.contr.Idx) :
    (dot_S128x128_S128x128_S128x128_1_0_0_1_n_n.rhsIdx i r 0).val = (r ⟨0, by decide⟩).val :=
  dot_S128x128_S128x128_S128x128_1_0_0_1_n_n.rhsIdx_val_of_single rfl i r
theorem sq_rhs_1 (i : S128x128.Idx) (r : dot_S128x128_S128x128_S128x128_1_0_0_1_n_n.contr.Idx) :
    (dot_S128x128_S128x128_S128x128_1_0_0_1_n_n.rhsIdx i r 1).val = (i 1).val := by
  unfold DotDims.rhsIdx
  rw [dif_neg (show ¬(1 : Fin S128x128.rank) ∈ dot_S128x128_S128x128_S128x128_1_0_0_1_n_n.rhsBatch by decide), dif_pos (show (1 : Fin S128x128.rank) ∈ dot_S128x128_S128x128_S128x128_1_0_0_1_n_n.rhsNonContracting by decide)]
  rfl

theorem hd_lhs_0 (i : S128x2.Idx) (r : dot_S128x128_S128x2_S128x2_1_0_0_1_n_n.contr.Idx) :
    (dot_S128x128_S128x2_S128x2_1_0_0_1_n_n.lhsIdx i r 0).val = (i 0).val := by
  unfold DotDims.lhsIdx
  rw [dif_neg (show ¬(0 : Fin S128x128.rank) ∈ dot_S128x128_S128x2_S128x2_1_0_0_1_n_n.lhsBatch by decide), dif_pos (show (0 : Fin S128x128.rank) ∈ dot_S128x128_S128x2_S128x2_1_0_0_1_n_n.lhsNonContracting by decide)]
  rfl
theorem hd_lhs_1 (i : S128x2.Idx) (r : dot_S128x128_S128x2_S128x2_1_0_0_1_n_n.contr.Idx) :
    (dot_S128x128_S128x2_S128x2_1_0_0_1_n_n.lhsIdx i r 1).val = (r ⟨0, by decide⟩).val :=
  dot_S128x128_S128x2_S128x2_1_0_0_1_n_n.lhsIdx_val_of_single rfl i r
theorem hd_rhs_0 (i : S128x2.Idx) (r : dot_S128x128_S128x2_S128x2_1_0_0_1_n_n.contr.Idx) :
    (dot_S128x128_S128x2_S128x2_1_0_0_1_n_n.rhsIdx i r 0).val = (r ⟨0, by decide⟩).val :=
  dot_S128x128_S128x2_S128x2_1_0_0_1_n_n.rhsIdx_val_of_single rfl i r
theorem hd_rhs_1 (i : S128x2.Idx) (r : dot_S128x128_S128x2_S128x2_1_0_0_1_n_n.contr.Idx) :
    (dot_S128x128_S128x2_S128x2_1_0_0_1_n_n.rhsIdx i r 1).val = (i 1).val := by
  unfold DotDims.rhsIdx
  rw [dif_neg (show ¬(1 : Fin S128x2.rank) ∈ dot_S128x128_S128x2_S128x2_1_0_0_1_n_n.rhsBatch by decide), dif_pos (show (1 : Fin S128x2.rank) ∈ dot_S128x128_S128x2_S128x2_1_0_0_1_n_n.rhsNonContracting by decide)]
  rfl

/-! ## A product read at an entry -/

/-- The product into a zero accumulator at entry (p, q): the sum over the one contracted axis of row p of the left
    operand times column q of the right one. -/
theorem sq_apply {φ₁ φ₂ : FTy} (x : FVec Ideal S128x128 φ₁) (w : FVec Ideal S128x128 φ₂) (p : Fin 128) (q : Fin 128) :
    matmul dot_S128x128_S128x128_S128x128_1_0_0_1_n_n none x w (constant (F := Ideal) S128x128 .f32 0x00000000#32) (ix2 p q)
      = ∑ k : Fin 128, x (ix2 p k) * w (ix2 k q) := by
  simp only [matmul]
  rw [Ideal.matmul_constant_zero_apply, ← Equiv.sum_comp (contrEquiv1 dot_S128x128_S128x128_S128x128_1_0_0_1_n_n 128 rfl rfl).symm]
  refine Finset.sum_congr rfl fun k _ => ?_
  have hk := contrEquiv1_symm_val dot_S128x128_S128x128_S128x128_1_0_0_1_n_n 128 rfl rfl k
  have el : dot_S128x128_S128x128_S128x128_1_0_0_1_n_n.lhsIdx (ix2 p q) ((contrEquiv1 dot_S128x128_S128x128_S128x128_1_0_0_1_n_n 128 rfl rfl).symm k) = ix2 p k := funext fun a => Fin.ext (by
    match a with
    | ⟨0, _⟩ => exact sq_lhs_0 _ _
    | ⟨1, _⟩ => exact (sq_lhs_1 _ _).trans hk)
  have er : dot_S128x128_S128x128_S128x128_1_0_0_1_n_n.rhsIdx (ix2 p q) ((contrEquiv1 dot_S128x128_S128x128_S128x128_1_0_0_1_n_n 128 rfl rfl).symm k) = ix2 k q := funext fun a => Fin.ext (by
    match a with
    | ⟨0, _⟩ => exact (sq_rhs_0 _ _).trans hk
    | ⟨1, _⟩ => exact sq_rhs_1 _ _)
  rw [el, er]

/-- The product into a zero accumulator at entry (p, q): the sum over the one contracted axis of row p of the left
    operand times column q of the right one. -/
theorem hd_apply {φ₁ φ₂ : FTy} (x : FVec Ideal S128x128 φ₁) (w : FVec Ideal S128x2 φ₂) (p : Fin 128) (q : Fin 2) :
    matmul dot_S128x128_S128x2_S128x2_1_0_0_1_n_n none x w (constant (F := Ideal) S128x2 .f32 0x00000000#32) (ix2 p q)
      = ∑ k : Fin 128, x (ix2 p k) * w (ix2 k q) := by
  simp only [matmul]
  rw [Ideal.matmul_constant_zero_apply, ← Equiv.sum_comp (contrEquiv1 dot_S128x128_S128x2_S128x2_1_0_0_1_n_n 128 rfl rfl).symm]
  refine Finset.sum_congr rfl fun k _ => ?_
  have hk := contrEquiv1_symm_val dot_S128x128_S128x2_S128x2_1_0_0_1_n_n 128 rfl rfl k
  have el : dot_S128x128_S128x2_S128x2_1_0_0_1_n_n.lhsIdx (ix2 p q) ((contrEquiv1 dot_S128x128_S128x2_S128x2_1_0_0_1_n_n 128 rfl rfl).symm k) = ix2 p k := funext fun a => Fin.ext (by
    match a with
    | ⟨0, _⟩ => exact hd_lhs_0 _ _
    | ⟨1, _⟩ => exact (hd_lhs_1 _ _).trans hk)
  have er : dot_S128x128_S128x2_S128x2_1_0_0_1_n_n.rhsIdx (ix2 p q) ((contrEquiv1 dot_S128x128_S128x2_S128x2_1_0_0_1_n_n 128 rfl rfl).symm k) = ix2 k q := funext fun a => Fin.ext (by
    match a with
    | ⟨0, _⟩ => exact (hd_rhs_0 _ _).trans hk
    | ⟨1, _⟩ => exact hd_rhs_1 _ _)
  rw [el, er]

/-! ## The body's stages, as functions of whole vectors -/

/-- sums / max(count, 1), the count column spread along each row. -/
def meanV (s : FVec Ideal S128x128 .f32) (c : FVec Ideal S128x1 .f32) : FVec Ideal S128x128 .f32 :=
  divf (shapeCast S128x128 s shapeCasts_S128x128_S128x128)
    (broadcastTo S128x128 (maximumf (shapeCast S128x1 c shapeCasts_S128x1_S128x1) (broadcast S128x1 (Scalar.ofBits (F := Ideal) .f32 0x3F800000#32)))
      broadcasts_S128x1_S128x128)

/-- x · W + b, the bias row spread down the columns. -/
def preV (x W : FVec Ideal S128x128 .f32) (b : FVec Ideal S1x128 .f32) : FVec Ideal S128x128 .f32 :=
  addf (matmul dot_S128x128_S128x128_S128x128_1_0_0_1_n_n none (truncf .bf16 x bitsLt_bf16_f32) (truncf .bf16 W bitsLt_bf16_f32) (constant (F := Ideal) S128x128 .f32 0x00000000#32))
    (broadcastTo S128x128 (shapeCast S1x128 b shapeCasts_S1x128_S1x128) broadcasts_S1x128_S128x128)

/-- The rectifier. -/
def reluV (x : FVec Ideal S128x128 .f32) : FVec Ideal S128x128 .f32 :=
  maximumf x (broadcast S128x128 (Scalar.ofBits (F := Ideal) .f32 0x00000000#32))

/-- logistic(x · Wl + bl). -/
def headV (x : FVec Ideal S128x128 .f32) (Wl : FVec Ideal S128x2 .f32) (bl : FVec Ideal S1x2 .f32) : FVec Ideal S128x2 .f32 :=
  logistic (addf (matmul dot_S128x128_S128x2_S128x2_1_0_0_1_n_n none (truncf .bf16 x bitsLt_bf16_f32) (truncf .bf16 Wl bitsLt_bf16_f32) (constant (F := Ideal) S128x2 .f32 0x00000000#32))
    (broadcastTo S128x2 (shapeCast S1x2 bl shapeCasts_S1x2_S1x2) broadcasts_S1x2_S128x2))

/-- The first payload is the third dense layer's pre-activation over two rectified layers over the mean. -/
theorem pay2_eq (x0 : Vec Ideal S128x128 .f32) (x1 : Vec Ideal S128x1 .f32) (x2 : Vec Ideal S128x128 .f32) (x3 : Vec Ideal S1x128 .f32)
    (x4 : Vec Ideal S128x128 .f32) (x5 : Vec Ideal S1x128 .f32) (x6 : Vec Ideal S128x128 .f32) (x7 : Vec Ideal S1x128 .f32) :
    k5_pay2 (F := Ideal) x0 x1 x2 x3 x4 x5 x6 x7
      = preV (reluV (preV (reluV (preV (meanV x0 x1) x2 x3)) x4 x5)) x6 x7 := rfl

/-- The second payload rectifies it, applies the fourth dense layer and the last layer with the logistic function. -/
theorem pay1_eq (v : FVec Ideal S128x128 .f32) (x8 : Vec Ideal S128x128 .f32) (x9 : Vec Ideal S1x128 .f32)
    (x10 : Vec Ideal S128x2 .f32) (x11 : Vec Ideal S1x2 .f32) :
    k5_pay1 (F := Ideal) v (Scalar.ofBits .f32 0x00000000#32) x8 x9 x10 x11
      = headV (reluV (preV (reluV v) x8 x9)) x10 x11 := rfl

/-! ## Each stage read at an entry -/

/-- The mean at (p, q): the sum there over the clamped count of row p. -/
theorem meanV_apply (s : FVec Ideal S128x128 .f32) (c : FVec Ideal S128x1 .f32) (p q : Fin 128) :
    meanV s c (ix2 p q) = meanAt s c p q := by
  unfold meanV meanAt
  rw [divf_apply, shapeCast_self, shapeCast_self,
    broadcastTo_apply _ broadcasts_S128x1_S128x128 (ix2 p q) (ix2 p (0 : Fin 1)) (fun a => match a with
      | ⟨0, _⟩ => by show p.val = if (128 : Nat) = 1 then 0 else p.val; rw [if_neg (by decide)]
      | ⟨1, _⟩ => by show (0 : Nat) = if (1 : Nat) = 1 then 0 else q.val; rw [if_pos rfl])]
  rfl

/-- A bias row spread down the columns reads its entry of column q. -/
theorem sq_bias (b : FVec Ideal S1x128 .f32) (p q : Fin 128) :
    broadcastTo S128x128 (shapeCast S1x128 b shapeCasts_S1x128_S1x128) broadcasts_S1x128_S128x128 (ix2 p q)
      = b (ix2 (0 : Fin 1) q) := by
  rw [shapeCast_self]
  exact broadcastTo_apply b broadcasts_S1x128_S128x128 (ix2 p q) (ix2 (0 : Fin 1) q) (fun a => match a with
    | ⟨0, _⟩ => by show (0 : Nat) = if (1 : Nat) = 1 then 0 else p.val; rw [if_pos rfl]
    | ⟨1, _⟩ => by show q.val = if (128 : Nat) = 1 then 0 else q.val; rw [if_neg (by decide)])

/-- The same for the last layer's two columns. -/
theorem hd_bias (b : FVec Ideal S1x2 .f32) (p : Fin 128) (q : Fin 2) :
    broadcastTo S128x2 (shapeCast S1x2 b shapeCasts_S1x2_S1x2) broadcasts_S1x2_S128x2 (ix2 p q)
      = b (ix2 (0 : Fin 1) q) := by
  rw [shapeCast_self]
  exact broadcastTo_apply b broadcasts_S1x2_S128x2 (ix2 p q) (ix2 (0 : Fin 1) q) (fun a => match a with
    | ⟨0, _⟩ => by show (0 : Nat) = if (1 : Nat) = 1 then 0 else p.val; rw [if_pos rfl]
    | ⟨1, _⟩ => by show q.val = if (2 : Nat) = 1 then 0 else q.val; rw [if_neg (by decide)])

/-- x · W + b at (p, q), for x given entry by entry: row p of x against column q of W, plus the bias of column q.
    The narrowing of the operands is the identity on extended reals. -/
theorem preV_apply (x W : FVec Ideal S128x128 .f32) (b : FVec Ideal S1x128 .f32) (G : Fin 128 → Fin 128 → EReal)
    (hG : ∀ p k, x (ix2 p k) = G p k) (p q : Fin 128) :
    preV x W b (ix2 p q) = (∑ k : Fin 128, G p k * W (ix2 k q)) + b (ix2 (0 : Fin 1) q) := by
  unfold preV
  rw [addf_apply, sq_apply, sq_bias]
  refine congrArg (· + b (ix2 (0 : Fin 1) q)) (Finset.sum_congr rfl fun k _ => ?_)
  rw [truncf_apply, truncf_apply, hG]

/-- One dense layer at (p, q) as a function of the previous layer's entries. -/
theorem dense_apply (x W : FVec Ideal S128x128 .f32) (b : FVec Ideal S1x128 .f32) (G : Fin 128 → Fin 128 → EReal)
    (hG : ∀ p k, x (ix2 p k) = G p k) (p q : Fin 128) :
    reluV (preV x W b) (ix2 p q) = denseAt G W b p q := by
  unfold reluV denseAt
  rw [maximumf_apply, preV_apply x W b G hG]
  rfl

/-- The last layer at (p, q): the logistic function of row p of x against column q of Wl, plus the bias. -/
theorem headV_apply (x : FVec Ideal S128x128 .f32) (Wl : FVec Ideal S128x2 .f32) (bl : FVec Ideal S1x2 .f32)
    (G : Fin 128 → Fin 128 → EReal) (hG : ∀ p k, x (ix2 p k) = G p k) (p : Fin 128) (q : Fin 2) :
    headV x Wl bl (ix2 p q) = headAt G Wl bl p q := by
  unfold headV headAt
  show Ideal.logistic (addf (F := Ideal) _ _ (ix2 p q)) = _
  refine congrArg Ideal.logistic ?_
  rw [addf_apply, hd_apply, hd_bias]
  refine congrArg (· + bl (ix2 (0 : Fin 1) q)) (Finset.sum_congr rfl fun k _ => ?_)
  rw [truncf_apply, truncf_apply, hG]

/-- The five layers over the mean, at (p, q). -/
theorem stages_apply (x0 : FVec Ideal S128x128 .f32) (x1 : FVec Ideal S128x1 .f32) (x2 : FVec Ideal S128x128 .f32) (x3 : FVec Ideal S1x128 .f32)
    (x4 : FVec Ideal S128x128 .f32) (x5 : FVec Ideal S1x128 .f32) (x6 : FVec Ideal S128x128 .f32) (x7 : FVec Ideal S1x128 .f32)
    (x8 : FVec Ideal S128x128 .f32) (x9 : FVec Ideal S1x128 .f32) (x10 : FVec Ideal S128x2 .f32) (x11 : FVec Ideal S1x2 .f32)
    (p : Fin 128) (q : Fin 2) :
    headV (reluV (preV (reluV (preV (reluV (preV (reluV (preV (meanV x0 x1) x2 x3)) x4 x5)) x6 x7)) x8 x9)) x10 x11 (ix2 p q)
      = mlpAt x0 x1 x2 x3 x4 x5 x6 x7 x8 x9 x10 x11 p q := by
  unfold mlpAt
  refine headV_apply _ x10 x11 _ (fun p k => ?_) p q
  refine dense_apply _ x8 x9 _ (fun p k => ?_) p k
  refine dense_apply _ x6 x7 _ (fun p k => ?_) p k
  refine dense_apply _ x4 x5 _ (fun p k => ?_) p k
  refine dense_apply _ x2 x3 _ (fun p k => ?_) p k
  exact meanV_apply x0 x1 p k

/-! ## The output buffer after the body -/

/-- What the body leaves in the output's buffer is the head's function of the twelve input blocks. -/
theorem out_eq (x0 : Vec Ideal S128x128 .f32) (x1 : Vec Ideal S128x1 .f32) (x2 : Vec Ideal S128x128 .f32) (x3 : Vec Ideal S1x128 .f32)
    (x4 : Vec Ideal S128x128 .f32) (x5 : Vec Ideal S1x128 .f32) (x6 : Vec Ideal S128x128 .f32) (x7 : Vec Ideal S1x128 .f32)
    (x8 : Vec Ideal S128x128 .f32) (x9 : Vec Ideal S1x128 .f32) (x10 : Vec Ideal S128x2 .f32) (x11 : Vec Ideal S1x2 .f32) :
    out5_12 (F := Ideal) x0 x1 x2 x3 x4 x5 x6 x7 x8 x9 x10 x11 = mlp x0 x1 x2 x3 x4 x5 x6 x7 x8 x9 x10 x11 := by
  unfold out5_12
  rw [View.canon_unit_zero hz]
  simp only [View.ld_unit_zero (S := S128x128) hz, View.ld_unit_zero (S := S128x1) hz, View.ld_unit_zero (S := S1x128) hz,
    View.ld_unit_zero (S := S128x2) hz, View.ld_unit_zero (S := S1x2) hz]
  rw [pay2_eq, pay1_eq]
  funext j
  obtain ⟨p, q, rfl⟩ : ∃ (p : Fin 128) (q : Fin 2), j = ix2 p q := ⟨j 0, j 1, eq_ix2 j⟩
  exact stages_apply x0 x1 x2 x3 x4 x5 x6 x7 x8 x9 x10 x11 p q

/-! ## From the block to the array

The grid has one point and every window's block is its whole array: the block index is zero on both axes, so a
block's entry sits at the same coordinates in its array. -/

theorem idx5_0 : ∀ t : Fin cfg5.N, win5_0.index t (0 : Fin 2) = 0 ∧ win5_0.index t (1 : Fin 2) = 0 :=
  (by decide +kernel : ∀ t : Fin grid5.N, _)
theorem idx5_1 : ∀ t : Fin cfg5.N, win5_1.index t (0 : Fin 2) = 0 ∧ win5_1.index t (1 : Fin 2) = 0 :=
  (by decide +kernel : ∀ t : Fin grid5.N, _)
theorem idx5_2 : ∀ t : Fin cfg5.N, win5_2.index t (0 : Fin 2) = 0 ∧ win5_2.index t (1 : Fin 2) = 0 :=
  (by decide +kernel : ∀ t : Fin grid5.N, _)
theorem idx5_3 : ∀ t : Fin cfg5.N, win5_3.index t (0 : Fin 2) = 0 ∧ win5_3.index t (1 : Fin 2) = 0 :=
  (by decide +kernel : ∀ t : Fin grid5.N, _)
theorem idx5_4 : ∀ t : Fin cfg5.N, win5_4.index t (0 : Fin 2) = 0 ∧ win5_4.index t (1 : Fin 2) = 0 :=
  (by decide +kernel : ∀ t : Fin grid5.N, _)
theorem idx5_5 : ∀ t : Fin cfg5.N, win5_5.index t (0 : Fin 2) = 0 ∧ win5_5.index t (1 : Fin 2) = 0 :=
  (by decide +kernel : ∀ t : Fin grid5.N, _)
theorem idx5_6 : ∀ t : Fin cfg5.N, win5_6.index t (0 : Fin 2) = 0 ∧ win5_6.index t (1 : Fin 2) = 0 :=
  (by decide +kernel : ∀ t : Fin grid5.N, _)
theorem idx5_7 : ∀ t : Fin cfg5.N, win5_7.index t (0 : Fin 2) = 0 ∧ win5_7.index t (1 : Fin 2) = 0 :=
  (by decide +kernel : ∀ t : Fin grid5.N, _)
theorem idx5_8 : ∀ t : Fin cfg5.N, win5_8.index t (0 : Fin 2) = 0 ∧ win5_8.index t (1 : Fin 2) = 0 :=
  (by decide +kernel : ∀ t : Fin grid5.N, _)
theorem idx5_9 : ∀ t : Fin cfg5.N, win5_9.index t (0 : Fin 2) = 0 ∧ win5_9.index t (1 : Fin 2) = 0 :=
  (by decide +kernel : ∀ t : Fin grid5.N, _)
theorem idx5_10 : ∀ t : Fin cfg5.N, win5_10.index t (0 : Fin 2) = 0 ∧ win5_10.index t (1 : Fin 2) = 0 :=
  (by decide +kernel : ∀ t : Fin grid5.N, _)
theorem idx5_11 : ∀ t : Fin cfg5.N, win5_11.index t (0 : Fin 2) = 0 ∧ win5_11.index t (1 : Fin 2) = 0 :=
  (by decide +kernel : ∀ t : Fin grid5.N, _)
theorem idx5_12 : ∀ t : Fin cfg5.N, win5_12.index t (0 : Fin 2) = 0 ∧ win5_12.index t (1 : Fin 2) = 0 :=
  (by decide +kernel : ∀ t : Fin grid5.N, _)

/-- Window 0's block is the array it is cut from. -/
theorem blk5_0 (V : (c : Dev nD) → (b : Ref sig .tc) → Buf (Elt Ideal) ((c : Thread nD τ).loc b)) (c : Dev nD) (t : Fin cfg5.N) :
    (iblk5 (F := Ideal) V c 0 t : Vec Ideal S128x128 .f32) = V c main_v53 := by
  obtain ⟨e0, e1⟩ := idx5_0 t
  funext y
  show V c main_v53 (((cfg5.win 0).blk t).view.emb y) = V c main_v53 y
  have h : ((cfg5.win 0).blk t).view.emb y = y := funext fun a => Fin.ext (by
    match a with
    | ⟨0, _⟩ => show win5_0.index t (0 : Fin 2) * 128 + 1 * (y 0).val = (y 0).val; rw [e0]; omega
    | ⟨1, _⟩ => show win5_0.index t (1 : Fin 2) * 128 + 1 * (y 1).val = (y 1).val; rw [e1]; omega)
  rw [h]

/-- Window 1's block is the array it is cut from. -/
theorem blk5_1 (V : (c : Dev nD) → (b : Ref sig .tc) → Buf (Elt Ideal) ((c : Thread nD τ).loc b)) (c : Dev nD) (t : Fin cfg5.N) :
    (iblk5 (F := Ideal) V c 1 t : Vec Ideal S128x1 .f32) = V c main_v58 := by
  obtain ⟨e0, e1⟩ := idx5_1 t
  funext y
  show V c main_v58 (((cfg5.win 1).blk t).view.emb y) = V c main_v58 y
  have h : ((cfg5.win 1).blk t).view.emb y = y := funext fun a => Fin.ext (by
    match a with
    | ⟨0, _⟩ => show win5_1.index t (0 : Fin 2) * 128 + 1 * (y 0).val = (y 0).val; rw [e0]; omega
    | ⟨1, _⟩ => show win5_1.index t (1 : Fin 2) * 1 + 1 * (y 1).val = (y 1).val; rw [e1]; omega)
  rw [h]

/-- Window 2's block is the array it is cut from. -/
theorem blk5_2 (V : (c : Dev nD) → (b : Ref sig .tc) → Buf (Elt Ideal) ((c : Thread nD τ).loc b)) (c : Dev nD) (t : Fin cfg5.N) :
    (iblk5 (F := Ideal) V c 2 t : Vec Ideal S128x128 .f32) = V c main_arg15 := by
  obtain ⟨e0, e1⟩ := idx5_2 t
  funext y
  show V c main_arg15 (((cfg5.win 2).blk t).view.emb y) = V c main_arg15 y
  have h : ((cfg5.win 2).blk t).view.emb y = y := funext fun a => Fin.ext (by
    match a with
    | ⟨0, _⟩ => show win5_2.index t (0 : Fin 2) * 128 + 1 * (y 0).val = (y 0).val; rw [e0]; omega
    | ⟨1, _⟩ => show win5_2.index t (1 : Fin 2) * 128 + 1 * (y 1).val = (y 1).val; rw [e1]; omega)
  rw [h]

/-- Window 3's block is the array it is cut from. -/
theorem blk5_3 (V : (c : Dev nD) → (b : Ref sig .tc) → Buf (Elt Ideal) ((c : Thread nD τ).loc b)) (c : Dev nD) (t : Fin cfg5.N) :
    (iblk5 (F := Ideal) V c 3 t : Vec Ideal S1x128 .f32) = V c main_v59 := by
  obtain ⟨e0, e1⟩ := idx5_3 t
  funext y
  show V c main_v59 (((cfg5.win 3).blk t).view.emb y) = V c main_v59 y
  have h : ((cfg5.win 3).blk t).view.emb y = y := funext fun a => Fin.ext (by
    match a with
    | ⟨0, _⟩ => show win5_3.index t (0 : Fin 2) * 1 + 1 * (y 0).val = (y 0).val; rw [e0]; omega
    | ⟨1, _⟩ => show win5_3.index t (1 : Fin 2) * 128 + 1 * (y 1).val = (y 1).val; rw [e1]; omega)
  rw [h]

/-- Window 4's block is the array it is cut from. -/
theorem blk5_4 (V : (c : Dev nD) → (b : Ref sig .tc) → Buf (Elt Ideal) ((c : Thread nD τ).loc b)) (c : Dev nD) (t : Fin cfg5.N) :
    (iblk5 (F := Ideal) V c 4 t : Vec Ideal S128x128 .f32) = V c main_arg17 := by
  obtain ⟨e0, e1⟩ := idx5_4 t
  funext y
  show V c main_arg17 (((cfg5.win 4).blk t).view.emb y) = V c main_arg17 y
  have h : ((cfg5.win 4).blk t).view.emb y = y := funext fun a => Fin.ext (by
    match a with
    | ⟨0, _⟩ => show win5_4.index t (0 : Fin 2) * 128 + 1 * (y 0).val = (y 0).val; rw [e0]; omega
    | ⟨1, _⟩ => show win5_4.index t (1 : Fin 2) * 128 + 1 * (y 1).val = (y 1).val; rw [e1]; omega)
  rw [h]

/-- Window 5's block is the array it is cut from. -/
theorem blk5_5 (V : (c : Dev nD) → (b : Ref sig .tc) → Buf (Elt Ideal) ((c : Thread nD τ).loc b)) (c : Dev nD) (t : Fin cfg5.N) :
    (iblk5 (F := Ideal) V c 5 t : Vec Ideal S1x128 .f32) = V c main_v60 := by
  obtain ⟨e0, e1⟩ := idx5_5 t
  funext y
  show V c main_v60 (((cfg5.win 5).blk t).view.emb y) = V c main_v60 y
  have h : ((cfg5.win 5).blk t).view.emb y = y := funext fun a => Fin.ext (by
    match a with
    | ⟨0, _⟩ => show win5_5.index t (0 : Fin 2) * 1 + 1 * (y 0).val = (y 0).val; rw [e0]; omega
    | ⟨1, _⟩ => show win5_5.index t (1 : Fin 2) * 128 + 1 * (y 1).val = (y 1).val; rw [e1]; omega)
  rw [h]

/-- Window 6's block is the array it is cut from. -/
theorem blk5_6 (V : (c : Dev nD) → (b : Ref sig .tc) → Buf (Elt Ideal) ((c : Thread nD τ).loc b)) (c : Dev nD) (t : Fin cfg5.N) :
    (iblk5 (F := Ideal) V c 6 t : Vec Ideal S128x128 .f32) = V c main_arg19 := by
  obtain ⟨e0, e1⟩ := idx5_6 t
  funext y
  show V c main_arg19 (((cfg5.win 6).blk t).view.emb y) = V c main_arg19 y
  have h : ((cfg5.win 6).blk t).view.emb y = y := funext fun a => Fin.ext (by
    match a with
    | ⟨0, _⟩ => show win5_6.index t (0 : Fin 2) * 128 + 1 * (y 0).val = (y 0).val; rw [e0]; omega
    | ⟨1, _⟩ => show win5_6.index t (1 : Fin 2) * 128 + 1 * (y 1).val = (y 1).val; rw [e1]; omega)
  rw [h]

/-- Window 7's block is the array it is cut from. -/
theorem blk5_7 (V : (c : Dev nD) → (b : Ref sig .tc) → Buf (Elt Ideal) ((c : Thread nD τ).loc b)) (c : Dev nD) (t : Fin cfg5.N) :
    (iblk5 (F := Ideal) V c 7 t : Vec Ideal S1x128 .f32) = V c main_v61 := by
  obtain ⟨e0, e1⟩ := idx5_7 t
  funext y
  show V c main_v61 (((cfg5.win 7).blk t).view.emb y) = V c main_v61 y
  have h : ((cfg5.win 7).blk t).view.emb y = y := funext fun a => Fin.ext (by
    match a with
    | ⟨0, _⟩ => show win5_7.index t (0 : Fin 2) * 1 + 1 * (y 0).val = (y 0).val; rw [e0]; omega
    | ⟨1, _⟩ => show win5_7.index t (1 : Fin 2) * 128 + 1 * (y 1).val = (y 1).val; rw [e1]; omega)
  rw [h]

/-- Window 8's block is the array it is cut from. -/
theorem blk5_8 (V : (c : Dev nD) → (b : Ref sig .tc) → Buf (Elt Ideal) ((c : Thread nD τ).loc b)) (c : Dev nD) (t : Fin cfg5.N) :
    (iblk5 (F := Ideal) V c 8 t : Vec Ideal S128x128 .f32) = V c main_arg21 := by
  obtain ⟨e0, e1⟩ := idx5_8 t
  funext y
  show V c main_arg21 (((cfg5.win 8).blk t).view.emb y) = V c main_arg21 y
  have h : ((cfg5.win 8).blk t).view.emb y = y := funext fun a => Fin.ext (by
    match a with
    | ⟨0, _⟩ => show win5_8.index t (0 : Fin 2) * 128 + 1 * (y 0).val = (y 0).val; rw [e0]; omega
    | ⟨1, _⟩ => show win5_8.index t (1 : Fin 2) * 128 + 1 * (y 1).val = (y 1).val; rw [e1]; omega)
  rw [h]

/-- Window 9's block is the array it is cut from. -/
theorem blk5_9 (V : (c : Dev nD) → (b : Ref sig .tc) → Buf (Elt Ideal) ((c : Thread nD τ).loc b)) (c : Dev nD) (t : Fin cfg5.N) :
    (iblk5 (F := Ideal) V c 9 t : Vec Ideal S1x128 .f32) = V c main_v62 := by
  obtain ⟨e0, e1⟩ := idx5_9 t
  funext y
  show V c main_v62 (((cfg5.win 9).blk t).view.emb y) = V c main_v62 y
  have h : ((cfg5.win 9).blk t).view.emb y = y := funext fun a => Fin.ext (by
    match a with
    | ⟨0, _⟩ => show win5_9.index t (0 : Fin 2) * 1 + 1 * (y 0).val = (y 0).val; rw [e0]; omega
    | ⟨1, _⟩ => show win5_9.index t (1 : Fin 2) * 128 + 1 * (y 1).val = (y 1).val; rw [e1]; omega)
  rw [h]

/-- Window 10's block is the array it is cut from. -/
theorem blk5_10 (V : (c : Dev nD) → (b : Ref sig .tc) → Buf (Elt Ideal) ((c : Thread nD τ).loc b)) (c : Dev nD) (t : Fin cfg5.N) :
    (iblk5 (F := Ideal) V c 10 t : Vec Ideal S128x2 .f32) = V c main_arg23 := by
  obtain ⟨e0, e1⟩ := idx5_10 t
  funext y
  show V c main_arg23 (((cfg5.win 10).blk t).view.emb y) = V c main_arg23 y
  have h : ((cfg5.win 10).blk t).view.emb y = y := funext fun a => Fin.ext (by
    match a with
    | ⟨0, _⟩ => show win5_10.index t (0 : Fin 2) * 128 + 1 * (y 0).val = (y 0).val; rw [e0]; omega
    | ⟨1, _⟩ => show win5_10.index t (1 : Fin 2) * 2 + 1 * (y 1).val = (y 1).val; rw [e1]; omega)
  rw [h]

/-- Window 11's block is the array it is cut from. -/
theorem blk5_11 (V : (c : Dev nD) → (b : Ref sig .tc) → Buf (Elt Ideal) ((c : Thread nD τ).loc b)) (c : Dev nD) (t : Fin cfg5.N) :
    (iblk5 (F := Ideal) V c 11 t : Vec Ideal S1x2 .f32) = V c main_v63 := by
  obtain ⟨e0, e1⟩ := idx5_11 t
  funext y
  show V c main_v63 (((cfg5.win 11).blk t).view.emb y) = V c main_v63 y
  have h : ((cfg5.win 11).blk t).view.emb y = y := funext fun a => Fin.ext (by
    match a with
    | ⟨0, _⟩ => show win5_11.index t (0 : Fin 2) * 1 + 1 * (y 0).val = (y 0).val; rw [e0]; omega
    | ⟨1, _⟩ => show win5_11.index t (1 : Fin 2) * 2 + 1 * (y 1).val = (y 1).val; rw [e1]; omega)
  rw [h]

/-- What the one point writes back is the block of the head's function of the arrays the region finds. -/
theorem flushed_eq (V : (c : Dev nD) → (b : Ref sig .tc) → Buf (Elt Ideal) ((c : Thread nD τ).loc b)) (c : Dev nD) (t : Fin cfg5.N) :
    (dat5 (F := Ideal) V c).flushed 12 t = ((cfg5.win 12).blk t).view.read (Elt Ideal)
      (mlp (V c main_v53) (V c main_v58) (V c main_arg15) (V c main_v59) (V c main_arg17) (V c main_v60) (V c main_arg19) (V c main_v61) (V c main_arg21) (V c main_v62) (V c main_arg23) (V c main_v63)) := by
  show (cfg5.win 12).cut (grid5.coords t) ((dat5 V c).after 12 t) = _
  rw [after5_12, out_eq, blk5_0, blk5_1, blk5_2, blk5_3, blk5_4, blk5_5, blk5_6, blk5_7, blk5_8, blk5_9, blk5_10, blk5_11]
  obtain ⟨e0, e1⟩ := idx5_12 t
  funext j
  show (mlp (V c main_v53) (V c main_v58) (V c main_arg15) (V c main_v59) (V c main_arg17) (V c main_v60) (V c main_arg19) (V c main_v61) (V c main_arg21) (V c main_v62) (V c main_arg23) (V c main_v63)) j
    = (mlp (V c main_v53) (V c main_v58) (V c main_arg15) (V c main_v59) (V c main_arg17) (V c main_v60) (V c main_arg19) (V c main_v61) (V c main_arg21) (V c main_v62) (V c main_arg23) (V c main_v63)) (((cfg5.win 12).blk t).view.emb j)
  have h : ((cfg5.win 12).blk t).view.emb j = j := funext fun a => Fin.ext (by
    match a with
    | ⟨0, _⟩ => show win5_12.index t (0 : Fin 2) * 128 + 1 * (j 0).val = (j 0).val; rw [e0]; omega
    | ⟨1, _⟩ => show win5_12.index t (1 : Fin 2) * 2 + 1 * (j 1).val = (j 1).val; rw [e1]; omega)
  rw [h]

/-- An index of the output array is in the point's block iff each coordinate is in the block's range on its axis. -/
theorem mem_blk (t : Fin cfg5.N) (i : S128x2.Idx) :
    i ∈ ((cfg5.win 12).blk t).view.set ↔ ∀ a : Fin 2, win5_12.index t a * S128x2.size a ≤ (i a).val ∧ (i a).val < win5_12.index t a * S128x2.size a + S128x2.size a := by
  show i ∈ ((View.whole main_v64).slice (win5_12.rect t)).set ↔ _
  rw [View.set_slice_whole, Rect.mem_set_unit]
  exact Iff.rfl

/-- The one block covers the whole output array. -/
theorem covered (i : S128x2.Idx) :
    ∃ t : Fin cfg5.N, (cfg5.win 12).flush t = true ∧ i ∈ ((cfg5.win 12).blk t).view.set := by
  refine ⟨t5_0, flush5_12 t5_0, ?_⟩
  obtain ⟨e0, e1⟩ := idx5_12 t5_0
  have hi0 : (i 0).val < 128 := (i 0).isLt
  have hi1 : (i 1).val < 2 := (i 1).isLt
  rw [mem_blk]
  intro a
  match a with
  | ⟨0, _⟩ => show win5_12.index t5_0 (0 : Fin 2) * 128 ≤ (i 0).val ∧ (i 0).val < win5_12.index t5_0 (0 : Fin 2) * 128 + 128; rw [e0]; omega
  | ⟨1, _⟩ => show win5_12.index t5_0 (1 : Fin 2) * 2 ≤ (i 1).val ∧ (i 1).val < win5_12.index t5_0 (1 : Fin 2) * 2 + 2; rw [e1]; omega

/-- After region 5 its output array holds logistic(dense⁴(mean) · Wl + bl), entry by entry. -/
theorem mlp_arr (V : (c : Dev nD) → (b : Ref sig .tc) → Buf (Elt Ideal) ((c : Thread nD τ).loc b)) (c : Dev nD) :
    (dat5 (F := Ideal) V c).arrAt 12 cfg5.N =
      mlp (V c main_v53) (V c main_v58) (V c main_arg15) (V c main_v59) (V c main_arg17) (V c main_v60)
        (V c main_arg19) (V c main_v61) (V c main_arg21) (V c main_v62) (V c main_arg23) (V c main_v63) :=
  (dat5 (F := Ideal) V c).arrAt_eq_of_cover 12 _ (fun t _ => flushed_eq V c t) covered

end Cert.KVal

end
-- ==== Proof.KChain.lean ====
/- The idealized kernel program's result buffer, read back through the host stretches and the six regions, is the
   network's function of the argument arrays. -/
import proofs.«412093_j29446295781863_1_alg».proof.Proof.Gen.KernelIdeal.Frame
import proofs.«412093_j29446295781863_1_alg».proof.Proof.Spec
import proofs.«412093_j29446295781863_1_alg».proof.Proof.KLayer0
import proofs.«412093_j29446295781863_1_alg».proof.Proof.KLayer1
import proofs.«412093_j29446295781863_1_alg».proof.Proof.KLayer2
import proofs.«412093_j29446295781863_1_alg».proof.Proof.KLayer3
import proofs.«412093_j29446295781863_1_alg».proof.Proof.KPool
import proofs.«412093_j29446295781863_1_alg».proof.Proof.KMlp

set_option maxRecDepth 16384

noncomputable section

namespace Cert.KVal

open Idealize.ShloMosaic Idealize.ShloMosaic.TcCoe Idealize.ShloMosaic.ValueIdx Idealize.SL.Sem
open Cert.KernelIdeal Cert.KernelIdeal.Gen Cert.Spec

namespace Chain

/-- No operation of a literal stretch of host operations writes a literal buffer: every operation writes one buffer,
    and it is another one. -/
local macro "stretch_keeps" ops:ident : tactic => `(tactic| (
  simp only [$ops:ident, List.flatten_cons, List.flatten_nil, List.append_nil, List.cons_append, List.nil_append, List.Forall,
    StableHlo.nullary_writes, StableHlo.unary_writes, StableHlo.binary_writes, StableHlo.ternary_writes,
    StableHlo.quaternary_writes, StableHlo.reshape_writes, StableHlo.binaryIndexed_writes, Finset.mem_singleton]
  repeat' apply And.intro
  all_goals exact StableHlo.devRef_ne_of_ne (by decide)))

/-! ## Equal arguments give equal values -/

theorem layer4_congr {a a' x x' Wr Wr' br br' Wo Wo'} (h1 : a = a') (h2 : x = x') (h3 : Wr = Wr') (h4 : br = br')
    (h5 : Wo = Wo') : layer4 a x Wr br Wo = layer4 a' x' Wr' br' Wo' := by rw [h1, h2, h3, h4, h5]
theorem layer128_congr {a a' x x' Wr Wr' br br' Wo Wo'} (h1 : a = a') (h2 : x = x') (h3 : Wr = Wr') (h4 : br = br')
    (h5 : Wo = Wo') : layer128 a x Wr br Wo = layer128 a' x' Wr' br' Wo' := by rw [h1, h2, h3, h4, h5]
theorem pool_congr {x x' b b'} (h1 : x = x') (h2 : b = b') : pool x b = pool x' b' := by rw [h1, h2]
theorem mlp_congr {s s' n n' W5 W5' b5 b5' W6 W6' b6 b6' W7 W7' b7 b7' W8 W8' b8 b8' Wl Wl' bl bl'}
    (h1 : s = s') (h2 : n = n') (h3 : W5 = W5') (h4 : b5 = b5') (h5 : W6 = W6') (h6 : b6 = b6') (h7 : W7 = W7')
    (h8 : b7 = b7') (h9 : W8 = W8') (h10 : b8 = b8') (h11 : Wl = Wl') (h12 : bl = bl') :
    mlp s n W5 b5 W6 b6 W7 b7 W8 b8 Wl bl = mlp s' n' W5' b5' W6' b6' W7' b7' W8' b8' Wl' bl' := by
  rw [h1, h2, h3, h4, h5, h6, h7, h8, h9, h10, h11, h12]

/-! ## The host stretches, from any contents `V`

Each buffer a stretch computes, as the specification's function of the buffers the stretch reads. -/

section Host
variable (V : Valuation τ sig (Elt Ideal))

/-- A buffer no operation of a stretch writes keeps its contents. -/
theorem host_keeps (ops : List (HloOp τ sig (Elt Ideal))) (b : Ref sig .tc)
    (h : ops.Forall fun op => Proc.devRef .tc b ∉ op.writes) :
    StableHlo.after ops V (Proc.devRef .tc b) = V (Proc.devRef .tc b) :=
  StableHlo.after_of_forall_not_mem _ _ (List.forall_iff_forall_mem.mp h)

theorem host0_v1 : StableHlo.after (hostOps0 (F := Ideal)) V (Proc.devRef .tc main_v1) = src (V (Proc.devRef .tc main_arg1)) := by
  after_results_simp; rfl
theorem host0_v3 : StableHlo.after (hostOps0 (F := Ideal)) V (Proc.devRef .tc main_v3) = dst (V (Proc.devRef .tc main_arg1)) := by
  after_results_simp; rfl
theorem host0_v13 : StableHlo.after (hostOps0 (F := Ideal)) V (Proc.devRef .tc main_v13) =
    agg4 (V (Proc.devRef .tc main_arg0)) (src (V (Proc.devRef .tc main_arg1))) (dst (V (Proc.devRef .tc main_arg1))) := by
  after_results_simp; rfl
theorem host0_v14 : StableHlo.after (hostOps0 (F := Ideal)) V (Proc.devRef .tc main_v14) = row128 (V (Proc.devRef .tc main_arg4)) := by
  after_results_simp; rfl
theorem host1_v25 : StableHlo.after (hostOps1 (F := Ideal)) V (Proc.devRef .tc main_v25) =
    agg128 (V (Proc.devRef .tc main_v15)) (V (Proc.devRef .tc main_v1)) (V (Proc.devRef .tc main_v3)) := by
  after_results_simp; rfl
theorem host1_v26 : StableHlo.after (hostOps1 (F := Ideal)) V (Proc.devRef .tc main_v26) = row128 (V (Proc.devRef .tc main_arg7)) := by
  after_results_simp; rfl
theorem host2_v37 : StableHlo.after (hostOps2 (F := Ideal)) V (Proc.devRef .tc main_v37) =
    agg128 (V (Proc.devRef .tc main_v27)) (V (Proc.devRef .tc main_v1)) (V (Proc.devRef .tc main_v3)) := by
  after_results_simp; rfl
theorem host2_v38 : StableHlo.after (hostOps2 (F := Ideal)) V (Proc.devRef .tc main_v38) = row128 (V (Proc.devRef .tc main_arg10)) := by
  after_results_simp; rfl
theorem host3_v49 : StableHlo.after (hostOps3 (F := Ideal)) V (Proc.devRef .tc main_v49) =
    agg128 (V (Proc.devRef .tc main_v39)) (V (Proc.devRef .tc main_v1)) (V (Proc.devRef .tc main_v3)) := by
  after_results_simp; rfl
theorem host3_v50 : StableHlo.after (hostOps3 (F := Ideal)) V (Proc.devRef .tc main_v50) = row128 (V (Proc.devRef .tc main_arg13)) := by
  after_results_simp; rfl
theorem host4_v52 : StableHlo.after (hostOps4 (F := Ideal)) V (Proc.devRef .tc main_v52) = colBatch (V (Proc.devRef .tc main_arg2)) := by
  after_results_simp; rfl
theorem host5_v58 : StableHlo.after (hostOps5 (F := Ideal)) V (Proc.devRef .tc main_v58) = col128 (counts (V (Proc.devRef .tc main_arg2))) := by
  after_results_simp; rfl
theorem host5_v59 : StableHlo.after (hostOps5 (F := Ideal)) V (Proc.devRef .tc main_v59) = row128 (V (Proc.devRef .tc main_arg16)) := by
  after_results_simp; rfl
theorem host5_v60 : StableHlo.after (hostOps5 (F := Ideal)) V (Proc.devRef .tc main_v60) = row128 (V (Proc.devRef .tc main_arg18)) := by
  after_results_simp; rfl
theorem host5_v61 : StableHlo.after (hostOps5 (F := Ideal)) V (Proc.devRef .tc main_v61) = row128 (V (Proc.devRef .tc main_arg20)) := by
  after_results_simp; rfl
theorem host5_v62 : StableHlo.after (hostOps5 (F := Ideal)) V (Proc.devRef .tc main_v62) = row128 (V (Proc.devRef .tc main_arg22)) := by
  after_results_simp; rfl
theorem host5_v63 : StableHlo.after (hostOps5 (F := Ideal)) V (Proc.devRef .tc main_v63) = row2 (V (Proc.devRef .tc main_arg24)) := by
  after_results_simp; rfl

end Host

/-! ## One boundary back

A region leaves every buffer but its output as it found it: a buffer that is none of its arrays is not touched, and
an input window's array is handed back as it was entered. -/

section Walk
variable (m : (ℓ : Loc nD τ sig) → Buf (Elt Ideal) ℓ) (ρ : Dev nD → PrngReg) (c : Dev nD)

theorem in0 : ∀ w : Fin cfg0.W, Pipeline.arrRef spec0 w ≠ main_v15 → (cfg0.win w).isOut = false := by decide
theorem R2 (b : Ref sig .tc) (hb : b ≠ main_v15) :
    W2 (F := Ideal) m ρ c (Proc.devRef .tc b) = W1 m ρ c (Proc.devRef .tc b) := by
  by_cases h : ∃ w, Pipeline.arrRef spec0 w = b
  · obtain ⟨w, rfl⟩ := h
    exact (W2_arr m ρ c w).trans (((dat0 (V1 m ρ) c).arrAt_in w (in0 w hb) _).trans (A_eq0 (V1 m ρ) c w))
  · exact W2_of_ne m ρ c b fun w e => h ⟨w, e⟩
theorem in1 : ∀ w : Fin cfg1.W, Pipeline.arrRef spec1 w ≠ main_v27 → (cfg1.win w).isOut = false := by decide
theorem R4 (b : Ref sig .tc) (hb : b ≠ main_v27) :
    W4 (F := Ideal) m ρ c (Proc.devRef .tc b) = W3 m ρ c (Proc.devRef .tc b) := by
  by_cases h : ∃ w, Pipeline.arrRef spec1 w = b
  · obtain ⟨w, rfl⟩ := h
    exact (W4_arr m ρ c w).trans (((dat1 (V3 m ρ) c).arrAt_in w (in1 w hb) _).trans (A_eq1 (V3 m ρ) c w))
  · exact W4_of_ne m ρ c b fun w e => h ⟨w, e⟩
theorem in2 : ∀ w : Fin cfg2.W, Pipeline.arrRef spec2 w ≠ main_v39 → (cfg2.win w).isOut = false := by decide
theorem R6 (b : Ref sig .tc) (hb : b ≠ main_v39) :
    W6 (F := Ideal) m ρ c (Proc.devRef .tc b) = W5 m ρ c (Proc.devRef .tc b) := by
  by_cases h : ∃ w, Pipeline.arrRef spec2 w = b
  · obtain ⟨w, rfl⟩ := h
    exact (W6_arr m ρ c w).trans (((dat2 (V5 m ρ) c).arrAt_in w (in2 w hb) _).trans (A_eq2 (V5 m ρ) c w))
  · exact W6_of_ne m ρ c b fun w e => h ⟨w, e⟩
theorem in3 : ∀ w : Fin cfg3.W, Pipeline.arrRef spec3 w ≠ main_v51 → (cfg3.win w).isOut = false := by decide
theorem R8 (b : Ref sig .tc) (hb : b ≠ main_v51) :
    W8 (F := Ideal) m ρ c (Proc.devRef .tc b) = W7 m ρ c (Proc.devRef .tc b) := by
  by_cases h : ∃ w, Pipeline.arrRef spec3 w = b
  · obtain ⟨w, rfl⟩ := h
    exact (W8_arr m ρ c w).trans (((dat3 (V7 m ρ) c).arrAt_in w (in3 w hb) _).trans (A_eq3 (V7 m ρ) c w))
  · exact W8_of_ne m ρ c b fun w e => h ⟨w, e⟩
theorem in4 : ∀ w : Fin cfg4.W, Pipeline.arrRef spec4 w ≠ main_v53 → (cfg4.win w).isOut = false := by decide
theorem R10 (b : Ref sig .tc) (hb : b ≠ main_v53) :
    W10 (F := Ideal) m ρ c (Proc.devRef .tc b) = W9 m ρ c (Proc.devRef .tc b) := by
  by_cases h : ∃ w, Pipeline.arrRef spec4 w = b
  · obtain ⟨w, rfl⟩ := h
    exact (W10_arr m ρ c w).trans (((dat4 (V9 m ρ) c).arrAt_in w (in4 w hb) _).trans (A_eq4 (V9 m ρ) c w))
  · exact W10_of_ne m ρ c b fun w e => h ⟨w, e⟩
theorem in5 : ∀ w : Fin cfg5.W, Pipeline.arrRef spec5 w ≠ main_v64 → (cfg5.win w).isOut = false := by decide
theorem R12 (b : Ref sig .tc) (hb : b ≠ main_v64) :
    W12 (F := Ideal) m ρ c (Proc.devRef .tc b) = W11 m ρ c (Proc.devRef .tc b) := by
  by_cases h : ∃ w, Pipeline.arrRef spec5 w = b
  · obtain ⟨w, rfl⟩ := h
    exact (W12_arr m ρ c w).trans (((dat5 (V11 m ρ) c).arrAt_in w (in5 w hb) _).trans (A_eq5 (V11 m ρ) c w))
  · exact W12_of_ne m ρ c b fun w e => h ⟨w, e⟩

/-- A buffer that no host operation and no region writes. -/
structure Kept (b : Ref sig .tc) : Prop where
  h0 : (hostOps0 (F := Ideal)).Forall fun op => Proc.devRef .tc b ∉ op.writes
  h1 : (hostOps1 (F := Ideal)).Forall fun op => Proc.devRef .tc b ∉ op.writes
  h2 : (hostOps2 (F := Ideal)).Forall fun op => Proc.devRef .tc b ∉ op.writes
  h3 : (hostOps3 (F := Ideal)).Forall fun op => Proc.devRef .tc b ∉ op.writes
  h4 : (hostOps4 (F := Ideal)).Forall fun op => Proc.devRef .tc b ∉ op.writes
  h5 : (hostOps5 (F := Ideal)).Forall fun op => Proc.devRef .tc b ∉ op.writes
  o0 : b ≠ main_v15
  o1 : b ≠ main_v27
  o2 : b ≠ main_v39
  o3 : b ≠ main_v51
  o4 : b ≠ main_v53
  o5 : b ≠ main_v64

/-- Such a buffer holds its launch contents at every boundary. -/
theorem Kept.at1 {b : Ref sig .tc} (k : Kept b) : W1 (F := Ideal) m ρ c (Proc.devRef .tc b) = m ((c : Thread nD τ).loc b) :=
  (host_keeps _ _ b k.h0).trans rfl
theorem Kept.at2 {b : Ref sig .tc} (k : Kept b) : W2 (F := Ideal) m ρ c (Proc.devRef .tc b) = m ((c : Thread nD τ).loc b) :=
  (R2 m ρ c b k.o0).trans (Kept.at1 m ρ c k)
theorem Kept.at3 {b : Ref sig .tc} (k : Kept b) : W3 (F := Ideal) m ρ c (Proc.devRef .tc b) = m ((c : Thread nD τ).loc b) :=
  (host_keeps _ _ b k.h1).trans (Kept.at2 m ρ c k)
theorem Kept.at4 {b : Ref sig .tc} (k : Kept b) : W4 (F := Ideal) m ρ c (Proc.devRef .tc b) = m ((c : Thread nD τ).loc b) :=
  (R4 m ρ c b k.o1).trans (Kept.at3 m ρ c k)
theorem Kept.at5 {b : Ref sig .tc} (k : Kept b) : W5 (F := Ideal) m ρ c (Proc.devRef .tc b) = m ((c : Thread nD τ).loc b) :=
  (host_keeps _ _ b k.h2).trans (Kept.at4 m ρ c k)
theorem Kept.at6 {b : Ref sig .tc} (k : Kept b) : W6 (F := Ideal) m ρ c (Proc.devRef .tc b) = m ((c : Thread nD τ).loc b) :=
  (R6 m ρ c b k.o2).trans (Kept.at5 m ρ c k)
theorem Kept.at7 {b : Ref sig .tc} (k : Kept b) : W7 (F := Ideal) m ρ c (Proc.devRef .tc b) = m ((c : Thread nD τ).loc b) :=
  (host_keeps _ _ b k.h3).trans (Kept.at6 m ρ c k)
theorem Kept.at8 {b : Ref sig .tc} (k : Kept b) : W8 (F := Ideal) m ρ c (Proc.devRef .tc b) = m ((c : Thread nD τ).loc b) :=
  (R8 m ρ c b k.o3).trans (Kept.at7 m ρ c k)
theorem Kept.at9 {b : Ref sig .tc} (k : Kept b) : W9 (F := Ideal) m ρ c (Proc.devRef .tc b) = m ((c : Thread nD τ).loc b) :=
  (host_keeps _ _ b k.h4).trans (Kept.at8 m ρ c k)
theorem Kept.at10 {b : Ref sig .tc} (k : Kept b) : W10 (F := Ideal) m ρ c (Proc.devRef .tc b) = m ((c : Thread nD τ).loc b) :=
  (R10 m ρ c b k.o4).trans (Kept.at9 m ρ c k)
theorem Kept.at11 {b : Ref sig .tc} (k : Kept b) : W11 (F := Ideal) m ρ c (Proc.devRef .tc b) = m ((c : Thread nD τ).loc b) :=
  (host_keeps _ _ b k.h5).trans (Kept.at10 m ρ c k)

/-- A literal buffer is such a buffer: checked stretch by stretch and against every region's output. -/
local macro "kept_lit" : tactic => `(tactic| exact
  ⟨by stretch_keeps hostOps0, by stretch_keeps hostOps1, by stretch_keeps hostOps2, by stretch_keeps hostOps3,
   by stretch_keeps hostOps4, by stretch_keeps hostOps5, by decide, by decide, by decide, by decide, by decide, by decide⟩)

theorem kept_arg0 : Kept main_arg0 := by kept_lit
theorem kept_arg2 : Kept main_arg2 := by kept_lit
theorem kept_arg3 : Kept main_arg3 := by kept_lit
theorem kept_arg5 : Kept main_arg5 := by kept_lit
theorem kept_arg6 : Kept main_arg6 := by kept_lit
theorem kept_arg7 : Kept main_arg7 := by kept_lit
theorem kept_arg8 : Kept main_arg8 := by kept_lit
theorem kept_arg9 : Kept main_arg9 := by kept_lit
theorem kept_arg10 : Kept main_arg10 := by kept_lit
theorem kept_arg11 : Kept main_arg11 := by kept_lit
theorem kept_arg12 : Kept main_arg12 := by kept_lit
theorem kept_arg13 : Kept main_arg13 := by kept_lit
theorem kept_arg14 : Kept main_arg14 := by kept_lit
theorem kept_arg15 : Kept main_arg15 := by kept_lit
theorem kept_arg16 : Kept main_arg16 := by kept_lit
theorem kept_arg17 : Kept main_arg17 := by kept_lit
theorem kept_arg18 : Kept main_arg18 := by kept_lit
theorem kept_arg19 : Kept main_arg19 := by kept_lit
theorem kept_arg20 : Kept main_arg20 := by kept_lit
theorem kept_arg21 : Kept main_arg21 := by kept_lit
theorem kept_arg22 : Kept main_arg22 := by kept_lit
theorem kept_arg23 : Kept main_arg23 := by kept_lit
theorem kept_arg24 : Kept main_arg24 := by kept_lit

/-! ## The chain

The node features after each layer, as the specification's terms of the launch memory's arguments. -/

set_option hygiene false in
/-- The launch memory's contents of an argument buffer. -/
local notation "arg[" b "]" => m ((c : Thread nD τ).loc b)

/-- The node features after the first layer. -/
def x1 : A S100000x128 :=
  layer4 (agg4 arg[main_arg0] (src arg[main_arg1]) (dst arg[main_arg1])) arg[main_arg0] arg[main_arg3] (row128 arg[main_arg4]) arg[main_arg5]
/-- The node features after the second layer. -/
def x2 : A S100000x128 :=
  layer128 (agg128 (x1 m c) (src arg[main_arg1]) (dst arg[main_arg1])) (x1 m c) arg[main_arg6] (row128 arg[main_arg7]) arg[main_arg8]
/-- The node features after the third layer. -/
def x3 : A S100000x128 :=
  layer128 (agg128 (x2 m c) (src arg[main_arg1]) (dst arg[main_arg1])) (x2 m c) arg[main_arg9] (row128 arg[main_arg10]) arg[main_arg11]
/-- The node features after the fourth layer. -/
def x4 : A S100000x128 :=
  layer128 (agg128 (x3 m c) (src arg[main_arg1]) (dst arg[main_arg1])) (x3 m c) arg[main_arg12] (row128 arg[main_arg13]) arg[main_arg14]

/-! ### Region 0's entry and exit -/

theorem W1_v1 : W1 (F := Ideal) m ρ c (Proc.devRef .tc main_v1) = src arg[main_arg1] := host0_v1 _
theorem W1_v3 : W1 (F := Ideal) m ρ c (Proc.devRef .tc main_v3) = dst arg[main_arg1] := host0_v3 _
theorem W1_v13 : W1 (F := Ideal) m ρ c (Proc.devRef .tc main_v13) = agg4 arg[main_arg0] (src arg[main_arg1]) (dst arg[main_arg1]) :=
  host0_v13 _
theorem W1_v14 : W1 (F := Ideal) m ρ c (Proc.devRef .tc main_v14) = row128 arg[main_arg4] := host0_v14 _

theorem W2_v15 : W2 (F := Ideal) m ρ c (Proc.devRef .tc main_v15) = x1 m c :=
  (W2_arr m ρ c 5).trans ((layer0_arr (V1 m ρ) c).trans
    (layer4_congr (W1_v13 m ρ c) (Kept.at1 m ρ c kept_arg0) (Kept.at1 m ρ c kept_arg3) (W1_v14 m ρ c) (Kept.at1 m ρ c kept_arg5)))
theorem W2_v1 : W2 (F := Ideal) m ρ c (Proc.devRef .tc main_v1) = src arg[main_arg1] :=
  (R2 m ρ c main_v1 (by decide)).trans (W1_v1 m ρ c)
theorem W2_v3 : W2 (F := Ideal) m ρ c (Proc.devRef .tc main_v3) = dst arg[main_arg1] :=
  (R2 m ρ c main_v3 (by decide)).trans (W1_v3 m ρ c)

/-! ### Region 1's entry and exit -/

theorem W3_v25 : W3 (F := Ideal) m ρ c (Proc.devRef .tc main_v25) = agg128 (x1 m c) (src arg[main_arg1]) (dst arg[main_arg1]) :=
  (host1_v25 (W2 m ρ c)).trans (by rw [W2_v15 m ρ c, W2_v1 m ρ c, W2_v3 m ρ c])
theorem W3_v26 : W3 (F := Ideal) m ρ c (Proc.devRef .tc main_v26) = row128 arg[main_arg7] :=
  (host1_v26 (W2 m ρ c)).trans (by rw [Kept.at2 m ρ c kept_arg7])
theorem W3_v15 : W3 (F := Ideal) m ρ c (Proc.devRef .tc main_v15) = x1 m c :=
  (host_keeps _ _ main_v15 (by stretch_keeps hostOps1)).trans (W2_v15 m ρ c)
theorem W3_v1 : W3 (F := Ideal) m ρ c (Proc.devRef .tc main_v1) = src arg[main_arg1] :=
  (host_keeps _ _ main_v1 (by stretch_keeps hostOps1)).trans (W2_v1 m ρ c)
theorem W3_v3 : W3 (F := Ideal) m ρ c (Proc.devRef .tc main_v3) = dst arg[main_arg1] :=
  (host_keeps _ _ main_v3 (by stretch_keeps hostOps1)).trans (W2_v3 m ρ c)

theorem W4_v27 : W4 (F := Ideal) m ρ c (Proc.devRef .tc main_v27) = x2 m c :=
  (W4_arr m ρ c 5).trans ((layer1_arr (V3 m ρ) c).trans
    (layer128_congr (W3_v25 m ρ c) (W3_v15 m ρ c) (Kept.at3 m ρ c kept_arg6) (W3_v26 m ρ c)
      (Kept.at3 m ρ c kept_arg8)))
theorem W4_v1 : W4 (F := Ideal) m ρ c (Proc.devRef .tc main_v1) = src arg[main_arg1] :=
  (R4 m ρ c main_v1 (by decide)).trans (W3_v1 m ρ c)
theorem W4_v3 : W4 (F := Ideal) m ρ c (Proc.devRef .tc main_v3) = dst arg[main_arg1] :=
  (R4 m ρ c main_v3 (by decide)).trans (W3_v3 m ρ c)

/-! ### Region 2's entry and exit -/

theorem W5_v37 : W5 (F := Ideal) m ρ c (Proc.devRef .tc main_v37) = agg128 (x2 m c) (src arg[main_arg1]) (dst arg[main_arg1]) :=
  (host2_v37 (W4 m ρ c)).trans (by rw [W4_v27 m ρ c, W4_v1 m ρ c, W4_v3 m ρ c])
theorem W5_v38 : W5 (F := Ideal) m ρ c (Proc.devRef .tc main_v38) = row128 arg[main_arg10] :=
  (host2_v38 (W4 m ρ c)).trans (by rw [Kept.at4 m ρ c kept_arg10])
theorem W5_v27 : W5 (F := Ideal) m ρ c (Proc.devRef .tc main_v27) = x2 m c :=
  (host_keeps _ _ main_v27 (by stretch_keeps hostOps2)).trans (W4_v27 m ρ c)
theorem W5_v1 : W5 (F := Ideal) m ρ c (Proc.devRef .tc main_v1) = src arg[main_arg1] :=
  (host_keeps _ _ main_v1 (by stretch_keeps hostOps2)).trans (W4_v1 m ρ c)
theorem W5_v3 : W5 (F := Ideal) m ρ c (Proc.devRef .tc main_v3) = dst arg[main_arg1] :=
  (host_keeps _ _ main_v3 (by stretch_keeps hostOps2)).trans (W4_v3 m ρ c)

theorem W6_v39 : W6 (F := Ideal) m ρ c (Proc.devRef .tc main_v39) = x3 m c :=
  (W6_arr m ρ c 5).trans ((layer2_arr (V5 m ρ) c).trans
    (layer128_congr (W5_v37 m ρ c) (W5_v27 m ρ c) (Kept.at5 m ρ c kept_arg9) (W5_v38 m ρ c)
      (Kept.at5 m ρ c kept_arg11)))
theorem W6_v1 : W6 (F := Ideal) m ρ c (Proc.devRef .tc main_v1) = src arg[main_arg1] :=
  (R6 m ρ c main_v1 (by decide)).trans (W5_v1 m ρ c)
theorem W6_v3 : W6 (F := Ideal) m ρ c (Proc.devRef .tc main_v3) = dst arg[main_arg1] :=
  (R6 m ρ c main_v3 (by decide)).trans (W5_v3 m ρ c)

/-! ### Region 3's entry and exit -/

theorem W7_v49 : W7 (F := Ideal) m ρ c (Proc.devRef .tc main_v49) = agg128 (x3 m c) (src arg[main_arg1]) (dst arg[main_arg1]) :=
  (host3_v49 (W6 m ρ c)).trans (by rw [W6_v39 m ρ c, W6_v1 m ρ c, W6_v3 m ρ c])
theorem W7_v50 : W7 (F := Ideal) m ρ c (Proc.devRef .tc main_v50) = row128 arg[main_arg13] :=
  (host3_v50 (W6 m ρ c)).trans (by rw [Kept.at6 m ρ c kept_arg13])
theorem W7_v39 : W7 (F := Ideal) m ρ c (Proc.devRef .tc main_v39) = x3 m c :=
  (host_keeps _ _ main_v39 (by stretch_keeps hostOps3)).trans (W6_v39 m ρ c)
theorem W7_v1 : W7 (F := Ideal) m ρ c (Proc.devRef .tc main_v1) = src arg[main_arg1] :=
  (host_keeps _ _ main_v1 (by stretch_keeps hostOps3)).trans (W6_v1 m ρ c)
theorem W7_v3 : W7 (F := Ideal) m ρ c (Proc.devRef .tc main_v3) = dst arg[main_arg1] :=
  (host_keeps _ _ main_v3 (by stretch_keeps hostOps3)).trans (W6_v3 m ρ c)

theorem W8_v51 : W8 (F := Ideal) m ρ c (Proc.devRef .tc main_v51) = x4 m c :=
  (W8_arr m ρ c 5).trans ((layer3_arr (V7 m ρ) c).trans
    (layer128_congr (W7_v49 m ρ c) (W7_v39 m ρ c) (Kept.at7 m ρ c kept_arg12) (W7_v50 m ρ c)
      (Kept.at7 m ρ c kept_arg14)))

/-! ### Region 4's entry and exit: the per-graph sums -/

theorem W9_v52 : W9 (F := Ideal) m ρ c (Proc.devRef .tc main_v52) = colBatch arg[main_arg2] :=
  (host4_v52 (W8 m ρ c)).trans (by rw [Kept.at8 m ρ c kept_arg2])
theorem W9_v51 : W9 (F := Ideal) m ρ c (Proc.devRef .tc main_v51) = x4 m c :=
  (host_keeps _ _ main_v51 (by stretch_keeps hostOps4)).trans (W8_v51 m ρ c)
theorem W10_v53 : W10 (F := Ideal) m ρ c (Proc.devRef .tc main_v53) = pool (x4 m c) (colBatch arg[main_arg2]) :=
  (W10_arr m ρ c 2).trans ((pool_arr (V9 m ρ) c).trans (pool_congr (W9_v51 m ρ c) (W9_v52 m ρ c)))

/-! ### Region 5's entry and exit: the head -/

theorem W11_v53 : W11 (F := Ideal) m ρ c (Proc.devRef .tc main_v53) = pool (x4 m c) (colBatch arg[main_arg2]) :=
  (host_keeps _ _ main_v53 (by stretch_keeps hostOps5)).trans (W10_v53 m ρ c)
theorem W11_v58 : W11 (F := Ideal) m ρ c (Proc.devRef .tc main_v58) = col128 (counts arg[main_arg2]) :=
  (host5_v58 (W10 m ρ c)).trans (by rw [Kept.at10 m ρ c kept_arg2])
theorem W11_v59 : W11 (F := Ideal) m ρ c (Proc.devRef .tc main_v59) = row128 arg[main_arg16] :=
  (host5_v59 (W10 m ρ c)).trans (by rw [Kept.at10 m ρ c kept_arg16])
theorem W11_v60 : W11 (F := Ideal) m ρ c (Proc.devRef .tc main_v60) = row128 arg[main_arg18] :=
  (host5_v60 (W10 m ρ c)).trans (by rw [Kept.at10 m ρ c kept_arg18])
theorem W11_v61 : W11 (F := Ideal) m ρ c (Proc.devRef .tc main_v61) = row128 arg[main_arg20] :=
  (host5_v61 (W10 m ρ c)).trans (by rw [Kept.at10 m ρ c kept_arg20])
theorem W11_v62 : W11 (F := Ideal) m ρ c (Proc.devRef .tc main_v62) = row128 arg[main_arg22] :=
  (host5_v62 (W10 m ρ c)).trans (by rw [Kept.at10 m ρ c kept_arg22])
theorem W11_v63 : W11 (F := Ideal) m ρ c (Proc.devRef .tc main_v63) = row2 arg[main_arg24] :=
  (host5_v63 (W10 m ρ c)).trans (by rw [Kept.at10 m ρ c kept_arg24])

theorem W12_v64 : W12 (F := Ideal) m ρ c (Proc.devRef .tc main_v64) =
    mlp (pool (x4 m c) (colBatch arg[main_arg2])) (col128 (counts arg[main_arg2])) arg[main_arg15] (row128 arg[main_arg16])
      arg[main_arg17] (row128 arg[main_arg18]) arg[main_arg19] (row128 arg[main_arg20]) arg[main_arg21] (row128 arg[main_arg22])
      arg[main_arg23] (row2 arg[main_arg24]) :=
  (W12_arr m ρ c 12).trans ((mlp_arr (V11 m ρ) c).trans
    (mlp_congr (W11_v53 m ρ c) (W11_v58 m ρ c) (Kept.at11 m ρ c kept_arg15) (W11_v59 m ρ c) (Kept.at11 m ρ c kept_arg17)
      (W11_v60 m ρ c) (Kept.at11 m ρ c kept_arg19) (W11_v61 m ρ c) (Kept.at11 m ρ c kept_arg21) (W11_v62 m ρ c)
      (Kept.at11 m ρ c kept_arg23) (W11_v63 m ρ c)))

end Walk

end Chain

/-- The last boundary's contents of the result buffer are the network's value at the launch memory's arguments. -/
theorem result_eq (m : (ℓ : Loc nD τ sig) → Buf (Elt Ideal) ℓ) (ρ : Dev nD → PrngReg) (c : Dev nD) :
    W12 (F := Ideal) m ρ c (Proc.devRef .tc main_v64) =
      net (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) (m ((c : Thread nD τ).loc main_arg20)) (m ((c : Thread nD τ).loc main_arg21)) (m ((c : Thread nD τ).loc main_arg22)) (m ((c : Thread nD τ).loc main_arg23)) (m ((c : Thread nD τ).loc main_arg24)) :=
  (Chain.W12_v64 m ρ c).trans rfl

end Cert.KVal

end
-- ==== Proof.RefDefs.lean ====
/-
  The idealized reference's host operations, folded into the network's layers: each definition is one stretch of the
  reference's operations as a function of its operands.
-/
import proofs.«412093_j29446295781863_1_alg».proof.Proof.Gen.ReferenceIdeal
import Idealize.ShloMosaic.PureOps.Ideal

set_option maxRecDepth 8192

noncomputable section

namespace Cert.RVal

open Idealize.ShloMosaic Idealize.ShloMosaic.TcCoe Cert.ReferenceIdeal Cert.ReferenceIdeal.Facts₀

/-- An f32 array of shape `S` at the ideal instance. -/
abbrev A (S : Shape) := FVec Ideal S .f32

/-- The edges' source nodes: row 0 of the edge list. -/
def rSrc (ei : IVec S2x1600000 32) : IVec S1600000 32 :=
  shapeCast _ (extractStridedSlice S1x1600000 ![0, 0] ei slices_S2x1600000_S1x1600000_0_0) shapeCasts_S1x1600000_S1600000
/-- The edges' destination nodes: row 1 of the edge list. -/
def rDst (ei : IVec S2x1600000 32) : IVec S1600000 32 :=
  shapeCast _ (extractStridedSlice S1x1600000 ![1, 0] ei slices_S2x1600000_S1x1600000_1_0) shapeCasts_S1x1600000_S1600000
/-- Source indices as the gather reads them: a negative index counts from the end. -/
def rGIdx (s : IVec S1600000 32) : IVec S1600000x1 32 :=
  broadcastInDim S1600000x1 ![0] bcast_S1600000_S1600000x1_0 (select (cmpi .slt s (broadcastInDim S1600000 ![] bcast_S_S1600000 (constantI S_ 32 0#32))) (addi s (broadcastInDim S1600000 ![] bcast_S_S1600000 (constantI S_ 32 100000#32))) s)
/-- Destination indices as the scatter reads them. -/
def rSIdx (d : IVec S1600000 32) : IVec S1600000x1 32 :=
  broadcastInDim S1600000x1 ![0] bcast_S1600000_S1600000x1_0 d

/-- The edge aggregation, four features. -/
def rAgg4 (x : A S100000x4) (s d : IVec S1600000 32) : A S100000x4 :=
  Host.scatterAdd scatter_S100000x4_S1600000x1_S1600000x4_1_0_0_1 (broadcastInDim S100000x4 ![] bcast_S_S100000x4 (constant S_ .f32 0x00000000#32)) (rSIdx d) (Host.gather gather_S100000x4_S1600000x1_S1600000x4_1_0_n_n_0_1_14 x (rGIdx s))
/-- The edge aggregation, 128 features. -/
def rAgg128 (x : A S100000x128) (s d : IVec S1600000 32) : A S100000x128 :=
  Host.scatterAdd scatter_S100000x128_S1600000x1_S1600000x128_1_0_0_1 (broadcastInDim S100000x128 ![] bcast_S_S100000x128 (constant S_ .f32 0x00000000#32)) (rSIdx d) (Host.gather gather_S100000x128_S1600000x1_S1600000x128_1_0_n_n_0_1_1128 x (rGIdx s))

/-- A layer's dense update as the reference spells it: relu((a · Wr + br) + x · Wo), four input features. -/
def rLayer4 (a x : A S100000x4) (Wr : A S4x128) (br : A S128) (Wo : A S4x128) : A S100000x128 :=
  maximumf (addf (addf (Host.dotGeneral dot_S100000x4_S4x128_S100000x128_1_0_0_1_n_n none a Wr) (broadcastInDim S100000x128 ![0, 1] bcast_S1x128_S100000x128_0_1 (broadcastInDim S1x128 ![1] bcast_S128_S1x128_1 br))) (Host.dotGeneral dot_S100000x4_S4x128_S100000x128_1_0_0_1_n_n none x Wo)) (broadcastInDim S100000x128 ![] bcast_S_S100000x128 (constant S_ .f32 0x00000000#32))
/-- The same with 128 input features. -/
def rLayer128 (a x : A S100000x128) (Wr : A S128x128) (br : A S128) (Wo : A S128x128) : A S100000x128 :=
  maximumf (addf (addf (Host.dotGeneral dot_S100000x128_S128x128_S100000x128_1_0_0_1_n_n none a Wr) (broadcastInDim S100000x128 ![0, 1] bcast_S1x128_S100000x128_0_1 (broadcastInDim S1x128 ![1] bcast_S128_S1x128_1 br))) (Host.dotGeneral dot_S100000x128_S128x128_S100000x128_1_0_0_1_n_n none x Wo)) (broadcastInDim S100000x128 ![] bcast_S_S100000x128 (constant S_ .f32 0x00000000#32))

/-- The per-graph sums as the reference spells them: a scatter-add of the node rows at the graph ids. -/
def rPool (x : A S100000x128) (batch : IVec S100000 32) : A S128x128 :=
  Host.scatterAdd scatter_S128x128_S100000x1_S100000x128_1_0_0_1 (broadcastInDim S128x128 ![] bcast_S_S128x128 (constant S_ .f32 0x00000000#32)) (broadcastInDim S100000x1 ![0] bcast_S100000_S100000x1_0 batch) x
/-- The per-graph node counts. -/
def rCounts (batch : IVec S100000 32) : A S128 :=
  Host.scatterAdd scatter_S128_S100000x1_S100000_n_0_0_1 (broadcastInDim S128 ![] bcast_S_S128 (constant S_ .f32 0x00000000#32)) (broadcastInDim S100000x1 ![0] bcast_S100000_S100000x1_0 batch) (broadcastInDim S100000 ![] bcast_S_S100000 (constant S_ .f32 0x3F800000#32))
/-- sums / max(count, 1), the count broadcast along the rows. -/
def rMean (sums : A S128x128) (cnt : A S128) : A S128x128 :=
  Host.divf sums (broadcastInDim S128x128 ![0, 1] bcast_S128x1_S128x128_0_1 (broadcastInDim S128x1 ![0] bcast_S128_S128x1_0 (maximumf cnt (broadcastInDim S128 ![] bcast_S_S128 (constant S_ .f32 0x3F800000#32)))))
/-- relu(g · W + b). -/
def rDense (g W : A S128x128) (b : A S128) : A S128x128 :=
  maximumf (addf (Host.dotGeneral dot_S128x128_S128x128_S128x128_1_0_0_1_n_n none g W) (broadcastInDim S128x128 ![0, 1] bcast_S1x128_S128x128_0_1 (broadcastInDim S1x128 ![1] bcast_S128_S1x128_1 b))) (broadcastInDim S128x128 ![] bcast_S_S128x128 (constant S_ .f32 0x00000000#32))
/-- 1 / (1 + exp(-(g · Wl + bl))). -/
def rHead (g : A S128x128) (Wl : A S128x2) (bl : A S2) : A S128x2 :=
  Host.divf (broadcastInDim S128x2 ![] bcast_S_S128x2 (constant S_ .f32 0x3F800000#32)) (addf (broadcastInDim S128x2 ![] bcast_S_S128x2 (constant S_ .f32 0x3F800000#32)) (Host.exp (Host.negf (addf (Host.dotGeneral dot_S128x128_S128x2_S128x2_1_0_0_1_n_n none g Wl) (broadcastInDim S128x2 ![0, 1] bcast_S1x2_S128x2_0_1 (broadcastInDim S1x2 ![1] bcast_S2_S1x2_1 bl))))))

/-- The node features after the four layers, as the reference composes them. -/
def rNodes (x0 : A S100000x4) (ei : IVec S2x1600000 32)
    (Wr0 : A S4x128) (br0 : A S128) (Wo0 : A S4x128) (Wr1 : A S128x128) (br1 : A S128) (Wo1 : A S128x128)
    (Wr2 : A S128x128) (br2 : A S128) (Wo2 : A S128x128) (Wr3 : A S128x128) (br3 : A S128) (Wo3 : A S128x128) : A S100000x128 :=
  let x1 := rLayer4 (rAgg4 x0 (rSrc ei) (rDst ei)) x0 Wr0 br0 Wo0
  let x2 := rLayer128 (rAgg128 x1 (rSrc ei) (rDst ei)) x1 Wr1 br1 Wo1
  let x3 := rLayer128 (rAgg128 x2 (rSrc ei) (rDst ei)) x2 Wr2 br2 Wo2
  rLayer128 (rAgg128 x3 (rSrc ei) (rDst ei)) x3 Wr3 br3 Wo3

/-- The reference's result as one function of the twenty-five arguments. -/
def rNet (x0 : A S100000x4) (ei : IVec S2x1600000 32) (batch : IVec S100000 32)
    (Wr0 : A S4x128) (br0 : A S128) (Wo0 : A S4x128) (Wr1 : A S128x128) (br1 : A S128) (Wo1 : A S128x128)
    (Wr2 : A S128x128) (br2 : A S128) (Wo2 : A S128x128) (Wr3 : A S128x128) (br3 : A S128) (Wo3 : A S128x128)
    (W5 : A S128x128) (b5 : A S128) (W6 : A S128x128) (b6 : A S128) (W7 : A S128x128) (b7 : A S128)
    (W8 : A S128x128) (b8 : A S128) (Wl : A S128x2) (bl : A S2) : A S128x2 :=
  rHead (rDense (rDense (rDense (rDense (rMean (rPool (rNodes x0 ei Wr0 br0 Wo0 Wr1 br1 Wo1 Wr2 br2 Wo2 Wr3 br3 Wo3) batch) (rCounts batch)) W5 b5) W6 b6) W7 b7) W8 b8) Wl bl

end Cert.RVal

end
-- ==== Proof.RefTerm.lean ====
/- The reference run's composed result term is the composition of the folded stretches at the argument arrays. -/
import proofs.«412093_j29446295781863_1_alg».proof.Proof.Gen.ReferenceIdeal.Run
import proofs.«412093_j29446295781863_1_alg».proof.Proof.RefDefs

set_option maxRecDepth 8192

noncomputable section

namespace Cert.RVal

open Idealize.ShloMosaic Idealize.ShloMosaic.TcCoe Cert.ReferenceIdeal

/-- The reference run's result term is that composition at the launch memory's arguments. -/
theorem res_eq (m : (ℓ : Loc nD τ sig) → Buf (Elt Ideal) ℓ) (c : Dev nD) :
    Cert.ReferenceIdeal.Value.res_main_v113 (F := Ideal) m c =
      rNet (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) (m ((c.tc : Thread nD τ).loc main_arg19)) (m ((c.tc : Thread nD τ).loc main_arg20)) (m ((c.tc : Thread nD τ).loc main_arg21)) (m ((c.tc : Thread nD τ).loc main_arg22)) (m ((c.tc : Thread nD τ).loc main_arg23)) (m ((c.tc : Thread nD τ).loc main_arg24)) := by
  unfold Cert.ReferenceIdeal.Value.res_main_v113 rNet rNodes rHead rDense rMean rPool rCounts rLayer128 rLayer4 rAgg128 rAgg4 rSIdx rGIdx rSrc rDst
  rfl

end Cert.RVal

end
-- ==== Proof.RefLayer.lean ====
/- A layer's dense update as the reference spells it is the layer's entry-by-entry function. -/
import proofs.«412093_j29446295781863_1_alg».proof.Proof.RefDefs
import proofs.«412093_j29446295781863_1_alg».proof.Proof.Spec
import Idealize.ShloMosaic.Lib.Pipeline.Value
import Idealize.ShloMosaic.Lib.ValueIdx
import Idealize.ShloMosaic.PureOps.Ideal.Laws

set_option maxRecDepth 8192

noncomputable section

namespace Cert.RVal

open Idealize.ShloMosaic Idealize.ShloMosaic.ValueIdx Cert.ReferenceIdeal Cert.ReferenceIdeal.Facts₀

/-! ## A matrix product read at an entry -/

/-- Entry (p, q) of a product of a 100000 × K matrix with a K × 128 matrix whose dimension numbers contract the
    left operand's columns against the right operand's rows: the sum over k of u[p, k] · W[k, q]. The four
    hypotheses say which coordinate of each operand the output index and the contraction index supply. -/
theorem dot_at {K : Nat} (D : DotDims (⟨2, ![100000, K]⟩ : Shape) ⟨2, ![K, 128]⟩ ⟨2, ![100000, 128]⟩)
    (hr : D.contr.rank = 1) (hs : D.contr.size ⟨0, by omega⟩ = K)
    (l0 : ∀ (i : (⟨2, ![100000, 128]⟩ : Shape).Idx) (c : D.contr.Idx), (D.lhsIdx i c 0).val = (i 0).val)
    (l1 : ∀ (i : (⟨2, ![100000, 128]⟩ : Shape).Idx) (c : D.contr.Idx), (D.lhsIdx i c 1).val = (c ⟨0, by omega⟩).val)
    (r0 : ∀ (i : (⟨2, ![100000, 128]⟩ : Shape).Idx) (c : D.contr.Idx), (D.rhsIdx i c 0).val = (c ⟨0, by omega⟩).val)
    (r1 : ∀ (i : (⟨2, ![100000, 128]⟩ : Shape).Idx) (c : D.contr.Idx), (D.rhsIdx i c 1).val = (i 1).val)
    (u : FVec Ideal ⟨2, ![100000, K]⟩ .f32) (W : FVec Ideal ⟨2, ![K, 128]⟩ .f32) (p : Fin 100000) (q : Fin 128) :
    Host.dotGeneral (F := Ideal) D none u W (ix2 p q) = ∑ k : Fin K, u (ix2 p k) * W (ix2 k q) := by
  simp only [Host.dotGeneral]
  rw [Ideal.dotGeneral_apply, ← Equiv.sum_comp (contrEquiv1 D K hr hs).symm]
  refine Finset.sum_congr rfl fun k _ => ?_
  have hk := contrEquiv1_symm_val D K hr hs k
  have el : D.lhsIdx (ix2 p q) ((contrEquiv1 D K hr hs).symm k) = ix2 p k := funext fun a => Fin.ext (by
    match a with
    | ⟨0, _⟩ => exact l0 _ _
    | ⟨1, _⟩ => exact (l1 _ _).trans hk)
  have er : D.rhsIdx (ix2 p q) ((contrEquiv1 D K hr hs).symm k) = ix2 k q := funext fun a => Fin.ext (by
    match a with
    | ⟨0, _⟩ => exact (r0 _ _).trans hk
    | ⟨1, _⟩ => exact r1 _ _)
  rw [el, er]

/-! ## The bias row, the one-row matrix and the zero splat read at an entry -/

/-- The bias vector broadcast first to a one-row matrix and then down the rows: entry (p, q) is br[q]. -/
theorem bias_at (br : A S128) (p : Fin 100000) (q : Fin 128) :
    broadcastInDim S100000x128 ![0, 1] bcast_S1x128_S100000x128_0_1 (broadcastInDim S1x128 ![1] bcast_S128_S1x128_1 br) (ix2 p q)
      = br (ix1 q) := by
  refine (broadcastInDim_apply _ bcast_S1x128_S100000x128_0_1 _ (ix2 p q) (ix2 (0 : Fin 1) q) (fun a => match a with
    | ⟨0, _⟩ => by show 0 = if (1 : Nat) = 1 then 0 else p.val; rw [if_pos rfl]
    | ⟨1, _⟩ => by show q.val = if (128 : Nat) = 1 then 0 else q.val; rw [if_neg (by decide)])).trans ?_
  exact broadcastInDim_apply _ bcast_S128_S1x128_1 br (ix2 (0 : Fin 1) q) (ix1 q) (fun a => match a with
    | ⟨0, _⟩ => by show q.val = if (128 : Nat) = 1 then 0 else q.val; rw [if_neg (by decide)])

/-- The bias vector re-laid as a one-row matrix: entry (0, q) is br[q] (both sit at row-major position q). -/
theorem row128_at (br : A S128) (q : Fin 128) : Cert.Spec.row128 br (ix2 (0 : Fin 1) q) = br (ix1 q) := by
  unfold Cert.Spec.row128
  refine shapeCast_apply br _ (ix2 (0 : Fin 1) q) (ix1 q) ?_
  rw [Shape.rowMajor_val_two, Shape.rowMajor_val_one]
  show q.val = 0 * 128 + q.val
  omega

/-- The rectifier's zero splat: every entry is the extended real the zero word denotes. -/
theorem zero_at (p : Fin 100000) (q : Fin 128) :
    broadcastInDim S100000x128 ![] bcast_S_S100000x128 (constant (F := Ideal) S_ .f32 0x00000000#32) (ix2 p q) = Cert.Spec.zero32 :=
  broadcastInDim_apply _ bcast_S_S100000x128 _ (ix2 p q) ix0 (fun a => a.elim0)

/-! ## A layer's entry -/

/-- Entry (p, q) of relu((a · Wr + br) + x · Wo), for any contracted extent K, given the product's entries:
    (s + b) + t = (s + t) + b in the extended reals, whose addition is commutative and associative. -/
theorem layer_at {K : Nat} (D : DotDims (⟨2, ![100000, K]⟩ : Shape) ⟨2, ![K, 128]⟩ ⟨2, ![100000, 128]⟩)
    (hdot : ∀ (u : FVec Ideal ⟨2, ![100000, K]⟩ .f32) (W : FVec Ideal ⟨2, ![K, 128]⟩ .f32) (p : Fin 100000) (q : Fin 128),
      Host.dotGeneral (F := Ideal) D none u W (ix2 p q) = ∑ k : Fin K, u (ix2 p k) * W (ix2 k q))
    (a x : FVec Ideal ⟨2, ![100000, K]⟩ .f32) (Wr Wo : FVec Ideal ⟨2, ![K, 128]⟩ .f32) (br : A S128) (p : Fin 100000) (q : Fin 128) :
    maximumf (addf (addf (Host.dotGeneral (F := Ideal) D none a Wr)
        (broadcastInDim S100000x128 ![0, 1] bcast_S1x128_S100000x128_0_1 (broadcastInDim S1x128 ![1] bcast_S128_S1x128_1 br)))
        (Host.dotGeneral (F := Ideal) D none x Wo))
      (broadcastInDim S100000x128 ![] bcast_S_S100000x128 (constant (F := Ideal) S_ .f32 0x00000000#32)) (ix2 p q)
    = Cert.Spec.convAt (fun k : Fin K => a (ix2 p k)) (fun k => x (ix2 p k)) (fun k => Wr (ix2 k q)) (fun k => Wo (ix2 k q))
        (Cert.Spec.row128 br (ix2 (0 : Fin 1) q)) := by
  rw [maximumf_apply, addf_apply, addf_apply, hdot, hdot, bias_at, zero_at, row128_at]
  unfold Cert.Spec.convAt
  rw [add_right_comm]

/-! ## The two products' dimension numbers

Both contract the left operand's axis 1 against the right operand's axis 0 and have no batch axis: the left index is
(row of the output, k) and the right index is (k, column of the output). -/

theorem dot4_l0 (i : S100000x128.Idx) (c : dot_S100000x4_S4x128_S100000x128_1_0_0_1_n_n.contr.Idx) :
    (dot_S100000x4_S4x128_S100000x128_1_0_0_1_n_n.lhsIdx i c 0).val = (i 0).val := by
  unfold DotDims.lhsIdx
  rw [dif_neg (show ¬(0 : Fin S100000x4.rank) ∈ dot_S100000x4_S4x128_S100000x128_1_0_0_1_n_n.lhsBatch by decide), dif_pos (show (0 : Fin S100000x4.rank) ∈ dot_S100000x4_S4x128_S100000x128_1_0_0_1_n_n.lhsNonContracting by decide)]
  rfl
theorem dot4_l1 (i : S100000x128.Idx) (c : dot_S100000x4_S4x128_S100000x128_1_0_0_1_n_n.contr.Idx) :
    (dot_S100000x4_S4x128_S100000x128_1_0_0_1_n_n.lhsIdx i c 1).val = (c ⟨0, by decide⟩).val :=
  dot_S100000x4_S4x128_S100000x128_1_0_0_1_n_n.lhsIdx_val_of_single rfl i c
theorem dot4_r0 (i : S100000x128.Idx) (c : dot_S100000x4_S4x128_S100000x128_1_0_0_1_n_n.contr.Idx) :
    (dot_S100000x4_S4x128_S100000x128_1_0_0_1_n_n.rhsIdx i c 0).val = (c ⟨0, by decide⟩).val :=
  dot_S100000x4_S4x128_S100000x128_1_0_0_1_n_n.rhsIdx_val_of_single rfl i c
theorem dot4_r1 (i : S100000x128.Idx) (c : dot_S100000x4_S4x128_S100000x128_1_0_0_1_n_n.contr.Idx) :
    (dot_S100000x4_S4x128_S100000x128_1_0_0_1_n_n.rhsIdx i c 1).val = (i 1).val := by
  unfold DotDims.rhsIdx
  rw [dif_neg (show ¬(1 : Fin S4x128.rank) ∈ dot_S100000x4_S4x128_S100000x128_1_0_0_1_n_n.rhsBatch by decide), dif_pos (show (1 : Fin S4x128.rank) ∈ dot_S100000x4_S4x128_S100000x128_1_0_0_1_n_n.rhsNonContracting by decide)]
  rfl

theorem dot128_l0 (i : S100000x128.Idx) (c : dot_S100000x128_S128x128_S100000x128_1_0_0_1_n_n.contr.Idx) :
    (dot_S100000x128_S128x128_S100000x128_1_0_0_1_n_n.lhsIdx i c 0).val = (i 0).val := by
  unfold DotDims.lhsIdx
  rw [dif_neg (show ¬(0 : Fin S100000x128.rank) ∈ dot_S100000x128_S128x128_S100000x128_1_0_0_1_n_n.lhsBatch by decide), dif_pos (show (0 : Fin S100000x128.rank) ∈ dot_S100000x128_S128x128_S100000x128_1_0_0_1_n_n.lhsNonContracting by decide)]
  rfl
theorem dot128_l1 (i : S100000x128.Idx) (c : dot_S100000x128_S128x128_S100000x128_1_0_0_1_n_n.contr.Idx) :
    (dot_S100000x128_S128x128_S100000x128_1_0_0_1_n_n.lhsIdx i c 1).val = (c ⟨0, by decide⟩).val :=
  dot_S100000x128_S128x128_S100000x128_1_0_0_1_n_n.lhsIdx_val_of_single rfl i c
theorem dot128_r0 (i : S100000x128.Idx) (c : dot_S100000x128_S128x128_S100000x128_1_0_0_1_n_n.contr.Idx) :
    (dot_S100000x128_S128x128_S100000x128_1_0_0_1_n_n.rhsIdx i c 0).val = (c ⟨0, by decide⟩).val :=
  dot_S100000x128_S128x128_S100000x128_1_0_0_1_n_n.rhsIdx_val_of_single rfl i c
theorem dot128_r1 (i : S100000x128.Idx) (c : dot_S100000x128_S128x128_S100000x128_1_0_0_1_n_n.contr.Idx) :
    (dot_S100000x128_S128x128_S100000x128_1_0_0_1_n_n.rhsIdx i c 1).val = (i 1).val := by
  unfold DotDims.rhsIdx
  rw [dif_neg (show ¬(1 : Fin S128x128.rank) ∈ dot_S100000x128_S128x128_S100000x128_1_0_0_1_n_n.rhsBatch by decide), dif_pos (show (1 : Fin S128x128.rank) ∈ dot_S100000x128_S128x128_S100000x128_1_0_0_1_n_n.rhsNonContracting by decide)]
  rfl

/-- Entry (p, q) of a 100000 × 4 by 4 × 128 product. -/
theorem dot4_at (u : A S100000x4) (W : A S4x128) (p : Fin 100000) (q : Fin 128) :
    Host.dotGeneral (F := Ideal) dot_S100000x4_S4x128_S100000x128_1_0_0_1_n_n none u W (ix2 p q) = ∑ k : Fin 4, u (ix2 p k) * W (ix2 k q) :=
  dot_at dot_S100000x4_S4x128_S100000x128_1_0_0_1_n_n rfl rfl dot4_l0 dot4_l1 dot4_r0 dot4_r1 u W p q

/-- Entry (p, q) of a 100000 × 128 by 128 × 128 product. -/
theorem dot128_at (u : A S100000x128) (W : A S128x128) (p : Fin 100000) (q : Fin 128) :
    Host.dotGeneral (F := Ideal) dot_S100000x128_S128x128_S100000x128_1_0_0_1_n_n none u W (ix2 p q) = ∑ k : Fin 128, u (ix2 p k) * W (ix2 k q) :=
  dot_at dot_S100000x128_S128x128_S100000x128_1_0_0_1_n_n rfl rfl dot128_l0 dot128_l1 dot128_r0 dot128_r1 u W p q

/-! ## The two layers -/

/-- relu((a · Wr + br) + x · Wo) is, entry by entry, relu(a · Wr + x · Wo + br): addition of extended reals is
    commutative and associative. Four input features. -/
theorem rLayer4_eq (a x : A Cert.ReferenceIdeal.S100000x4) (Wr : A Cert.ReferenceIdeal.S4x128) (br : A Cert.ReferenceIdeal.S128) (Wo : A Cert.ReferenceIdeal.S4x128) :
    rLayer4 a x Wr br Wo = Cert.Spec.layer4 a x Wr (Cert.Spec.row128 br) Wo := by
  funext i
  obtain ⟨p, q, rfl⟩ : ∃ (p : Fin 100000) (q : Fin 128), i = ix2 p q := ⟨i 0, i 1, eq_ix2 i⟩
  exact layer_at dot_S100000x4_S4x128_S100000x128_1_0_0_1_n_n dot4_at a x Wr Wo br p q

/-- The same with 128 input features. -/
theorem rLayer128_eq (a x : A Cert.ReferenceIdeal.S100000x128) (Wr : A Cert.ReferenceIdeal.S128x128) (br : A Cert.ReferenceIdeal.S128) (Wo : A Cert.ReferenceIdeal.S128x128) :
    rLayer128 a x Wr br Wo = Cert.Spec.layer128 a x Wr (Cert.Spec.row128 br) Wo := by
  funext i
  obtain ⟨p, q, rfl⟩ : ∃ (p : Fin 100000) (q : Fin 128), i = ix2 p q := ⟨i 0, i 1, eq_ix2 i⟩
  exact layer_at dot_S100000x128_S128x128_S100000x128_1_0_0_1_n_n dot128_at a x Wr Wo br p q

end Cert.RVal

end
-- ==== Proof.RefPool.lean ====
/- The reference's scatter-add of the node rows at the graph ids is the per-graph sum, entry by entry. -/
import proofs.«412093_j29446295781863_1_alg».proof.Proof.RefDefs
import proofs.«412093_j29446295781863_1_alg».proof.Proof.Spec
import Idealize.ShloMosaic.Lib.Pipeline.Value
import Idealize.ShloMosaic.Lib.ValueIdx
import Idealize.ShloMosaic.PureOps.Ideal.Laws

set_option maxRecDepth 8192

noncomputable section

namespace Cert.RVal

open Idealize.ShloMosaic Idealize.ShloMosaic.ValueIdx

/-- The scatter's dimension numbers. -/
abbrev dP : ScatterDims Cert.ReferenceIdeal.S128x128 Cert.ReferenceIdeal.S100000x1 Cert.ReferenceIdeal.S100000x128 :=
  Cert.ReferenceIdeal.scatter_S128x128_S100000x1_S100000x128_1_0_0_1

theorem dP_window0 (j : Cert.ReferenceIdeal.S100000x128.Idx) : dP.window j (0 : Fin 2) = 0 := by
  unfold ScatterDims.window
  rw [dif_neg]
  decide

theorem dP_window1 (j : Cert.ReferenceIdeal.S100000x128.Idx) : dP.window j (1 : Fin 2) = (j 1).val := by
  unfold ScatterDims.window
  rw [dif_pos (by decide)]
  rfl

theorem dP_start1 (j : Cert.ReferenceIdeal.S100000x128.Idx) (idx : IVec Cert.ReferenceIdeal.S100000x1 32) :
    dP.start j idx (1 : Fin 2) = 0 := by
  unfold ScatterDims.start
  rw [dif_neg]
  decide

theorem dP_start0 (j : Cert.ReferenceIdeal.S100000x128.Idx) (idx : IVec Cert.ReferenceIdeal.S100000x1 32) :
    dP.start j idx (0 : Fin 2) = (idx (ix2 (j 0) (0 : Fin 1))).toInt := by
  unfold ScatterDims.start
  rw [dif_pos (by decide)]
  refine congrArg (fun k => (idx k).toInt) (funext fun b => ?_)
  match b with
  | ⟨0, _⟩ => rfl
  | ⟨1, _⟩ => rfl

/-- A 32-bit word read signed is the small number g exactly when it is the word of g. -/
theorem toInt_eq_small (w : BitVec 32) (g : Fin 128) : w.toInt = (g.val : Int) ↔ w = BitVec.ofNat 32 g.val := by
  have hg := g.isLt
  have hw := w.isLt
  rw [← BitVec.toNat_inj, BitVec.toNat_ofNat, BitVec.toInt_eq_toNat_cond]
  rw [Nat.mod_eq_of_lt (by omega)]
  split <;> omega

/-- An update lands at the operand index i exactly when, on every axis, start plus window coordinate is i's coordinate. -/
theorem resultIdx?_eq_some_iff {s si u : Shape} (d : ScatterDims s si u) {w : Nat} (j : u.Idx) (idx : IVec si w) (i : s.Idx) :
    d.resultIdx? j idx = some i ↔ ∀ a, d.start j idx a + (d.window j a : Int) = ((i a).val : Int) := by
  unfold ScatterDims.resultIdx?
  split
  · rename_i H
    rw [Option.some.injEq]
    constructor
    · intro e a
      have := congrArg (fun f => ((f a).val : Int)) e
      simp only at this
      rw [← this, Int.toNat_of_nonneg (H a).1]
    · intro e
      funext a
      refine Fin.ext ?_
      show (d.start j idx a + (d.window j a : Int)).toNat = (i a).val
      rw [e a, Int.toNat_natCast]
  · rename_i H
    constructor
    · intro e; exact absurd e (by simp)
    · intro e
      refine absurd (fun a => ?_) H
      have := (i a).isLt
      rw [e a]
      constructor
      · exact Int.natCast_nonneg _
      · exact_mod_cast this

/-- For this scatter: update (n, h') lands at (g, h) exactly when row n's index word is the word of g and h' = h. -/
theorem dP_resultIdx?_iff (idx : IVec Cert.ReferenceIdeal.S100000x1 32) (j : Cert.ReferenceIdeal.S100000x128.Idx) (g h : Fin 128) :
    dP.resultIdx? j idx = some (ix2 g h) ↔ idx (ix2 (j 0) (0 : Fin 1)) = BitVec.ofNat 32 g.val ∧ j 1 = h := by
  rw [resultIdx?_eq_some_iff]
  constructor
  · intro e
    have e0 := e (0 : Fin 2)
    have e1 := e (1 : Fin 2)
    rw [dP_start0, dP_window0] at e0
    rw [dP_start1, dP_window1] at e1
    refine ⟨(toInt_eq_small _ g).1 ?_, Fin.ext ?_⟩
    · simpa using e0
    · have : ((j 1).val : Int) = (h.val : Int) := by simpa using e1
      exact_mod_cast this
  · rintro ⟨e0, e1⟩ a
    match a with
    | ⟨0, _⟩ =>
      show dP.start j idx (0 : Fin 2) + (dP.window j (0 : Fin 2) : Int) = (g.val : Int)
      rw [dP_start0, dP_window0, (toInt_eq_small _ g).2 e0]; simp
    | ⟨1, _⟩ =>
      show dP.start j idx (1 : Fin 2) + (dP.window j (1 : Fin 2) : Int) = (h.val : Int)
      rw [dP_start1, dP_window1, e1]; simp

open Cert.ReferenceIdeal Cert.ReferenceIdeal.Facts₀ in
/-- The graph ids as the scatter reads them: the one column's entry n is the id of node n. -/
theorem bcastBatch_apply (batch : IVec S100000 32) (n : Fin 100000) :
    broadcastInDim S100000x1 ![0] bcast_S100000_S100000x1_0 batch (ix2 n (0 : Fin 1)) = batch (ix1 n) :=
  broadcastInDim_apply _ bcast_S100000_S100000x1_0 batch (ix2 n (0 : Fin 1)) (ix1 n) (fun a => match a with
    | ⟨0, _⟩ => by show n.val = if (100000 : Nat) = 1 then 0 else n.val; rw [if_neg (by decide)])

/-- The same column as the specification spells it: a re-laying of the vector of ids. -/
theorem colBatch_apply (batch : IVec Cert.ReferenceIdeal.S100000 32) (n : Fin 100000) :
    Cert.Spec.colBatch batch (ix2 n (0 : Fin 1)) = batch (ix1 n) := by
  unfold Cert.Spec.colBatch
  refine shapeCast_apply batch _ (ix2 n (0 : Fin 1)) (ix1 n) ?_
  rw [Shape.rowMajor_val_one, Shape.rowMajor_val_two]
  show n.val = n.val * 1 + 0
  omega

open Cert.ReferenceIdeal Cert.ReferenceIdeal.Facts₀ in
/-- The operand the scatter adds into is zero everywhere. -/
theorem zeros_apply (i : S128x128.Idx) :
    broadcastInDim S128x128 ![] bcast_S_S128x128 (constant (F := Ideal) S_ .f32 0x00000000#32) i = 0 :=
  (broadcastInDim_apply _ bcast_S_S128x128 (constant (F := Ideal) S_ .f32 0x00000000#32) i ix0 (fun a => a.elim0)).trans
    Ideal.ofBits_zero_f32

open Cert.ReferenceIdeal Cert.ReferenceIdeal.Facts₀ in
/-- Entry (g, h): the sum over all updates (n, h') that land there is the sum over the nodes n with id g of x[n, h]. -/
theorem rPool_at (x : A S100000x128) (batch : IVec S100000 32) (g h : Fin 128) :
    rPool x batch (ix2 g h) = Cert.Spec.poolAt x (Cert.Spec.colBatch batch) g h := by
  unfold rPool Host.scatterAdd
  rw [Ideal.hostScatterAdd_def]
  unfold Ideal.hostScatterAdd Cert.Spec.poolAt
  rw [zeros_apply, zero_add, Finset.sum_filter, sum_idx2]
  refine Finset.sum_congr rfl fun n _ => ?_
  rw [colBatch_apply, ← bcastBatch_apply batch n]
  generalize broadcastInDim S100000x1 ![0] bcast_S100000_S100000x1_0 batch = idx
  have hb : ∀ b : Fin 128,
      (if dP.resultIdx? (ix2 n b) idx = some (ix2 g h) then x (ix2 n b) else 0)
        = if b = h then (if idx (ix2 n (0 : Fin 1)) = BitVec.ofNat 32 g.val then x (ix2 n h) else 0) else 0 := by
    intro b
    have key : dP.resultIdx? (ix2 n b) idx = some (ix2 g h) ↔
        idx (ix2 n (0 : Fin 1)) = BitVec.ofNat 32 g.val ∧ b = h := dP_resultIdx?_iff idx (ix2 n b) g h
    by_cases hbh : b = h
    · subst hbh
      rw [if_pos rfl]
      exact if_congr (key.trans (and_iff_left rfl)) rfl rfl
    · rw [if_neg hbh, if_neg (fun hc => hbh (key.1 hc).2)]
  rw [Finset.sum_congr rfl (fun b _ => hb b), Finset.sum_ite_eq' Finset.univ h, if_pos (Finset.mem_univ h)]
  rfl

/-- Entry (g, h) of the scatter-add into zeros is the sum of x[n, h] over the nodes n whose graph id is g: an update
    row lands on row g exactly when its index word, read signed, is g, and a row outside [0, 128) is dropped. -/
theorem rPool_eq (x : A Cert.ReferenceIdeal.S100000x128) (batch : IVec Cert.ReferenceIdeal.S100000 32) :
    rPool x batch = Cert.Spec.pool x (Cert.Spec.colBatch batch) := by
  funext i
  exact (congrArg (rPool x batch) (eq_ix2 i)).trans (rPool_at x batch (i 0) (i 1))

end Cert.RVal

end
-- ==== Proof.RefHead.lean ====
/- The reference's head (mean, four dense relu layers, a dense layer and 1 / (1 + exp(-z))) is the head's entry-by-entry function. -/
import proofs.«412093_j29446295781863_1_alg».proof.Proof.RefDefs
import proofs.«412093_j29446295781863_1_alg».proof.Proof.Spec
import Idealize.ShloMosaic.Lib.ValueIdx
import Idealize.ShloMosaic.Lib.ValueLayout
import Idealize.ShloMosaic.Lib.IdealHost
import Idealize.ShloMosaic.Lib.Pipeline.Value
import Idealize.ShloMosaic.PureOps.Ideal.Laws

set_option maxRecDepth 8192

noncomputable section

namespace Cert.RVal

open Idealize.ShloMosaic Idealize.ShloMosaic.ValueIdx

section Pieces

open Cert.ReferenceIdeal Cert.ReferenceIdeal.Facts₀

/-! ## The shape operations at an entry -/

/-- A bias vector broadcast first to one row and then down the 128 rows reads, at (p, q), the vector's entry q. -/
theorem bias128_apply (b : A S128) (p q : Fin 128) :
    broadcastInDim S128x128 ![0, 1] bcast_S1x128_S128x128_0_1 (broadcastInDim S1x128 ![1] bcast_S128_S1x128_1 b) (ix2 p q)
      = b (ix1 q) := by
  refine (broadcastInDim_apply _ bcast_S1x128_S128x128_0_1 _ (ix2 p q) (ix2 (0 : Fin 1) q) (fun a => match a with
    | ⟨0, _⟩ => by show 0 = if (1 : Nat) = 1 then 0 else p.val; rw [if_pos rfl]
    | ⟨1, _⟩ => by show q.val = if (128 : Nat) = 1 then 0 else q.val; rw [if_neg (by decide)])).trans ?_
  exact broadcastInDim_apply _ bcast_S128_S1x128_1 b (ix2 (0 : Fin 1) q) (ix1 q) (fun a => match a with
    | ⟨0, _⟩ => by show q.val = if (128 : Nat) = 1 then 0 else q.val; rw [if_neg (by decide)])

/-- The last bias vector broadcast to one row and then down the 128 rows reads, at (p, q), the vector's entry q. -/
theorem bias2_apply (b : A S2) (p : Fin 128) (q : Fin 2) :
    broadcastInDim S128x2 ![0, 1] bcast_S1x2_S128x2_0_1 (broadcastInDim S1x2 ![1] bcast_S2_S1x2_1 b) (ix2 p q)
      = b (ix1 q) := by
  refine (broadcastInDim_apply _ bcast_S1x2_S128x2_0_1 _ (ix2 p q) (ix2 (0 : Fin 1) q) (fun a => match a with
    | ⟨0, _⟩ => by show 0 = if (1 : Nat) = 1 then 0 else p.val; rw [if_pos rfl]
    | ⟨1, _⟩ => by show q.val = if (2 : Nat) = 1 then 0 else q.val; rw [if_neg (by decide)])).trans ?_
  exact broadcastInDim_apply _ bcast_S2_S1x2_1 b (ix2 (0 : Fin 1) q) (ix1 q) (fun a => match a with
    | ⟨0, _⟩ => by show q.val = if (2 : Nat) = 1 then 0 else q.val; rw [if_neg (by decide)])

/-- The count vector broadcast first to one column and then along the 128 columns reads, at (p, q), the vector's entry p. -/
theorem count_apply (c : A S128) (p q : Fin 128) :
    broadcastInDim S128x128 ![0, 1] bcast_S128x1_S128x128_0_1 (broadcastInDim S128x1 ![0] bcast_S128_S128x1_0 c) (ix2 p q)
      = c (ix1 p) := by
  refine (broadcastInDim_apply _ bcast_S128x1_S128x128_0_1 _ (ix2 p q) (ix2 p (0 : Fin 1)) (fun a => match a with
    | ⟨0, _⟩ => by show p.val = if (128 : Nat) = 1 then 0 else p.val; rw [if_neg (by decide)]
    | ⟨1, _⟩ => by show 0 = if (1 : Nat) = 1 then 0 else q.val; rw [if_pos rfl])).trans ?_
  exact broadcastInDim_apply _ bcast_S128_S128x1_0 c (ix2 p (0 : Fin 1)) (ix1 p) (fun a => match a with
    | ⟨0, _⟩ => by show p.val = if (128 : Nat) = 1 then 0 else p.val; rw [if_neg (by decide)])

/-! ## The two matrix products at an entry

At the ideal instance the host's dot_general is the sum over its one contracted axis; the operand indices at output
entry (p, q) and contraction coordinate k are (p, k) and (k, q). -/

theorem dot128_lhs0 (i : S128x128.Idx) (c : dot_S128x128_S128x128_S128x128_1_0_0_1_n_n.contr.Idx) :
    (dot_S128x128_S128x128_S128x128_1_0_0_1_n_n.lhsIdx i c 0).val = (i 0).val := by
  unfold DotDims.lhsIdx
  rw [dif_neg (show ¬(0 : Fin S128x128.rank) ∈ dot_S128x128_S128x128_S128x128_1_0_0_1_n_n.lhsBatch by decide), dif_pos (show (0 : Fin S128x128.rank) ∈ dot_S128x128_S128x128_S128x128_1_0_0_1_n_n.lhsNonContracting by decide)]
  rfl
theorem dot128_lhs1 (i : S128x128.Idx) (c : dot_S128x128_S128x128_S128x128_1_0_0_1_n_n.contr.Idx) :
    (dot_S128x128_S128x128_S128x128_1_0_0_1_n_n.lhsIdx i c 1).val = (c ⟨0, by decide⟩).val :=
  dot_S128x128_S128x128_S128x128_1_0_0_1_n_n.lhsIdx_val_of_single rfl i c
theorem dot128_rhs0 (i : S128x128.Idx) (c : dot_S128x128_S128x128_S128x128_1_0_0_1_n_n.contr.Idx) :
    (dot_S128x128_S128x128_S128x128_1_0_0_1_n_n.rhsIdx i c 0).val = (c ⟨0, by decide⟩).val :=
  dot_S128x128_S128x128_S128x128_1_0_0_1_n_n.rhsIdx_val_of_single rfl i c
theorem dot128_rhs1 (i : S128x128.Idx) (c : dot_S128x128_S128x128_S128x128_1_0_0_1_n_n.contr.Idx) :
    (dot_S128x128_S128x128_S128x128_1_0_0_1_n_n.rhsIdx i c 1).val = (i 1).val := by
  unfold DotDims.rhsIdx
  rw [dif_neg (show ¬(1 : Fin S128x128.rank) ∈ dot_S128x128_S128x128_S128x128_1_0_0_1_n_n.rhsBatch by decide), dif_pos (show (1 : Fin S128x128.rank) ∈ dot_S128x128_S128x128_S128x128_1_0_0_1_n_n.rhsNonContracting by decide)]
  rfl
/-- Entry (p, q) of a 128 × 128 by 128 × 128 product is the sum over k of g (p, k) * W (k, q). -/
theorem dot128_apply (g : A S128x128) (W : A S128x128) (p : Fin 128) (q : Fin 128) :
    Host.dotGeneral dot_S128x128_S128x128_S128x128_1_0_0_1_n_n none g W (ix2 p q) = ∑ k : Fin 128, g (ix2 p k) * W (ix2 k q) := by
  simp only [Host.dotGeneral]
  rw [Ideal.dotGeneral_apply, ← Equiv.sum_comp (contrEquiv1 dot_S128x128_S128x128_S128x128_1_0_0_1_n_n 128 rfl rfl).symm]
  refine Finset.sum_congr rfl fun k _ => ?_
  have hk := contrEquiv1_symm_val dot_S128x128_S128x128_S128x128_1_0_0_1_n_n 128 rfl rfl k
  have el : dot_S128x128_S128x128_S128x128_1_0_0_1_n_n.lhsIdx (ix2 p q) ((contrEquiv1 dot_S128x128_S128x128_S128x128_1_0_0_1_n_n 128 rfl rfl).symm k) = ix2 p k := funext fun a => Fin.ext (by
    match a with
    | ⟨0, _⟩ => exact dot128_lhs0 _ _
    | ⟨1, _⟩ => exact (dot128_lhs1 _ _).trans hk)
  have er : dot_S128x128_S128x128_S128x128_1_0_0_1_n_n.rhsIdx (ix2 p q) ((contrEquiv1 dot_S128x128_S128x128_S128x128_1_0_0_1_n_n 128 rfl rfl).symm k) = ix2 k q := funext fun a => Fin.ext (by
    match a with
    | ⟨0, _⟩ => exact (dot128_rhs0 _ _).trans hk
    | ⟨1, _⟩ => exact dot128_rhs1 _ _)
  rw [el, er]

theorem dot2_lhs0 (i : S128x2.Idx) (c : dot_S128x128_S128x2_S128x2_1_0_0_1_n_n.contr.Idx) :
    (dot_S128x128_S128x2_S128x2_1_0_0_1_n_n.lhsIdx i c 0).val = (i 0).val := by
  unfold DotDims.lhsIdx
  rw [dif_neg (show ¬(0 : Fin S128x128.rank) ∈ dot_S128x128_S128x2_S128x2_1_0_0_1_n_n.lhsBatch by decide), dif_pos (show (0 : Fin S128x128.rank) ∈ dot_S128x128_S128x2_S128x2_1_0_0_1_n_n.lhsNonContracting by decide)]
  rfl
theorem dot2_lhs1 (i : S128x2.Idx) (c : dot_S128x128_S128x2_S128x2_1_0_0_1_n_n.contr.Idx) :
    (dot_S128x128_S128x2_S128x2_1_0_0_1_n_n.lhsIdx i c 1).val = (c ⟨0, by decide⟩).val :=
  dot_S128x128_S128x2_S128x2_1_0_0_1_n_n.lhsIdx_val_of_single rfl i c
theorem dot2_rhs0 (i : S128x2.Idx) (c : dot_S128x128_S128x2_S128x2_1_0_0_1_n_n.contr.Idx) :
    (dot_S128x128_S128x2_S128x2_1_0_0_1_n_n.rhsIdx i c 0).val = (c ⟨0, by decide⟩).val :=
  dot_S128x128_S128x2_S128x2_1_0_0_1_n_n.rhsIdx_val_of_single rfl i c
theorem dot2_rhs1 (i : S128x2.Idx) (c : dot_S128x128_S128x2_S128x2_1_0_0_1_n_n.contr.Idx) :
    (dot_S128x128_S128x2_S128x2_1_0_0_1_n_n.rhsIdx i c 1).val = (i 1).val := by
  unfold DotDims.rhsIdx
  rw [dif_neg (show ¬(1 : Fin S128x2.rank) ∈ dot_S128x128_S128x2_S128x2_1_0_0_1_n_n.rhsBatch by decide), dif_pos (show (1 : Fin S128x2.rank) ∈ dot_S128x128_S128x2_S128x2_1_0_0_1_n_n.rhsNonContracting by decide)]
  rfl
/-- Entry (p, q) of a 128 × 128 by 128 × 2 product is the sum over k of g (p, k) * W (k, q). -/
theorem dot2_apply (g : A S128x128) (W : A S128x2) (p : Fin 128) (q : Fin 2) :
    Host.dotGeneral dot_S128x128_S128x2_S128x2_1_0_0_1_n_n none g W (ix2 p q) = ∑ k : Fin 128, g (ix2 p k) * W (ix2 k q) := by
  simp only [Host.dotGeneral]
  rw [Ideal.dotGeneral_apply, ← Equiv.sum_comp (contrEquiv1 dot_S128x128_S128x2_S128x2_1_0_0_1_n_n 128 rfl rfl).symm]
  refine Finset.sum_congr rfl fun k _ => ?_
  have hk := contrEquiv1_symm_val dot_S128x128_S128x2_S128x2_1_0_0_1_n_n 128 rfl rfl k
  have el : dot_S128x128_S128x2_S128x2_1_0_0_1_n_n.lhsIdx (ix2 p q) ((contrEquiv1 dot_S128x128_S128x2_S128x2_1_0_0_1_n_n 128 rfl rfl).symm k) = ix2 p k := funext fun a => Fin.ext (by
    match a with
    | ⟨0, _⟩ => exact dot2_lhs0 _ _
    | ⟨1, _⟩ => exact (dot2_lhs1 _ _).trans hk)
  have er : dot_S128x128_S128x2_S128x2_1_0_0_1_n_n.rhsIdx (ix2 p q) ((contrEquiv1 dot_S128x128_S128x2_S128x2_1_0_0_1_n_n 128 rfl rfl).symm k) = ix2 k q := funext fun a => Fin.ext (by
    match a with
    | ⟨0, _⟩ => exact (dot2_rhs0 _ _).trans hk
    | ⟨1, _⟩ => exact dot2_rhs1 _ _)
  rw [el, er]

/-! ## The re-laid arguments at an entry -/

/-- A bias vector as a one-row matrix reads, at (0, q), the vector's entry q. -/
theorem row128_apply (b : A S128) (q : Fin 128) : Cert.Spec.row128 b (ix2 (0 : Fin 1) q) = b (ix1 q) := by
  unfold Cert.Spec.row128
  exact shapeCast_a_1a_apply b _ (0 : Fin 1) q

/-- The last bias vector as a one-row matrix reads, at (0, q), the vector's entry q. -/
theorem row2_apply (b : A S2) (q : Fin 2) : Cert.Spec.row2 b (ix2 (0 : Fin 1) q) = b (ix1 q) := by
  unfold Cert.Spec.row2
  exact shapeCast_a_1a_apply b _ (0 : Fin 1) q

/-- The counts as a one-column matrix read, at (p, 0), the vector's entry p: both sit at row-major position p. -/
theorem col128_apply (c : A S128) (p : Fin 128) : Cert.Spec.col128 c (ix2 p (0 : Fin 1)) = c (ix1 p) := by
  unfold Cert.Spec.col128
  exact shapeCast_apply c _ (ix2 p (0 : Fin 1)) (ix1 p) (by
    rw [Shape.rowMajor_val_two, Shape.rowMajor_val_one]
    show p.val = p.val * 1 + 0
    omega)

/-! ## The layers, entry by entry -/

/-- Entry (p, q) of the mean: the sum's entry divided by the clamped count of row p. -/
theorem rMean_apply (sums : A S128x128) (cnt : A S128) (p q : Fin 128) :
    rMean sums cnt (ix2 p q) = Cert.Spec.meanAt sums (Cert.Spec.col128 cnt) p q := by
  unfold Cert.Spec.meanAt
  rw [col128_apply]
  unfold rMean
  rw [hostDivf_apply, count_apply, maximumf_apply, broadcastInDim_scalar_apply, constant_apply]

/-- Entry (p, q) of a dense relu layer whose input is known entry by entry. -/
theorem rDense_apply (g W : A S128x128) (b : A S128) (G : Fin 128 → Fin 128 → EReal)
    (hg : ∀ p k, g (ix2 p k) = G p k) (p q : Fin 128) :
    rDense g W b (ix2 p q) = Cert.Spec.denseAt G W (Cert.Spec.row128 b) p q := by
  unfold Cert.Spec.denseAt
  rw [row128_apply]
  unfold rDense
  rw [maximumf_apply, addf_apply, dot128_apply, bias128_apply, broadcastInDim_scalar_apply, constant_apply]
  simp only [hg]

/-- The host's exponential at an entry is the extended reals' exponential of the entry. -/
theorem hostExp_apply {s : Shape} (x : FVec Ideal s .f32) (i : s.Idx) : Host.exp x i = Ideal.exp (x i) := rfl
/-- The host's negation at an entry is the negation of the entry. -/
theorem hostNegf_apply {s : Shape} (x : FVec Ideal s .f32) (i : s.Idx) : Host.negf x i = -(x i) := rfl

/-- Entry (p, q) of the last layer: 1 / (1 + exp(-z)) of the dense entry z is the logistic function of z, the two
    splats of the word of 1.0 being the extended real one. -/
theorem rHead_apply (g : A S128x128) (Wl : A S128x2) (bl : A S2) (G : Fin 128 → Fin 128 → EReal)
    (hg : ∀ p k, g (ix2 p k) = G p k) (p : Fin 128) (q : Fin 2) :
    rHead g Wl bl (ix2 p q) = Cert.Spec.headAt G Wl (Cert.Spec.row2 bl) p q := by
  unfold Cert.Spec.headAt
  rw [row2_apply]
  unfold rHead Ideal.logistic
  rw [hostDivf_apply, addf_apply, broadcastInDim_scalar_apply, constant_apply, Ideal.ofBits_one_f32, hostExp_apply,
    hostNegf_apply, addf_apply, dot2_apply, bias2_apply]
  simp only [hg]

end Pieces

/-- The head as the reference spells it is `Cert.Spec.mlp` of the re-laid arguments: the biases as one-row matrices,
    the counts as a one-column matrix; 1 / (1 + exp(-z)) is the logistic function on the extended reals. -/
theorem rHead_eq (sums : A Cert.ReferenceIdeal.S128x128) (cnt : A Cert.ReferenceIdeal.S128)
    (W5 : A Cert.ReferenceIdeal.S128x128) (b5 : A Cert.ReferenceIdeal.S128) (W6 : A Cert.ReferenceIdeal.S128x128) (b6 : A Cert.ReferenceIdeal.S128)
    (W7 : A Cert.ReferenceIdeal.S128x128) (b7 : A Cert.ReferenceIdeal.S128) (W8 : A Cert.ReferenceIdeal.S128x128) (b8 : A Cert.ReferenceIdeal.S128)
    (Wl : A Cert.ReferenceIdeal.S128x2) (bl : A Cert.ReferenceIdeal.S2) :
    rHead (rDense (rDense (rDense (rDense (rMean sums cnt) W5 b5) W6 b6) W7 b7) W8 b8) Wl bl =
      Cert.Spec.mlp sums (Cert.Spec.col128 cnt) W5 (Cert.Spec.row128 b5) W6 (Cert.Spec.row128 b6) W7 (Cert.Spec.row128 b7)
        W8 (Cert.Spec.row128 b8) Wl (Cert.Spec.row2 bl) := by
  funext i
  obtain ⟨p, q, rfl⟩ : ∃ (p : Fin 128) (q : Fin 2), i = ix2 p q := ⟨i 0, i 1, eq_ix2 i⟩
  show _ = Cert.Spec.mlpAt sums (Cert.Spec.col128 cnt) W5 (Cert.Spec.row128 b5) W6 (Cert.Spec.row128 b6) W7 (Cert.Spec.row128 b7)
    W8 (Cert.Spec.row128 b8) Wl (Cert.Spec.row2 bl) p q
  unfold Cert.Spec.mlpAt
  have h0 : ∀ p k, rMean sums cnt (ix2 p k) = Cert.Spec.meanAt sums (Cert.Spec.col128 cnt) p k :=
    fun p k => rMean_apply sums cnt p k
  have h5 := fun p k => rDense_apply _ W5 b5 _ h0 p k
  have h6 := fun p k => rDense_apply _ W6 b6 _ h5 p k
  have h7 := fun p k => rDense_apply _ W7 b7 _ h6 p k
  have h8 := fun p k => rDense_apply _ W8 b8 _ h7 p k
  exact rHead_apply _ Wl bl _ h8 p q

end Cert.RVal

end
-- ==== Proof.RefValue.lean ====
/- The idealized reference's result is the network's function of the argument arrays. -/
import proofs.«412093_j29446295781863_1_alg».proof.Proof.RefTerm
import proofs.«412093_j29446295781863_1_alg».proof.Proof.RefLayer
import proofs.«412093_j29446295781863_1_alg».proof.Proof.RefPool
import proofs.«412093_j29446295781863_1_alg».proof.Proof.RefHead
import proofs.«412093_j29446295781863_1_alg».proof.Proof.Spec

set_option maxRecDepth 8192

noncomputable section

namespace Cert.RVal

open Idealize.ShloMosaic Idealize.ShloMosaic.TcCoe Cert.ReferenceIdeal

/-! The edge aggregation, the index re-layings and the node counts are the same host operations in both programs. -/

theorem rSrc_eq (ei : IVec S2x1600000 32) : rSrc ei = Cert.Spec.src ei := rfl
theorem rDst_eq (ei : IVec S2x1600000 32) : rDst ei = Cert.Spec.dst ei := rfl
theorem rAgg4_eq (x : A S100000x4) (s d : IVec S1600000 32) : rAgg4 x s d = Cert.Spec.agg4 x s d := rfl
theorem rAgg128_eq (x : A S100000x128) (s d : IVec S1600000 32) : rAgg128 x s d = Cert.Spec.agg128 x s d := rfl
theorem rCounts_eq (b : IVec S100000 32) : rCounts b = Cert.Spec.counts b := rfl

/-- The node features after the four layers: layer by layer the reference's spelling is the specification's. -/
theorem rNodes_eq (x0 : A S100000x4) (ei : IVec S2x1600000 32)
    (Wr0 : A S4x128) (br0 : A S128) (Wo0 : A S4x128) (Wr1 : A S128x128) (br1 : A S128) (Wo1 : A S128x128)
    (Wr2 : A S128x128) (br2 : A S128) (Wo2 : A S128x128) (Wr3 : A S128x128) (br3 : A S128) (Wo3 : A S128x128) :
    rNodes x0 ei Wr0 br0 Wo0 Wr1 br1 Wo1 Wr2 br2 Wo2 Wr3 br3 Wo3 =
      Cert.Spec.nodes x0 ei Wr0 br0 Wo0 Wr1 br1 Wo1 Wr2 br2 Wo2 Wr3 br3 Wo3 := by
  unfold rNodes Cert.Spec.nodes
  simp only [rLayer4_eq, rLayer128_eq, rAgg4_eq, rAgg128_eq, rSrc_eq, rDst_eq]

/-- The reference run's result term is the network's value at the launch memory's arguments. -/
theorem ref_eq (m : (ℓ : Loc nD τ sig) → Buf (Elt Ideal) ℓ) (c : Dev nD) :
    Cert.ReferenceIdeal.Value.res_main_v113 (F := Ideal) m c =
      Cert.Spec.net (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) (m ((c.tc : Thread nD τ).loc main_arg19)) (m ((c.tc : Thread nD τ).loc main_arg20)) (m ((c.tc : Thread nD τ).loc main_arg21)) (m ((c.tc : Thread nD τ).loc main_arg22)) (m ((c.tc : Thread nD τ).loc main_arg23)) (m ((c.tc : Thread nD τ).loc main_arg24)) := by
  rw [res_eq]
  unfold rNet Cert.Spec.net
  rw [rNodes_eq, rPool_eq, rCounts_eq, rHead_eq]

/-- The same, at any arrays the launch memory's arguments are equal to. -/
theorem ref_eq_of (m : (ℓ : Loc nD τ sig) → Buf (Elt Ideal) ℓ) (c : Dev nD)
    (a0 : Buf (Elt Ideal) ((c.tc : Thread nD τ).loc main_arg0)) (a1 : Buf (Elt Ideal) ((c.tc : Thread nD τ).loc main_arg1)) (a2 : Buf (Elt Ideal) ((c.tc : Thread nD τ).loc main_arg2)) (a3 : Buf (Elt Ideal) ((c.tc : Thread nD τ).loc main_arg3)) (a4 : Buf (Elt Ideal) ((c.tc : Thread nD τ).loc main_arg4)) (a5 : Buf (Elt Ideal) ((c.tc : Thread nD τ).loc main_arg5)) (a6 : Buf (Elt Ideal) ((c.tc : Thread nD τ).loc main_arg6)) (a7 : Buf (Elt Ideal) ((c.tc : Thread nD τ).loc main_arg7)) (a8 : Buf (Elt Ideal) ((c.tc : Thread nD τ).loc main_arg8)) (a9 : Buf (Elt Ideal) ((c.tc : Thread nD τ).loc main_arg9)) (a10 : Buf (Elt Ideal) ((c.tc : Thread nD τ).loc main_arg10)) (a11 : Buf (Elt Ideal) ((c.tc : Thread nD τ).loc main_arg11)) (a12 : Buf (Elt Ideal) ((c.tc : Thread nD τ).loc main_arg12)) (a13 : Buf (Elt Ideal) ((c.tc : Thread nD τ).loc main_arg13)) (a14 : Buf (Elt Ideal) ((c.tc : Thread nD τ).loc main_arg14)) (a15 : Buf (Elt Ideal) ((c.tc : Thread nD τ).loc main_arg15)) (a16 : Buf (Elt Ideal) ((c.tc : Thread nD τ).loc main_arg16)) (a17 : Buf (Elt Ideal) ((c.tc : Thread nD τ).loc main_arg17)) (a18 : Buf (Elt Ideal) ((c.tc : Thread nD τ).loc main_arg18)) (a19 : Buf (Elt Ideal) ((c.tc : Thread nD τ).loc main_arg19)) (a20 : Buf (Elt Ideal) ((c.tc : Thread nD τ).loc main_arg20)) (a21 : Buf (Elt Ideal) ((c.tc : Thread nD τ).loc main_arg21)) (a22 : Buf (Elt Ideal) ((c.tc : Thread nD τ).loc main_arg22)) (a23 : Buf (Elt Ideal) ((c.tc : Thread nD τ).loc main_arg23)) (a24 : Buf (Elt Ideal) ((c.tc : Thread nD τ).loc main_arg24))
    (h0 : m ((c.tc : Thread nD τ).loc main_arg0) = a0) (h1 : m ((c.tc : Thread nD τ).loc main_arg1) = a1) (h2 : m ((c.tc : Thread nD τ).loc main_arg2) = a2) (h3 : m ((c.tc : Thread nD τ).loc main_arg3) = a3) (h4 : m ((c.tc : Thread nD τ).loc main_arg4) = a4) (h5 : m ((c.tc : Thread nD τ).loc main_arg5) = a5) (h6 : m ((c.tc : Thread nD τ).loc main_arg6) = a6) (h7 : m ((c.tc : Thread nD τ).loc main_arg7) = a7) (h8 : m ((c.tc : Thread nD τ).loc main_arg8) = a8) (h9 : m ((c.tc : Thread nD τ).loc main_arg9) = a9) (h10 : m ((c.tc : Thread nD τ).loc main_arg10) = a10) (h11 : m ((c.tc : Thread nD τ).loc main_arg11) = a11) (h12 : m ((c.tc : Thread nD τ).loc main_arg12) = a12) (h13 : m ((c.tc : Thread nD τ).loc main_arg13) = a13) (h14 : m ((c.tc : Thread nD τ).loc main_arg14) = a14) (h15 : m ((c.tc : Thread nD τ).loc main_arg15) = a15) (h16 : m ((c.tc : Thread nD τ).loc main_arg16) = a16) (h17 : m ((c.tc : Thread nD τ).loc main_arg17) = a17) (h18 : m ((c.tc : Thread nD τ).loc main_arg18) = a18) (h19 : m ((c.tc : Thread nD τ).loc main_arg19) = a19) (h20 : m ((c.tc : Thread nD τ).loc main_arg20) = a20) (h21 : m ((c.tc : Thread nD τ).loc main_arg21) = a21) (h22 : m ((c.tc : Thread nD τ).loc main_arg22) = a22) (h23 : m ((c.tc : Thread nD τ).loc main_arg23) = a23) (h24 : m ((c.tc : Thread nD τ).loc main_arg24) = a24) :
    Cert.ReferenceIdeal.Value.res_main_v113 (F := Ideal) m c =
      Cert.Spec.net a0 a1 a2 a3 a4 a5 a6 a7 a8 a9 a10 a11 a12 a13 a14 a15 a16 a17 a18 a19 a20 a21 a22 a23 a24 := by
  subst h0 h1 h2 h3 h4 h5 h6 h7 h8 h9 h10 h11 h12 h13 h14 h15 h16 h17 h18 h19 h20 h21 h22 h23 h24
  exact ref_eq m c

end Cert.RVal

end
-- ==== Proof.lean ====
/-
  The certificate of a four-layer graph convolution network with a mean-pooled dense head.

  Both programs compute, from node features x₀, an edge list, graph ids and the weights, the same function over the
  extended reals (`Cert.Spec.net`): four times x ↦ relu(A(x) · Wr + x · Wo + br), where A sums the rows of x over the
  incoming edges of each node; then the rows summed per graph, divided by the clamped node count; then four dense relu
  layers and a dense layer under the logistic function.  The kernel program computes each layer's dense update, the
  per-graph sums (as a product with the 0/1 membership matrix, accumulated tile by tile) and the head in six regions;
  the reference computes everything with host operations (the per-graph sums by a scatter-add).  The two results are
  joined by: commutativity and associativity of addition (the bias is added before or after the second product, the
  per-graph sum is taken tile by tile or all at once), 0 · v = 0 and 1 · v = v for every extended real v (the membership
  matrix selects the rows of a graph), and 1 / (1 + exp(−z)) being the logistic function.  No finiteness is used.

  The three frames are the generated frame certificates (the reference's is its generated run with the result
  dropped); the idealization's ledger is empty.
-/
import proofs.«412093_j29446295781863_1_alg».proof.Defs
import proofs.«412093_j29446295781863_1_alg».proof.Proof.Gen.Kernel
import proofs.«412093_j29446295781863_1_alg».proof.Proof.Gen.Kernel.Skeleton
import proofs.«412093_j29446295781863_1_alg».proof.Proof.Gen.Kernel.Launch
import proofs.«412093_j29446295781863_1_alg».proof.Proof.Gen.Kernel.Points
import proofs.«412093_j29446295781863_1_alg».proof.Proof.Gen.Kernel.Frame
import proofs.«412093_j29446295781863_1_alg».proof.Proof.Gen.KernelIdeal
import proofs.«412093_j29446295781863_1_alg».proof.Proof.Gen.KernelIdeal.Skeleton
import proofs.«412093_j29446295781863_1_alg».proof.Proof.Gen.KernelIdeal.Launch
import proofs.«412093_j29446295781863_1_alg».proof.Proof.Gen.KernelIdeal.Points
import proofs.«412093_j29446295781863_1_alg».proof.Proof.Gen.KernelIdeal.Frame
import proofs.«412093_j29446295781863_1_alg».proof.Proof.Gen.ReferenceIdeal
import proofs.«412093_j29446295781863_1_alg».proof.Proof.Gen.ReferenceIdeal.Run
import proofs.«412093_j29446295781863_1_alg».proof.Proof.Gen.Pre_finite_inputs
import proofs.«412093_j29446295781863_1_alg».proof.Proof.Spec
import proofs.«412093_j29446295781863_1_alg».proof.Proof.KRun
import proofs.«412093_j29446295781863_1_alg».proof.Proof.KChain
import proofs.«412093_j29446295781863_1_alg».proof.Proof.RefValue
import Idealize.ShloMosaic.Adequacy
import Idealize.ShloMosaic.Init

noncomputable section

namespace Cert.Proof

open Idealize.ShloMosaic Idealize.ShloMosaic.TcCoe Idealize.SL.Sem

/-- The idealized kernel program and the idealized reference, run from memories that agree on the arguments, both end
    with the network's value of the arguments in their result buffers. -/
theorem algebraic : Cert.algebraic_KernelIdeal_ReferenceIdeal := by
  intro m ρ m' ρ' _ hagree
  refine ⟨fun c => Cert.Spec.net (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) (m ((c.tc : Thread Cert.KernelIdeal.nD Cert.KernelIdeal.τ).loc Cert.KernelIdeal.main_arg24)), ?_, ?_⟩
  · exact (θ_run Cert.KernelIdeal.defs _ _).mono
      (fun _ h c => ⟨(h c).1.trans (Cert.KVal.result_eq m ρ c), (h c).2⟩)
      (Cert.KernelIdeal.Gen.run_main (F := Ideal) m ρ)
  · refine (θ_run Cert.ReferenceIdeal.defs _ _).mono (fun _ h c => ⟨(h c).1.trans ?_, (h c).2⟩)
      (Cert.ReferenceIdeal.Value.run (F := Ideal) m' ρ')
    obtain ⟨h0, h1, h2, h3, h4, h5, h6, h7, h8, h9, h10, h11, h12, h13, h14, h15, h16, h17, h18, h19, h20, h21, h22, h23, h24⟩ := hagree c
    exact Cert.RVal.ref_eq_of m' c _ _ _ _ _ _ _ _ _ _ _ _ _ _ _ _ _ _ _ _ _ _ _ _ _ h0 h1 h2 h3 h4 h5 h6 h7 h8 h9 h10 h11 h12 h13 h14 h15 h16 h17 h18 h19 h20 h21 h22 h23 h24

theorem claim : Cert.Claim := ⟨Cert.Kernel.Gen.facts, Cert.KernelIdeal.Gen.facts, Cert.ReferenceIdeal.Gen.facts, Cert.Pre_finite_inputs.Gen.facts,
  fun m ρ _ => Cert.Kernel.Gen.frame m ρ,
  fun m ρ _ => Cert.KernelIdeal.Gen.frame m ρ,
  fun m ρ _ => (θ_run Cert.ReferenceIdeal.defs _ _).mono (fun _ h c => (h c).2) (Cert.ReferenceIdeal.Value.run (F := Ideal) m ρ),
  trivial,
  algebraic⟩

end Cert.Proof

end
